-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v26)) (v1 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S256x1 : Shape := ⟨2, ![256, 1]⟩
abbrev S1 : Shape := ⟨1, ![1]⟩
abbrev S256x256 : Shape := ⟨2, ![256, 256]⟩
abbrev S256 : Shape := ⟨1, ![256]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S2x3200000 : S_.BroadcastsInDim S2x3200000 (![] : Fin 0 → Fin S2x3200000.rank)
  reducesTo_S2x3200000_S_d0_1 : S2x3200000.ReducesTo [0, 1] S_

variable [Facts]

def fn_part2 {F : FTy → Type} [FloatOps F] (main_arg1 : IVec S2x3200000 32) (main_v33 : IVec S_ 1) : IVec S_ 1 :=
  let main_c_12 : IVec S_ 32 := constantI S_ 32 0#32
  let main_v34 : IVec S2x3200000 32 := broadcastInDim S2x3200000 ![] bcast_S_S2x3200000 main_c_12
  let main_v35 : IVec S2x3200000 1 := cmpi .sge main_arg1 main_v34
  let main_c_13 : IVec S_ 32 := constantI S_ 32 100000#32
  let main_v36 : IVec S2x3200000 32 := broadcastInDim S2x3200000 ![] bcast_S_S2x3200000 main_c_13
  let main_v37 : IVec S2x3200000 1 := cmpi .slt main_arg1 main_v36
  let main_v38 : IVec S2x3200000 1 := andi main_v35 main_v37
  let main_c_14 : IVec S_ 1 := constantI S_ 1 1#1
  let main_v39 : IVec S_ 1 := (fun x v => Host.reduce IntOp.andi x v reducesTo_S2x3200000_S_d0_1 h_S_) main_v38 main_c_14
  let main_v40 : IVec S_ 1 := andi main_v33 main_v39
  main_v40

def fn_part1 {F : FTy → Type} [FloatOps F] (main_arg1 : IVec S2x3200000 32) (main_arg5 : FVec F S1 .f32) (main_arg6 : FVec F S256x256 .f32) (main_arg7 : FVec F S256 .f32) (main_v13 : IVec S_ 1) (main_v16 : IVec S256x1 1) : IVec S_ 1 :=
  let main_c_5 : IVec S_ 1 := constantI S_ 1 1#1
  let main_v17 : IVec S_ 1 := (fun x v => Host.reduce IntOp.andi x v reducesTo_S256x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg1 main_v33

def fn {F : FTy → Type} [FloatOps F] (main_arg0 : FVec F S100000x256 .f32) (main_arg1 : IVec S2x3200000 32) (main_arg2 : FVec F S256x1 .f32) (main_arg3 : FVec F S1 .f32) (main_arg4 : FVec F S256x1 .f32) (main_arg5 : FVec F S1 .f32) (main_arg6 : FVec F S256x256 .f32) (main_arg7 : FVec F S256 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x1 .f32 := Host.absf main_arg2
  let main_cst_0 : FVec F S_ .f32 := constant S_ .f32 0x7F800000#32
  let main_v5 : FVec F S256x1 .f32 := broadcastInDim S256x1 ![] bcast_S_S256x1 main_cst_0
  let main_v6 : IVec S256x1 1 := cmpf .olt main_v4 main_v5
  let main_c_1 : IVec S_ 1 := constantI S_ 1 1#1
  let main_v7 : IVec S_ 1 := (fun x v => Host.reduce IntOp.andi x v reducesTo_S256x1_S_d0_1 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S256x1 .f32 := Host.absf main_arg4
  let main_cst_4 : FVec F S_ .f32 := constant S_ .f32 0x7F800000#32
  let main_v15 : FVec F S256x1 .f32 := broadcastInDim S256x1 ![] bcast_S_S256x1 main_cst_4
  let main_v16 : IVec S256x1 1 := cmpf .olt main_v14 main_v15
  fn_part1 (F := F) main_arg1 main_arg5 main_arg6 main_arg7 main_v13 main_v16
-- ==== Kernel.lean ====
abbrev S100000x256 : Shape := ⟨2, ![100000, 256]⟩
abbrev S2x3200000 : Shape := ⟨2, ![2, 3200000]⟩
abbrev S256x1 : Shape := ⟨2, ![256, 1]⟩
abbrev S1 : Shape := ⟨1, ![1]⟩
abbrev S256x256 : Shape := ⟨2, ![256, 256]⟩
abbrev S256 : Shape := ⟨1, ![256]⟩
abbrev S100000x1 : Shape := ⟨2, ![100000, 1]⟩
abbrev S5000x256 : Shape := ⟨2, ![5000, 256]⟩
abbrev S5000x1 : Shape := ⟨2, ![5000, 1]⟩
abbrev S1x1 : Shape := ⟨2, ![1, 1]⟩
abbrev S1x256 : Shape := ⟨2, ![1, 256]⟩
abbrev S1x3200000 : Shape := ⟨2, ![1, 3200000]⟩
abbrev S3200000 : Shape := ⟨1, ![3200000]⟩
abbrev S100000 : Shape := ⟨1, ![100000]⟩
abbrev S_ : Shape := ⟨0, ![]⟩
abbrev S3200000x1 : Shape := ⟨2, ![3200000, 1]⟩
abbrev S2000x1 : Shape := ⟨2, ![2000, 1]⟩
abbrev S2000x256 : Shape := ⟨2, ![2000, 256]⟩

abbrev nBuf : Space → Nat
  | .hbm => 90
  | .vmem => 20
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x1, .f32⟩
  | .hbm, ⟨3, _⟩ => ⟨S1, .f32⟩
  | .hbm, ⟨4, _⟩ => ⟨S256x1, .f32⟩
  | .hbm, ⟨5, _⟩ => ⟨S1, .f32⟩
  | .hbm, ⟨6, _⟩ => ⟨S256x256, .f32⟩
  | .hbm, ⟨7, _⟩ => ⟨S256, .f32⟩
  | .hbm, ⟨8, _⟩ => ⟨S100000x1, .f32⟩
  | .hbm, ⟨9, _⟩ => ⟨S100000x1, .f32⟩
  | .hbm, ⟨10, _⟩ => ⟨S100000x256, .f32⟩
  | .hbm, ⟨11, _⟩ => ⟨S1x3200000, .i32⟩
  | .hbm, ⟨12, _⟩ => ⟨S3200000, .i32⟩
  | .hbm, ⟨13, _⟩ => ⟨S1x3200000, .i32⟩
  | .hbm, ⟨14, _⟩ => ⟨S3200000, .i32⟩
  | .hbm, ⟨15, _⟩ => ⟨S100000, .f32⟩
  | .hbm, ⟨16, _⟩ => ⟨S_, .i32⟩
  | .hbm, ⟨17, _⟩ => ⟨S3200000, .i32⟩
  | .hbm, ⟨18, _⟩ => ⟨S3200000, .i1⟩
  | .hbm, ⟨19, _⟩ => ⟨S_, .i32⟩
  | .hbm, ⟨20, _⟩ => ⟨S3200000, .i32⟩
  | .hbm, ⟨21, _⟩ => ⟨S3200000, .i32⟩
  | .hbm, ⟨22, _⟩ => ⟨S3200000, .i32⟩
  | .hbm, ⟨23, _⟩ => ⟨S3200000x1, .i32⟩
  | .hbm, ⟨24, _⟩ => ⟨S1, .i32⟩
  | .hbm, ⟨25, _⟩ => ⟨S_, .i32⟩
  | .hbm, ⟨26, _⟩ => ⟨S3200000x1, .i32⟩
  | .hbm, ⟨27, _⟩ => ⟨S3200000x1, .i1⟩
  | .hbm, ⟨28, _⟩ => ⟨S1x1, .i32⟩
  | .hbm, ⟨29, _⟩ => ⟨S3200000x1, .i32⟩
  | .hbm, ⟨30, _⟩ => ⟨S3200000x1, .i1⟩
  | .hbm, ⟨31, _⟩ => ⟨S3200000x1, .i1⟩
  | .hbm, ⟨32, _⟩ => ⟨S_, .i1⟩
  | .hbm, ⟨33, _⟩ => ⟨S3200000, .i1⟩
  | .hbm, ⟨34, _⟩ => ⟨S3200000, .f32⟩
  | .hbm, ⟨35, _⟩ => ⟨S_, .f32⟩
  | .hbm, ⟨36, _⟩ => ⟨S3200000, .f32⟩
  | .hbm, ⟨37, _⟩ => ⟨S3200000, .f32⟩
  | .hbm, ⟨38, _⟩ => ⟨S100000, .f32⟩
  | .hbm, ⟨39, _⟩ => ⟨S_, .i32⟩
  | .hbm, ⟨40, _⟩ => ⟨S3200000, .i32⟩
  | .hbm, ⟨41, _⟩ => ⟨S3200000, .i1⟩
  | .hbm, ⟨42, _⟩ => ⟨S_, .i32⟩
  | .hbm, ⟨43, _⟩ => ⟨S3200000, .i32⟩
  | .hbm, ⟨44, _⟩ => ⟨S3200000, .i32⟩
  | .hbm, ⟨45, _⟩ => ⟨S3200000, .i32⟩
  | .hbm, ⟨46, _⟩ => ⟨S3200000x1, .i32⟩
  | .hbm, ⟨47, _⟩ => ⟨S1, .i32⟩
  | .hbm, ⟨48, _⟩ => ⟨S_, .i32⟩
  | .hbm, ⟨49, _⟩ => ⟨S3200000x1, .i32⟩
  | .hbm, ⟨50, _⟩ => ⟨S3200000x1, .i1⟩
  | .hbm, ⟨51, _⟩ => ⟨S1x1, .i32⟩
  | .hbm, ⟨52, _⟩ => ⟨S3200000x1, .i32⟩
  | .hbm, ⟨53, _⟩ => ⟨S3200000x1, .i1⟩
  | .hbm, ⟨54, _⟩ => ⟨S3200000x1, .i1⟩
  | .hbm, ⟨55, _⟩ => ⟨S_, .i1⟩
  | .hbm, ⟨56, _⟩ => ⟨S3200000, .i1⟩
  | .hbm, ⟨57, _⟩ => ⟨S3200000, .f32⟩
  | .hbm, ⟨58, _⟩ => ⟨S_, .f32⟩
  | .hbm, ⟨59, _⟩ => ⟨S3200000, .f32⟩
  | .hbm, ⟨60, _⟩ => ⟨S3200000, .f32⟩
  | .hbm, ⟨61, _⟩ => ⟨S3200000, .f32⟩
  | .hbm, ⟨62, _⟩ => ⟨S_, .f32⟩
  | .hbm, ⟨63, _⟩ => ⟨S_, .f32⟩
  | .hbm, ⟨64, _⟩ => ⟨S3200000, .f32⟩
  | .hbm, ⟨65, _⟩ => ⟨S3200000, .i1⟩
  | .hbm, ⟨66, _⟩ => ⟨S_, .f32⟩
  | .hbm, ⟨67, _⟩ => ⟨S3200000, .f32⟩
  | .hbm, ⟨68, _⟩ => ⟨S3200000, .f32⟩
  | .hbm, ⟨69, _⟩ => ⟨S3200000, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S1, .f32⟩
  | .hbm, ⟨75, _⟩ => ⟨S3200000, .f32⟩
  | .hbm, ⟨76, _⟩ => ⟨S3200000, .f32⟩
  | .hbm, ⟨77, _⟩ => ⟨S3200000, .f32⟩
  | .hbm, ⟨78, _⟩ => ⟨S_, .f32⟩
  | .hbm, ⟨79, _⟩ => ⟨S_, .f32⟩
  | .hbm, ⟨80, _⟩ => ⟨S1, .f32⟩
  | .hbm, ⟨81, _⟩ => ⟨S3200000, .f32⟩
  | .hbm, ⟨82, _⟩ => ⟨S3200000, .f32⟩
  | .hbm, ⟨83, _⟩ => ⟨S_, .f32⟩
  | .hbm, ⟨84, _⟩ => ⟨S100000, .f32⟩
  | .hbm, ⟨85, _⟩ => ⟨S3200000x1, .i32⟩
  | .hbm, ⟨86, _⟩ => ⟨S100000, .f32⟩
  | .hbm, ⟨87, _⟩ => ⟨S100000x1, .f32⟩
  | .hbm, ⟨88, _⟩ => ⟨S1x256, .f32⟩
  | .hbm, ⟨89, _⟩ => ⟨S256, .f32⟩
  | .local _ .vmem, ⟨0, _⟩ => ⟨S5000x256, .f32⟩
  | .local _ .vmem, ⟨1, _⟩ => ⟨S5000x256, .f32⟩
  | .local _ .vmem, ⟨2, _⟩ => ⟨S256x1, .f32⟩
  | .local _ .vmem, ⟨3, _⟩ => ⟨S1, .f32⟩
  | .local _ .vmem, ⟨4, _⟩ => ⟨S256x1, .f32⟩
  | .local _ .vmem, ⟨5, _⟩ => ⟨S1, .f32⟩
  | .local _ .vmem, ⟨6, _⟩ => ⟨S256x256, .f32⟩
  | .local _ .vmem, ⟨7, _⟩ => ⟨S256, .f32⟩
  | .local _ .vmem, ⟨8, _⟩ => ⟨S5000x1, .f32⟩
  | .local _ .vmem, ⟨9, _⟩ => ⟨S5000x1, .f32⟩
  | .local _ .vmem, ⟨10, _⟩ => ⟨S5000x1, .f32⟩
  | .local _ .vmem, ⟨11, _⟩ => ⟨S5000x1, .f32⟩
  | .local _ .vmem, ⟨12, _⟩ => ⟨S5000x256, .f32⟩
  | .local _ .vmem, ⟨13, _⟩ => ⟨S5000x256, .f32⟩
  | .local _ .vmem, ⟨14, _⟩ => ⟨S2000x1, .f32⟩
  | .local _ .vmem, ⟨15, _⟩ => ⟨S2000x1, .f32⟩
  | .local _ .vmem, ⟨16, _⟩ => ⟨S2000x256, .f32⟩
  | .local _ .vmem, ⟨17, _⟩ => ⟨S2000x256, .f32⟩
  | .local _ .vmem, ⟨18, _⟩ => ⟨S1x256, .f32⟩
  | .local _ .vmem, ⟨19, _⟩ => ⟨S1x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_cst : Ref sig .tc := ⟨.hbm, 35, rfl⟩
abbrev main_call0_v14 : Ref sig .tc := ⟨.hbm, 36, rfl⟩
abbrev main_v6 : Ref sig .tc := ⟨.hbm, 37, rfl⟩
abbrev main_v7 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_c_1 : Ref sig .tc := ⟨.hbm, 47, rfl⟩
abbrev main_call1_c_2 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_3 : Ref sig .tc := ⟨.hbm, 55, rfl⟩
abbrev main_call1_v12 : Ref sig .tc := ⟨.hbm, 56, rfl⟩
abbrev main_call1_v13 : Ref sig .tc := ⟨.hbm, 57, rfl⟩
abbrev main_call1_cst : Ref sig .tc := ⟨.hbm, 58, rfl⟩
abbrev main_call1_v14 : Ref sig .tc := ⟨.hbm, 59, rfl⟩
abbrev main_v8 : Ref sig .tc := ⟨.hbm, 60, rfl⟩
abbrev main_v9 : Ref sig .tc := ⟨.hbm, 61, rfl⟩
abbrev main_cst : Ref sig .tc := ⟨.hbm, 62, rfl⟩
abbrev main_call2_cst : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_v10 : Ref sig .tc := ⟨.hbm, 69, rfl⟩
abbrev main_cst_0 : Ref sig .tc := ⟨.hbm, 70, rfl⟩
abbrev main_v11 : Ref sig .tc := ⟨.hbm, 71, rfl⟩
abbrev main_cst_1 : Ref sig .tc := ⟨.hbm, 72, rfl⟩
abbrev main_v12 : Ref sig .tc := ⟨.hbm, 73, rfl⟩
abbrev main_v13 : Ref sig .tc := ⟨.hbm, 74, rfl⟩
abbrev main_v14 : Ref sig .tc := ⟨.hbm, 75, rfl⟩
abbrev main_v15 : Ref sig .tc := ⟨.hbm, 76, rfl⟩
abbrev main_v16 : Ref sig .tc := ⟨.hbm, 77, rfl⟩
abbrev main_cst_2 : Ref sig .tc := ⟨.hbm, 78, rfl⟩
abbrev main_v17 : Ref sig .tc := ⟨.hbm, 79, rfl⟩
abbrev main_v18 : Ref sig .tc := ⟨.hbm, 80, rfl⟩
abbrev main_v19 : Ref sig .tc := ⟨.hbm, 81, rfl⟩
abbrev main_v20 : Ref sig .tc := ⟨.hbm, 82, rfl⟩
abbrev main_cst_3 : Ref sig .tc := ⟨.hbm, 83, rfl⟩
abbrev main_v21 : Ref sig .tc := ⟨.hbm, 84, rfl⟩
abbrev main_v22 : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_v26 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S5000x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S5000x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![50], ![false]⟩

def k1_cond2 (i : grid1.Coords) : BitVec 1 :=
  let arg0 : BitVec 32 := BitVec.ofNat 32 (i 0).val
  let c49_i32 : BitVec 32 := 49#32
  let v16 : BitVec 1 := Scalar.cmpi .eq arg0 c49_i32
  let v17 : BitVec 32 := Scalar.extui v16
  let c0_i32_8 : BitVec 32 := 0#32
  let v18 : BitVec 1 := Scalar.cmpi .ne v17 c0_i32_8
  v18

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x1_S256x1_0_0 : ∀ a, (![0, 0] : Fin 2 → Nat) a + S256x1.size a ≤ S256x1.size a
  h_S256x1 : 0 < S256x1.numel
  inb_S256x256_S256x256_0_0 : ∀ a, (![0, 0] : Fin 2 → Nat) a + S256x256.size a ≤ S256x256.size a
  h_S256x256 : 0 < S256x256.numel
  inb_S1_S1_0 : ∀ a, (![0] : Fin 1 → Nat) a + S1.size a ≤ S1.size a
  h_S1 : 0 < S1.numel
  shapeCasts_S1_S1x1 : S1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  inb_S256_S256_0 : ∀ a, (![0] : Fin 1 → Nat) a + S256.size a ≤ S256.size a
  h_S256 : 0 < S256.numel
  shapeCasts_S256_S1x256 : S256.ShapeCasts S1x256
  broadcasts_S1x256_S5000x256 : S1x256.Broadcasts S5000x256
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  shapeCasts_S100000x1_S100000 : S100000x1.ShapeCasts S100000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S3200000x1 : S_.BroadcastsInDim S3200000x1 (![] : Fin 0 → Fin S3200000x1.rank)
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  reducesTo_S3200000x1_S3200000_d1 : S3200000x1.ReducesTo [1] S3200000
  h_S_ : 0 < S_.numel
  reducesTo_S3200000_S_d0 : S3200000.ReducesTo [0] S_
  bcast_S_S1 : S_.BroadcastsInDim S1 (![] : Fin 0 → Fin S1.rank)
  bcast_S1_S3200000_0 : S1.BroadcastsInDim S3200000 (![0] : Fin 1 → Fin S3200000.rank)
  bcast_S_S100000 : S_.BroadcastsInDim S100000 (![] : Fin 0 → Fin S100000.rank)
  shapeCasts_S100000_S100000x1 : S100000.ShapeCasts S100000x1
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  broadcasts_S2000x1_S2000x256 : S2000x1.Broadcasts S2000x256
  reduces_S2000x256_S256 : S2000x256.Reduces [0] S256
  shapeCasts_S1x256_S256 : S1x256.ShapeCasts S256
  dot_S5000x256_S256x1_S5000x1_1_0_0_1_n_n_wf : DotDims.WF S5000x256 S256x1 S5000x1 [1] [0] [0] [1] [] []
  dot_S5000x256_S256x256_S5000x256_1_0_0_1_n_n_wf : DotDims.WF S5000x256 S256x256 S5000x256 [1] [0] [0] [1] [] []
  gather_S100000_S3200000x1_S3200000_n_0_n_n_0_1_1_wf : GatherDims.WF S100000 S3200000x1 S3200000 [] [0] [] [0] [] 1 ![1]
  scatter_S100000_S3200000x1_S3200000_n_0_0_1_wf : ScatterDims.WF S100000 S3200000x1 S3200000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S256x1.size a
  hwx0_1 : ∀ i : grid0.Coords, EltTy.bits .f32 = 32 ∨ (Rect.block (s := S256x1) S256x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1.size a ≤ S1.size a
  hwx0_2 : ∀ i : grid0.Coords, EltTy.bits .f32 = 32 ∨ (Rect.block (s := S1) S1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S256x1.size a
  hwx0_3 : ∀ i : grid0.Coords, EltTy.bits .f32 = 32 ∨ (Rect.block (s := S256x1) S256x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1.size a ≤ S1.size a
  hwx0_4 : ∀ i : grid0.Coords, EltTy.bits .f32 = 32 ∨ (Rect.block (s := S1) S1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x1.size a ≤ S100000x1.size a
  hwx0_7 : ∀ i : grid0.Coords, EltTy.bits .f32 = 32 ∨ (Rect.block (s := S100000x1) S5000x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x1.size a ≤ S100000x1.size a
  hwx0_8 : ∀ i : grid0.Coords, EltTy.bits .f32 = 32 ∨ (Rect.block (s := S100000x1) S5000x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x256.size a ≤ S100000x256.size a
  hwx0_9 : ∀ i : grid0.Coords, EltTy.bits .f32 = 32 ∨ (Rect.block (s := S100000x256) S5000x256.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x1.size a ≤ S100000x1.size a
  hwx1_0 : ∀ i : grid1.Coords, EltTy.bits .f32 = 32 ∨ (Rect.block (s := S100000x1) S2000x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S100000x256.size a
  hwx1_1 : ∀ i : grid1.Coords, EltTy.bits .f32 = 32 ∨ (Rect.block (s := S100000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)

variable [Facts₀]

def dot_S5000x256_S256x1_S5000x1_1_0_0_1_n_n : DotDims S5000x256 S256x1 S5000x1 where
  lhsContracting := [1]
  rhsContracting := [0]
  lhsNonContracting := [0]
  rhsNonContracting := [1]
  lhsBatch := []
  rhsBatch := []
  wf := dot_S5000x256_S256x1_S5000x1_1_0_0_1_n_n_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0_0) S5000x1.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_1) S5000x1.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0_2) S5000x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v24) S2000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_2) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S1x256.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S100000x256 : Shape := ⟨2, ![100000, 256]⟩
abbrev S2x3200000 : Shape := ⟨2, ![2, 3200000]⟩
abbrev S256x1 : Shape := ⟨2, ![256, 1]⟩
abbrev S1 : Shape := ⟨1, ![1]⟩
abbrev S256x256 : Shape := ⟨2, ![256, 256]⟩
abbrev S256 : Shape := ⟨1, ![256]⟩
abbrev S100000x1 : Shape := ⟨2, ![100000, 1]⟩
abbrev S1x1 : Shape := ⟨2, ![1, 1]⟩
abbrev S1x256 : Shape := ⟨2, ![1, 256]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S100000 : Shape := ⟨1, ![100000]⟩

abbrev nBuf : Space → Nat
  | .hbm => 75
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x1, .f32⟩
  | .hbm, ⟨3, _⟩ => ⟨S1, .f32⟩
  | .hbm, ⟨4, _⟩ => ⟨S256x1, .f32⟩
  | .hbm, ⟨5, _⟩ => ⟨S1, .f32⟩
  | .hbm, ⟨6, _⟩ => ⟨S256x256, .f32⟩
  | .hbm, ⟨7, _⟩ => ⟨S256, .f32⟩
  | .hbm, ⟨8, _⟩ => ⟨S100000x1, .f32⟩
  | .hbm, ⟨9, _⟩ => ⟨S1x1, .f32⟩
  | .hbm, ⟨10, _⟩ => ⟨S100000x1, .f32⟩
  | .hbm, ⟨11, _⟩ => ⟨S100000x1, .f32⟩
  | .hbm, ⟨12, _⟩ => ⟨S100000x1, .f32⟩
  | .hbm, ⟨13, _⟩ => ⟨S1x1, .f32⟩
  | .hbm, ⟨14, _⟩ => ⟨S100000x1, .f32⟩
  | .hbm, ⟨15, _⟩ => ⟨S100000x1, .f32⟩
  | .hbm, ⟨16, _⟩ => ⟨S100000x256, .f32⟩
  | .hbm, ⟨17, _⟩ => ⟨S1x256, .f32⟩
  | .hbm, ⟨18, _⟩ => ⟨S100000x256, .f32⟩
  | .hbm, ⟨19, _⟩ => ⟨S100000x256, .f32⟩
  | .hbm, ⟨20, _⟩ => ⟨S1x3200000, .i32⟩
  | .hbm, ⟨21, _⟩ => ⟨S3200000, .i32⟩
  | .hbm, ⟨22, _⟩ => ⟨S1x3200000, .i32⟩
  | .hbm, ⟨23, _⟩ => ⟨S3200000, .i32⟩
  | .hbm, ⟨24, _⟩ => ⟨S_, .i32⟩
  | .hbm, ⟨25, _⟩ => ⟨S3200000, .i32⟩
  | .hbm, ⟨26, _⟩ => ⟨S3200000, .i1⟩
  | .hbm, ⟨27, _⟩ => ⟨S_, .i32⟩
  | .hbm, ⟨28, _⟩ => ⟨S3200000, .i32⟩
  | .hbm, ⟨29, _⟩ => ⟨S3200000, .i32⟩
  | .hbm, ⟨30, _⟩ => ⟨S3200000, .i32⟩
  | .hbm, ⟨31, _⟩ => ⟨S3200000x1, .i32⟩
  | .hbm, ⟨32, _⟩ => ⟨S3200000x1, .f32⟩
  | .hbm, ⟨33, _⟩ => ⟨S_, .i32⟩
  | .hbm, ⟨34, _⟩ => ⟨S3200000, .i32⟩
  | .hbm, ⟨35, _⟩ => ⟨S3200000, .i1⟩
  | .hbm, ⟨36, _⟩ => ⟨S_, .i32⟩
  | .hbm, ⟨37, _⟩ => ⟨S3200000, .i32⟩
  | .hbm, ⟨38, _⟩ => ⟨S3200000, .i32⟩
  | .hbm, ⟨39, _⟩ => ⟨S3200000, .i32⟩
  | .hbm, ⟨40, _⟩ => ⟨S3200000x1, .i32⟩
  | .hbm, ⟨41, _⟩ => ⟨S3200000x1, .f32⟩
  | .hbm, ⟨42, _⟩ => ⟨S3200000x1, .f32⟩
  | .hbm, ⟨43, _⟩ => ⟨S_, .f32⟩
  | .hbm, ⟨44, _⟩ => ⟨S3200000, .f32⟩
  | .hbm, ⟨45, _⟩ => ⟨S_, .f32⟩
  | .hbm, ⟨46, _⟩ => ⟨S_, .f32⟩
  | .hbm, ⟨47, _⟩ => ⟨S3200000, .f32⟩
  | .hbm, ⟨48, _⟩ => ⟨S3200000, .i1⟩
  | .hbm, ⟨49, _⟩ => ⟨S_, .f32⟩
  | .hbm, ⟨50, _⟩ => ⟨S3200000, .f32⟩
  | .hbm, ⟨51, _⟩ => ⟨S3200000, .f32⟩
  | .hbm, ⟨52, _⟩ => ⟨S3200000, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S1, .f32⟩
  | .hbm, ⟨58, _⟩ => ⟨S3200000, .f32⟩
  | .hbm, ⟨59, _⟩ => ⟨S3200000, .f32⟩
  | .hbm, ⟨60, _⟩ => ⟨S3200000, .f32⟩
  | .hbm, ⟨61, _⟩ => ⟨S_, .f32⟩
  | .hbm, ⟨62, _⟩ => ⟨S_, .f32⟩
  | .hbm, ⟨63, _⟩ => ⟨S1, .f32⟩
  | .hbm, ⟨64, _⟩ => ⟨S3200000, .f32⟩
  | .hbm, ⟨65, _⟩ => ⟨S3200000, .f32⟩
  | .hbm, ⟨66, _⟩ => ⟨S_, .f32⟩
  | .hbm, ⟨67, _⟩ => ⟨S100000, .f32⟩
  | .hbm, ⟨68, _⟩ => ⟨S3200000x1, .i32⟩
  | .hbm, ⟨69, _⟩ => ⟨S100000, .f32⟩
  | .hbm, ⟨70, _⟩ => ⟨S100000x1, .f32⟩
  | .hbm, ⟨71, _⟩ => ⟨S100000x256, .f32⟩
  | .hbm, ⟨72, _⟩ => ⟨S100000x256, .f32⟩
  | .hbm, ⟨73, _⟩ => ⟨S_, .f32⟩
  | .hbm, ⟨74, _⟩ => ⟨S256, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_c_0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_1 : Ref sig .tc := ⟨.hbm, 33, rfl⟩
abbrev main_v23 : Ref sig .tc := ⟨.hbm, 34, rfl⟩
abbrev main_v24 : Ref sig .tc := ⟨.hbm, 35, rfl⟩
abbrev main_c_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst : Ref sig .tc := ⟨.hbm, 43, rfl⟩
abbrev main_v31 : Ref sig .tc := ⟨.hbm, 44, rfl⟩
abbrev main_cst_3 : Ref sig .tc := ⟨.hbm, 45, rfl⟩
abbrev main_call0_cst : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_v32 : Ref sig .tc := ⟨.hbm, 52, rfl⟩
abbrev main_cst_4 : Ref sig .tc := ⟨.hbm, 53, rfl⟩
abbrev main_v33 : Ref sig .tc := ⟨.hbm, 54, rfl⟩
abbrev main_cst_5 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_6 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_7 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_8 : Ref sig .tc := ⟨.hbm, 73, rfl⟩
abbrev main_v49 : Ref sig .tc := ⟨.hbm, 74, rfl⟩

abbrev nD : Nat := 1
abbrev τ : Topo := Topo.v7x

variable {F : FTy → Type} [FloatOps F]

class Facts₀ : Prop where
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  reducesTo_S3200000x1_S3200000_d1 : S3200000x1.ReducesTo [1] S3200000
  h_S_ : 0 < S_.numel
  reducesTo_S3200000_S_d0 : S3200000.ReducesTo [0] S_
  bcast_S_S1 : S_.BroadcastsInDim S1 (![] : Fin 0 → Fin S1.rank)
  bcast_S1_S3200000_0 : S1.BroadcastsInDim S3200000 (![0] : Fin 1 → Fin S3200000.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  reducesTo_S100000x256_S256_d0 : S100000x256.ReducesTo [0] S256
  dot_S100000x256_S256x1_S100000x1_1_0_0_1_n_n_wf : DotDims.WF S100000x256 S256x1 S100000x1 [1] [0] [0] [1] [] []
  dot_S100000x256_S256x256_S100000x256_1_0_0_1_n_n_wf : DotDims.WF S100000x256 S256x256 S100000x256 [1] [0] [0] [1] [] []
  gather_S100000x1_S3200000x1_S3200000x1_1_0_n_n_0_1_11_wf : GatherDims.WF S100000x1 S3200000x1 S3200000x1 [1] [0] [] [0] [] 1 ![1, 1]
  scatter_S100000_S3200000x1_S3200000_n_0_0_1_wf : ScatterDims.WF S100000 S3200000x1 S3200000 [] [0] [0] 1

variable [Facts₀]

def dot_S100000x256_S256x1_S100000x1_1_0_0_1_n_n : DotDims S100000x256 S256x1 S100000x1 where
  lhsContracting := [1]
  rhsContracting := [0]
  lhsNonContracting := [0]
  rhsNonContracting := [1]
  lhsBatch := []
  rhsBatch := []
  wf := dot_S100000x256_S256x1_S100000x1_1_0_0_1_n_n_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def gather_S100000x1_S3200000x1_S3200000x1_1_0_n_n_0_1_11 : GatherDims S100000x1 S3200000x1 S3200000x1 where
  offsetDims := [1]
  collapsedSliceDims := [0]
  operandBatchingDims := []
  startIndicesBatchingDims := []
  startIndexMap := [0]
  indexVectorDim := 1
  sliceSizes := ![1, 1]
  wf := gather_S100000x1_S3200000x1_S3200000x1_1_0_n_n_0_1_11_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf

class Facts : Prop extends Facts₀ where

variable [Facts]
-- ==== Proof.K.Reg0.lean ====
/-
  Region 0 of the program: the fused projection kernel on its grid of 20 row blocks.
  At each point the body reads a block of 5000 rows of x and the whole of Wq, bq, Wk, bk, Wv, bv,
  and stores three blocks: x·Wq + bq, x·Wk + bk (5000 × 1 each) and x·Wv + bv (5000 × 256).
  Nothing is carried between points, so what each output buffer holds after the body is a
  function of the point's input blocks alone.
-/
import proofs.«425445_j56573309223705_1_alg».proof.Proof.Gen.Kernel.Launch
import proofs.«425445_j56573309223705_1_alg».proof.Proof.Gen.Kernel.Skeleton
import proofs.«425445_j56573309223705_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body loads and stores through. -/
abbrev rX : Rect S5000x256 := Rect.unit (s := S5000x256) ![0, 0] S5000x256.size inb_S5000x256_S5000x256_0_0
abbrev rW1 : Rect S256x1 := Rect.unit (s := S256x1) ![0, 0] S256x1.size inb_S256x1_S256x1_0_0
abbrev rB1 : Rect S1 := Rect.unit (s := S1) ![0] S1.size inb_S1_S1_0
abbrev rWv : Rect S256x256 := Rect.unit (s := S256x256) ![0, 0] S256x256.size inb_S256x256_S256x256_0_0
abbrev rBv : Rect S256 := Rect.unit (s := S256) ![0] S256.size inb_S256_S256_0
abbrev rQ : Rect S5000x1 := Rect.unit (s := S5000x1) ![0, 0] S5000x1.size inb_S5000x1_S5000x1_0_0

/-- The q block the body stores: one store of the whole buffer, the row block times Wq plus bq. -/
def out0_7 (x : Vec F S5000x256 .f32) (w : Vec F S256x1 .f32) (b : Vec F S1 .f32) : Vec F S5000x1 .f32 :=
  View.canon [⟨rQ, k0_pay2 (View.ld x rX) (View.ld w rW1) (View.ld b rB1)⟩]
/-- The k block: the same with Wk and bk. -/
def out0_8 (x : Vec F S5000x256 .f32) (w : Vec F S256x1 .f32) (b : Vec F S1 .f32) : Vec F S5000x1 .f32 :=
  View.canon [⟨rQ, k0_pay3 (View.ld x rX) (View.ld w rW1) (View.ld b rB1)⟩]
/-- The v block: the row block times Wv plus bv. -/
def out0_9 (x : Vec F S5000x256 .f32) (w : Vec F S256x256 .f32) (b : Vec F S256 .f32) : Vec F S5000x256 .f32 :=
  View.canon [⟨rX, k0_pay4 (View.ld x rX) (View.ld w rWv) (View.ld b rBv)⟩]

/-- The proof data of the projection pipeline on core `c`: arrays as the region finds them; after the body each
    input buffer at its block and each output buffer at the stored block; nothing carried, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t)
    | ⟨8, _⟩ => out0_8 (iblk0 V c 0 t) (iblk0 V c 3 t) (iblk0 V c 4 t)
    | ⟨9, _⟩ => out0_9 (iblk0 V c 0 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_7 (c : Dev nD) (t : Fin cfg0.N) : (dat0 V c).after 7 t = out0_7 (iblk0 V c 0 t) (iblk0 V c 1 t) (iblk0 V c 2 t) := by dsimp only [dat0]
theorem after0_8 (c : Dev nD) (t : Fin cfg0.N) : (dat0 V c).after 8 t = out0_8 (iblk0 V c 0 t) (iblk0 V c 3 t) (iblk0 V c 4 t) := by dsimp only [dat0]
theorem after0_9 (c : Dev nD) (t : Fin cfg0.N) : (dat0 V c).after 9 t = out0_9 (iblk0 V c 0 t) (iblk0 V c 5 t) (iblk0 V c 6 t) := by dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]

/-- Input window 0's current staging buffer holds its block at every point, fetched there or not, for any proof
    data whose array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is the entry contents and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof
    data whose array is the entry contents and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for any proof
    data whose array is the entry contents and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for any proof
    data whose array is the entry contents and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for any proof
    data whose array is the entry contents and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for any proof
    data whose array is the entry contents and whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- One store of the whole buffer tiles it, so it covers it. -/
theorem cover0_7 (p0 : Vec F S5000x1 .f32) (y : S5000x1.Idx) :
    ∃ pc ∈ ([⟨rQ, p0⟩] : List (View.Piece (Elt F) S5000x1 .f32)), y ∈ pc.1.set :=
  View.cover_of_tiled [⟨rQ, p0⟩] S5000x1.size (by rfl) y
theorem cover0_9 (p0 : Vec F S5000x256 .f32) (y : S5000x256.Idx) :
    ∃ pc ∈ ([⟨rX, p0⟩] : List (View.Piece (Elt F) S5000x256 .f32)), y ∈ pc.1.set :=
  View.cover_of_tiled [⟨rX, p0⟩] S5000x256.size (by rfl) y

set_option maxHeartbeats 1000000 in
/-- The kernel body on whole staging memrefs, the inputs' at read contents and the outputs' at anything, runs to the
    continuation holding the inputs' as they were and each output's at its stored block. -/
theorem sound_kernel0 (c : Dev nD) (E : Set ℕ) (i : grid0.Coords)
    (arg1 : Memref sig .tc .vmem S5000x256 .f32) (harg1 : arg1.IsWhole)
    (arg2 : Memref sig .tc .vmem S256x1 .f32) (harg2 : arg2.IsWhole)
    (arg3 : Memref sig .tc .vmem S1 .f32) (harg3 : arg3.IsWhole)
    (arg4 : Memref sig .tc .vmem S256x1 .f32) (harg4 : arg4.IsWhole)
    (arg5 : Memref sig .tc .vmem S1 .f32) (harg5 : arg5.IsWhole)
    (arg6 : Memref sig .tc .vmem S256x256 .f32) (harg6 : arg6.IsWhole)
    (arg7 : Memref sig .tc .vmem S256 .f32) (harg7 : arg7.IsWhole)
    (arg8 : Memref sig .tc .vmem S5000x1 .f32) (harg8 : arg8.IsWhole)
    (arg9 : Memref sig .tc .vmem S5000x1 .f32) (harg9 : arg9.IsWhole)
    (arg10 : Memref sig .tc .vmem S5000x256 .f32) (harg10 : arg10.IsWhole)
    (x0 : Vec F S5000x256 .f32) (x1 : Vec F S256x1 .f32) (x2 : Vec F S1 .f32) (x3 : Vec F S256x1 .f32) (x4 : Vec F S1 .f32)
    (x5 : Vec F S256x256 .f32) (x6 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗
        (∃ d, owns (c : Thread nD τ) arg8 fullShare d) ∗ (∃ d, owns (c : Thread nD τ) arg9 fullShare d) ∗ (∃ d, owns (c : Thread nD τ) arg10 fullShare d) ∗
        (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗
            owns (c : Thread nD τ) arg8 fullShare (out0_7 x0 x1 x2) ∗ owns (c : Thread nD τ) arg9 fullShare (out0_8 x0 x3 x4)
            ∗ owns (c : Thread nD τ) arg10 fullShare (out0_9 x0 x5 x6)) -∗ K ⟨⟩))
      ⊢ wp frame (wpE (defs₀ (F := F)) Variants.none c none) E
          (cc0__qkv_kernel i arg1 harg1 arg2 harg2 arg3 harg3 arg4 harg4 arg5 harg5 arg6 harg6 arg7 harg7 arg8 harg8 arg9 harg9 arg10 harg10) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_7 _)
  isplitl [H8]
  · iexists _; isplitr
    swap; · iexact H8
    ipureintro
    exact View.read_writes_eq_canon _ _ _ (cover0_7 _)
  iexists _; isplitr
  swap; · iexact H9
  ipureintro
  exact View.read_writes_eq_canon _ _ _ (cover0_9 _)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 1000000 in
/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation of the projection kernel at every grid point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.Reg1.lean ====
/-
  Region 1 of the program: the weighted-sum kernel on its grid of 50 row blocks.
  A scratch accumulator of shape 1 × 256 is carried from point to point: the first point sets it to zero,
  every point adds to it the column sums of (attention weight of the row) × (row of v) over its block of 2000 rows,
  and the last point copies it into the output buffer, which is written back there and nowhere else.
-/
import proofs.«425445_j56573309223705_1_alg».proof.Proof.Gen.Kernel.Launch
import proofs.«425445_j56573309223705_1_alg».proof.Proof.Gen.Kernel.Skeleton
import proofs.«425445_j56573309223705_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-buffer rectangles the body loads and stores through. -/
abbrev rAw : Rect S2000x1 := Rect.unit (s := S2000x1) ![0, 0] S2000x1.size inb_S2000x1_S2000x1_0_0
abbrev rVb : Rect S2000x256 := Rect.unit (s := S2000x256) ![0, 0] S2000x256.size inb_S2000x256_S2000x256_0_0
abbrev rAcc : Rect S1x256 := Rect.unit (s := S1x256) ![0, 0] S1x256.size inb_S1x256_S1x256_0_0

/-- The grid point numbered `n` (numbers past the grid wrap; only `n < 50` is ever used). -/
def pt1 (n : ℕ) : Fin cfg1.N := ⟨n % cfg1.N, Nat.mod_lt _ (by rw [show cfg1.N = 50 from N_1]; decide)⟩

/-- One step of the accumulation: the accumulator `a` plus the column sums of weight × row over the blocks `w`, `v`. -/
def step1 (w : Vec F S2000x1 .f32) (v : Vec F S2000x256 .f32) (a : Vec F S1x256 .f32) : Vec F S1x256 .f32 :=
  k1_pay2 (View.ld w rAw) (View.ld v rVb) a

/-- What the scratch accumulator holds after point `n`: zero, then one step per point up to `n`. -/
def acc1 (c : Dev nD) : ℕ → Vec F S1x256 .f32
  | 0 => step1 (iblk1 V c 0 (pt1 0)) (iblk1 V c 1 (pt1 0)) (k1_pay1 (F := F))
  | n + 1 => step1 (iblk1 V c 0 (pt1 (n + 1))) (iblk1 V c 1 (pt1 (n + 1))) (acc1 c n)

/-- The kernel's scratch accumulator as a whole memref. -/
abbrev scM1 : Memref sig .tc .vmem S1x256 .f32 := Memref.whole cc1_scratch0

/-- The invariant before point `n`: before the first point the scratch holds anything (the class invariant);
    before point `n + 1` it holds what point `n` left, beside the other scoped buffers and the generator register. -/
def Phi1 (c : Dev nD) : ℕ → sProp 𝕄
  | 0 => Pipeline.ΦA spec1 c
  | n + 1 => iprop(owns (c : Thread nD τ) scM1 fullShare (acc1 V c n)
      ∗ Pipeline.scopedRestBut (Ix := Unit) (Name := ℕ) (U := UR sig nD τ) (Lvl := ℕ) (Val := Elt F) spec1 c [cc1_scratch0]
      ∗ ∃ r, prngReg c r)

/-- The proof data of the weighted-sum pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => View.canon [⟨rAcc, acc1 V c t.val⟩]
  Φ t := Phi1 V c t.val
  q _ := fullShare
  owed _ := 0

theorem A_eq1 (c : Dev nD) (w : Fin cfg1.W) : (dat1 V c).A w = V c (Pipeline.arrRef spec1 w) := by
  dsimp only [dat1]

theorem after1_2 (c : Dev nD) (t : Fin cfg1.N) : (dat1 V c).after 2 t = View.canon [⟨rAcc, acc1 V c t.val⟩] := by dsimp only [dat1]

/-! ## The body's two conditions, in closed form over the grid -/

/-- The reset condition of the body (the first `scf.if`), from the grid coordinates. -/
abbrev cond1_0 (i : grid1.Coords) : Prop :=
  (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val = 0 :=
  (by decide +kernel : ∀ t : Fin grid1.N, cond1_0 (grid1.coords t) ↔ t.val = 0)

/-- The copy-out condition of the body (the second `scf.if`). -/
abbrev cond1_1 (i : grid1.Coords) : Prop := k1_cond2 i = 1#1
/-- It holds at the last point only. -/
theorem hcond1_1 : ∀ t : Fin cfg1.N, cond1_1 (grid1.coords t) ↔ t.val = 49 :=
  (by decide +kernel : ∀ t : Fin grid1.N, cond1_1 (grid1.coords t) ↔ t.val = 49)

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- The output window is idle at every point but the last, -/
theorem idleAt1_2 : ∀ t : Fin cfg1.N, t.val ≠ 49 → cfg1.idle 2 (grid1.coords t) = true := by decide +kernel
/-- is not written back there, -/
theorem noFlush1_2 : ∀ t : Fin cfg1.N, t.val ≠ 49 → (cfg1.win 2).flush t = false := by decide +kernel
/-- and is live at the last point. -/
theorem liveAt1_2 : ∀ t : Fin cfg1.N, t.val = 49 → cfg1.idle 2 (grid1.coords t) = false := by decide +kernel

/-- The class invariant with the scratch accumulator set apart as a memref owned at some contents. -/
theorem PhiA1_eq (c : Dev nD) :
    (Pipeline.ΦA spec1 c : sProp 𝕄)
      = iprop(((∃ d, owns (c : Thread nD τ) scM1 fullShare d)
          ∗ Pipeline.scopedRestBut (Ix := Unit) (Name := ℕ) (U := UR sig nD τ) (Lvl := ℕ) (Val := Elt F) spec1 c [cc1_scratch0])
          ∗ (∃ r, prngReg c r)) := by
  unfold Pipeline.ΦA
  rw [Pipeline.scopedRest_split_of_list spec1 c [cc1_scratch0] (by decide) (by decide)]
  simp only [scM1, owns_whole, bigSepL_singleton]
  try rfl

/-- What the region hands the kernel is the invariant before the first point. -/
theorem hin1 (c : Dev nD) : Pipeline.ΦA spec1 c ⊢ (dat1 V c).Φ 0 := by
  dsimp only [dat1]
  try exact Idealize.SL.BI.Entails.refl _

/-- After the last point the invariant gives the class invariant back: the accumulator's contents are forgotten. -/
theorem hout1 (c : Dev nD) : (dat1 V c).Φ (Fin.last cfg1.N) ⊢ Pipeline.ΦA spec1 c := by
  dsimp only [dat1]
  rw [Fin.val_last, show cfg1.N = 49 + 1 from N_1]
  rw [PhiA1_eq]
  unfold Phi1
  iintro ⟨HS, HR, Hg⟩
  isplitr [Hg]
  · isplitl [HS]
    · iexists _; iexact HS
    iexact HR
  iexact Hg

/-! ## The body on whole memrefs, case by case -/

theorem hz1 : (![0, 0] : Fin 2 → Nat) = fun _ => 0 := funext fun a => by fin_cases a <;> rfl

/-- A list of stores whose last is a store of the whole 1 × 256 buffer covers it. -/
theorem cover1 (p : Vec F S1x256 .f32) (L : List (View.Piece (Elt F) S1x256 .f32)) (y : S1x256.Idx) :
    ∃ pc ∈ ((⟨rAcc, p⟩ : View.Piece (Elt F) S1x256 .f32) :: L), y ∈ pc.1.set :=
  ⟨_, List.mem_cons_self, View.mem_set_unit_zero hz1 inb_S1x256_S1x256_0_0 y⟩

set_option maxHeartbeats 1000000 in
/-- At the first point: the reset branch stores zeros into the scratch, the point's step is added to them, the copy-out does not run.
    The scratch may hold anything before; the output buffer is not touched. -/
theorem run1_first (c : Dev nD) (i : grid1.Coords)
    (arg1 : Memref sig .tc .vmem S2000x1 .f32) (harg1 : arg1.IsWhole)
    (arg2 : Memref sig .tc .vmem S2000x256 .f32) (harg2 : arg2.IsWhole)
    (arg3 : Memref sig .tc .vmem S1x256 .f32) (harg3 : arg3.IsWhole)
    (arg4 : Memref sig .tc .vmem S1x256 .f32) (harg4 : arg4.IsWhole)
    (hc0 : cond1_0 i) (hc1 : ¬cond1_1 i)
    (x0 : Vec F S2000x1 .f32) (x1 : Vec F S2000x256 .f32)
    (E : Set ℕ) (K : PUnit → sProp 𝕄) :
    iprop(owns (c : Thread nD τ) arg1 fullShare x0 ∗ owns (c : Thread nD τ) arg2 fullShare x1
        ∗ (∃ d, owns (c : Thread nD τ) arg4 fullShare d)
        ∗ (iprop(owns (c : Thread nD τ) arg1 fullShare x0 ∗ owns (c : Thread nD τ) arg2 fullShare x1
            ∗ owns (c : Thread nD τ) arg4 fullShare (step1 x0 x1 (k1_pay1 (F := F)))) -∗ K ⟨⟩))
      ⊢ wp frame (wpE (defs₀ (F := F)) Variants.none c none) E (cc1__wsum_kernel i arg1 harg1 arg2 harg2 arg3 harg3 arg4 harg4) K := by
  simp only [cc1__wsum_kernel_eq_skeleton]; unfold cc1__wsum_kernel_skel
  unfold owns
  iintro ⟨⟨%f0, %hf0, H0⟩, ⟨%f1, %hf1, H1⟩, ⟨%d4, %f4, -, H4⟩, Hk⟩
  subst hf0 hf1
  sl_exec (disch := first | exact hc0 | exact hc1)
  sl_step

  iapply Hk
  isplitl [H0]
  · iexists f0; isplitr; · ipureintro; rfl
    iexact H0
  isplitl [H1]
  · iexists f1; isplitr; · ipureintro; rfl
    iexact H1
  iexists _; isplitr
  swap; · iexact H4
  ipureintro
  sl_unfold_run_names
  rw [View.read_writes_eq_canon _ _ _ (cover1 _ _), View.canon_cons_unit_zero hz1, View.readCov_unit_zero _ hz1]
  unfold step1
  simp only [View.readAt_eq_ld]

set_option maxHeartbeats 1000000 in
/-- At a point that is neither the first nor the last: the point's step is added to what the scratch holds; neither branch runs. -/
theorem run1_mid (c : Dev nD) (i : grid1.Coords)
    (arg1 : Memref sig .tc .vmem S2000x1 .f32) (harg1 : arg1.IsWhole)
    (arg2 : Memref sig .tc .vmem S2000x256 .f32) (harg2 : arg2.IsWhole)
    (arg3 : Memref sig .tc .vmem S1x256 .f32) (harg3 : arg3.IsWhole)
    (arg4 : Memref sig .tc .vmem S1x256 .f32) (harg4 : arg4.IsWhole)
    (hc0 : ¬cond1_0 i) (hc1 : ¬cond1_1 i)
    (x0 : Vec F S2000x1 .f32) (x1 : Vec F S2000x256 .f32) (a : Vec F S1x256 .f32)
    (E : Set ℕ) (K : PUnit → sProp 𝕄) :
    iprop(owns (c : Thread nD τ) arg1 fullShare x0 ∗ owns (c : Thread nD τ) arg2 fullShare x1
        ∗ owns (c : Thread nD τ) arg4 fullShare a
        ∗ (iprop(owns (c : Thread nD τ) arg1 fullShare x0 ∗ owns (c : Thread nD τ) arg2 fullShare x1
            ∗ owns (c : Thread nD τ) arg4 fullShare (step1 x0 x1 a)) -∗ K ⟨⟩))
      ⊢ wp frame (wpE (defs₀ (F := F)) Variants.none c none) E (cc1__wsum_kernel i arg1 harg1 arg2 harg2 arg3 harg3 arg4 harg4) K := by
  simp only [cc1__wsum_kernel_eq_skeleton]; unfold cc1__wsum_kernel_skel
  unfold owns
  iintro ⟨⟨%f0, %hf0, H0⟩, ⟨%f1, %hf1, H1⟩, ⟨%f4, %hf4, H4⟩, Hk⟩
  subst hf0 hf1 hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H4
  ipureintro
  rw [View.read_writes_eq_canon _ _ _ (cover1 _ _), View.canon_unit_zero hz1]
  unfold step1
  simp only [View.readAt_eq_ld, View.ld_unit_zero (S := S1x256) hz1]

set_option maxHeartbeats 1000000 in
/-- At the last point: the point's step is added to what the scratch holds and the sum is copied into the output buffer,
    which may hold anything before. -/
theorem run1_last (c : Dev nD) (i : grid1.Coords)
    (arg1 : Memref sig .tc .vmem S2000x1 .f32) (harg1 : arg1.IsWhole)
    (arg2 : Memref sig .tc .vmem S2000x256 .f32) (harg2 : arg2.IsWhole)
    (arg3 : Memref sig .tc .vmem S1x256 .f32) (harg3 : arg3.IsWhole)
    (arg4 : Memref sig .tc .vmem S1x256 .f32) (harg4 : arg4.IsWhole)
    (hc0 : ¬cond1_0 i) (hc1 : cond1_1 i)
    (x0 : Vec F S2000x1 .f32) (x1 : Vec F S2000x256 .f32) (a : Vec F S1x256 .f32)
    (E : Set ℕ) (K : PUnit → sProp 𝕄) :
    iprop(owns (c : Thread nD τ) arg1 fullShare x0 ∗ owns (c : Thread nD τ) arg2 fullShare x1
        ∗ (∃ d, owns (c : Thread nD τ) arg3 fullShare d)
        ∗ owns (c : Thread nD τ) arg4 fullShare a
        ∗ (iprop(owns (c : Thread nD τ) arg1 fullShare x0 ∗ owns (c : Thread nD τ) arg2 fullShare x1
            ∗ owns (c : Thread nD τ) arg3 fullShare (View.canon [⟨rAcc, step1 x0 x1 a⟩])
            ∗ owns (c : Thread nD τ) arg4 fullShare (step1 x0 x1 a)) -∗ K ⟨⟩))
      ⊢ wp frame (wpE (defs₀ (F := F)) Variants.none c none) E (cc1__wsum_kernel i arg1 harg1 arg2 harg2 arg3 harg3 arg4 harg4) K := by
  simp only [cc1__wsum_kernel_eq_skeleton]; unfold cc1__wsum_kernel_skel
  unfold owns
  iintro ⟨⟨%f0, %hf0, H0⟩, ⟨%f1, %hf1, H1⟩, ⟨%d3, %f3, -, H3⟩, ⟨%f4, %hf4, H4⟩, Hk⟩
  subst hf0 hf1 hf4
  sl_exec (disch := first | exact hc0 | exact hc1)
  sl_step

  iapply Hk
  isplitl [H0]
  · iexists f0; isplitr; · ipureintro; rfl
    iexact H0
  isplitl [H1]
  · iexists f1; isplitr; · ipureintro; rfl
    iexact H1
  isplitl [H3]
  · iexists _; isplitr
    swap; · iexact H3
    ipureintro
    sl_unfold_run_names
    rw [View.read_writes_eq_canon _ _ _ (cover1 _ _), View.readCov_unit_zero _ hz1]
    unfold step1
    simp only [View.readAt_eq_ld, View.ld_unit_zero (S := S1x256) hz1]
  iexists _; isplitr
  swap; · iexact H4
  ipureintro
  sl_unfold_run_names
  rw [View.read_writes_eq_canon _ _ _ (cover1 _ _), View.canon_unit_zero hz1]
  unfold step1
  simp only [View.readAt_eq_ld, View.ld_unit_zero (S := S1x256) hz1]

/-! ## The accumulator and the invariant, point by point -/

/-- The point numbered `t.val` is `t`. -/
theorem pt1_val (t : Fin cfg1.N) : pt1 t.val = t := Fin.ext (Nat.mod_eq_of_lt t.isLt)

/-- At the first point the accumulator is the point's step over zeros. -/
theorem acc1_first (c : Dev nD) (t : Fin cfg1.N) (hz : t.val = 0) :
    acc1 V c t.val = step1 (iblk1 V c 0 t) (iblk1 V c 1 t) (k1_pay1 (F := F)) := by
  have h := pt1_val t
  rw [hz] at h ⊢
  rw [acc1, h]

/-- At a later point it is the point's step over what the point before left. -/
theorem acc1_pos (c : Dev nD) (t : Fin cfg1.N) (hz : t.val ≠ 0) :
    acc1 V c t.val = step1 (iblk1 V c 0 t) (iblk1 V c 1 t) (acc1 V c (t.val - 1)) := by
  obtain ⟨n, hn⟩ : ∃ n, t.val = n + 1 := ⟨t.val - 1, by omega⟩
  have h := pt1_val t
  rw [hn] at h ⊢
  rw [Nat.add_sub_cancel]
  rw [acc1, h]

theorem Phi1_zero (c : Dev nD) (n : ℕ) (hz : n = 0) : Phi1 V c n = Pipeline.ΦA spec1 c := by
  subst hz; rfl

/-- After point `n` (before point `n + 1`): the scratch at that point's accumulator. -/
theorem Phi1_succ (c : Dev nD) (n : ℕ) :
    Phi1 V c (n + 1) = iprop(owns (c : Thread nD τ) scM1 fullShare (acc1 V c n)
      ∗ Pipeline.scopedRestBut (Ix := Unit) (Name := ℕ) (U := UR sig nD τ) (Lvl := ℕ) (Val := Elt F) spec1 c [cc1_scratch0]
      ∗ ∃ r, prngReg c r) := rfl

/-- Before a point that is not the first: the scratch at what the point before left. -/
theorem Phi1_pos (c : Dev nD) (n : ℕ) (hz : n ≠ 0) :
    Phi1 V c n = iprop(owns (c : Thread nD τ) scM1 fullShare (acc1 V c (n - 1))
      ∗ Pipeline.scopedRestBut (Ix := Unit) (Name := ℕ) (U := UR sig nD τ) (Lvl := ℕ) (Val := Elt F) spec1 c [cc1_scratch0]
      ∗ ∃ r, prngReg c r) := by
  cases n with
  | zero => exact absurd rfl hz
  | succ n => rfl

/-! ## What the body finds and leaves in the input windows' buffers -/

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]

/-- Both input windows are fetched at every point and uncut: the body finds each at its block. -/
theorem before1_0 (c : Dev nD) (t : Fin cfg1.N) (d) : (dat1 V c).before 0 t d = iblk1 V c 0 t :=
  ((dat1 V c).before_fetched 0 t (fetch1_0 t) d).trans (by unfold Dat.fetched Dat.blockOf iblk1; rw [A_eq1]; try rfl)
theorem before1_1 (c : Dev nD) (t : Fin cfg1.N) (d) : (dat1 V c).before 1 t d = iblk1 V c 1 t :=
  ((dat1 V c).before_fetched 1 t (fetch1_1 t) d).trans (by unfold Dat.fetched Dat.blockOf iblk1; rw [A_eq1]; try rfl)

/-! ## The body obligation at a point -/

/-- Each window's current staging memref at point `t`, as the pipeline passes it to the body. -/
abbrev ms1_0 (t : Fin cfg1.N) : Memref sig .tc .vmem S2000x1 .f32 := win1_0.stage (cfg1.slots t 0)
abbrev ms1_1 (t : Fin cfg1.N) : Memref sig .tc .vmem S2000x256 .f32 := win1_1.stage (cfg1.slots t 1)
abbrev ms1_2 (t : Fin cfg1.N) : Memref sig .tc .vmem S1x256 .f32 := win1_2.stage (cfg1.slots t 2)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The input buffers hold their blocks. By the point's number: at the first the invariant hands
    the scratch at anything and the reset case runs; later it hands the scratch at what the point before left. The scratch
    is taken back at this point's accumulator. The output buffer is handed back untouched at every point but the last,
    where the copy-out case leaves the accumulator in it. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0 V, before1_1 V]
  rw [show (dat1 V c).owesAt () t.succ = (dat1 V c).owesAt () t.castSucc from rfl]
  rw [show (dat1 V c).Φ t.succ = Phi1 V c (t.val + 1) from rfl, Phi1_succ]
  rw [show (dat1 V c).Φ t.castSucc = Phi1 V c t.val from rfl]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 50 := lt_of_lt_of_eq t.isLt (show cfg1.N = 50 from N_1)
  by_cases hz : t.val = 0
  · have h49 : t.val ≠ 49 := by omega
    rw [Dat.leavesExact_idle (dat1 V c) 2 t (idleAt1_2 t h49) (noFlush1_2 t h49)]
    rw [Phi1_zero V c _ hz, PhiA1_eq, acc1_first V c t hz]
    iintro ⟨⟨⟨HS, HR⟩, Hg⟩, Ho, ⟨%d0, H0⟩, ⟨%d1, H1⟩, H2⟩
    iapply (run1_first c (grid1.coords t) _ _ _ _ _ _ _ _ ((hcond1_0 t).mpr hz) (fun h => h49 ((hcond1_1 t).mp h))
      (iblk1 V c 0 t) (iblk1 V c 1 t) Set.univ _)
    isplitl [H0]; · iexact H0
    isplitl [H1]; · iexact H1
    isplitl [HS]; · iexact HS
    iintro ⟨H0, H1, HS⟩
    isplitl [HS HR Hg]
    · isplitl [HS]; · iexact HS
      isplitl [HR]; · iexact HR
      iexact Hg
    isplitl [Ho]; · iexact Ho
    isplitl [H0]; · iexact H0
    isplitl [H1]; · iexact H1
    iexact H2
  · by_cases h49 : t.val = 49
    · rw [show (dat1 V c).leavesExact 2 t = owns (c : Thread nD τ) (ms1_2 t) fullShare ((dat1 V c).after 2 t) from by
        unfold Dat.leavesExact; rw [liveAt1_2 t h49], after1_2]
      rw [Phi1_pos V c _ hz, acc1_pos V c t hz]
      iintro ⟨⟨HS, HR, Hg⟩, Ho, ⟨%d0, H0⟩, ⟨%d1, H1⟩, ⟨%d2, H2⟩⟩
      iapply (run1_last c (grid1.coords t) _ _ _ _ _ _ _ _ (fun h => hz ((hcond1_0 t).mp h)) ((hcond1_1 t).mpr h49)
        (iblk1 V c 0 t) (iblk1 V c 1 t) (acc1 V c (t.val - 1)) Set.univ _)
      isplitl [H0]; · iexact H0
      isplitl [H1]; · iexact H1
      isplitl [H2]; · iexists _; iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
    · rw [Dat.leavesExact_idle (dat1 V c) 2 t (idleAt1_2 t h49) (noFlush1_2 t h49)]
      rw [Phi1_pos V c _ hz, acc1_pos V c t hz]
      iintro ⟨⟨HS, HR, Hg⟩, Ho, ⟨%d0, H0⟩, ⟨%d1, H1⟩, H2⟩
      iapply (run1_mid c (grid1.coords t) _ _ _ _ _ _ _ _ (fun h => hz ((hcond1_0 t).mp h)) (fun h => h49 ((hcond1_1 t).mp h))
        (iblk1 V c 0 t) (iblk1 V c 1 t) (acc1 V c (t.val - 1)) Set.univ _)
      isplitl [H0]; · iexact H0
      isplitl [H1]; · iexact H1
      isplitl [HS]; · iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      iexact H2

/-- The body obligation of the weighted-sum kernel at every grid point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.K.Run.lean ====
/-
  The whole run of the program: @main is the projection region, seven stretches of host operations
  (the two gathers, the product, leaky-relu, softmax and the scatter-add), the weighted-sum region, and a
  final reshape. The buffer contents at each boundary are named, from the launch memory to the return, and every
  weakly fair execution is shown to end with every unscoped buffer at the last of them.
-/
import proofs.«425445_j56573309223705_1_alg».proof.Proof.Gen.Kernel.Launch
import proofs.«425445_j56573309223705_1_alg».proof.Proof.Gen.Kernel.Skeleton
import proofs.«425445_j56573309223705_1_alg».proof.Proof.Gen.Kernel.Points
import proofs.«425445_j56573309223705_1_alg».proof.Proof.Gen.Kernel.Regions
import proofs.«425445_j56573309223705_1_alg».proof.Proof.K.Reg0
import proofs.«425445_j56573309223705_1_alg».proof.Proof.K.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (the projection region's entry). -/
abbrev W0 : Dev nD → Valuation τ sig (Elt F) := fun c b => (s₀ m ρ).mem ((c : Dev nD), b)
/-- The same read at the TensorCore's references. -/
abbrev VA : (c : Dev nD) → (b : Ref sig .tc) → Buf (Elt F) ((c : Thread nD τ).loc b) := fun c b => W0 m ρ c b
/-- At the projection region's exit: its arrays at what its write-backs leave, every other buffer as entered. -/
def W1 (c : Dev nD) : Valuation τ sig (Elt F) :=
  Pipeline.withArrays spec0 c (W0 m ρ c) fun w => (dat0 (VA m ρ) c).arrAt w cfg0.N
/-- After each host stretch in turn. -/
abbrev W2 : Dev nD → Valuation τ sig (Elt F) := fun c => StableHlo.after hostOps1 (W1 m ρ c)
abbrev W3 : Dev nD → Valuation τ sig (Elt F) := fun c => StableHlo.after hostOps1_1 (W2 m ρ c)
abbrev W4 : Dev nD → Valuation τ sig (Elt F) := fun c => StableHlo.after hostOps1_2 (W3 m ρ c)
abbrev W5 : Dev nD → Valuation τ sig (Elt F) := fun c => StableHlo.after hostOps1_3 (W4 m ρ c)
abbrev W6 : Dev nD → Valuation τ sig (Elt F) := fun c => StableHlo.after hostOps1_4 (W5 m ρ c)
abbrev W7 : Dev nD → Valuation τ sig (Elt F) := fun c => StableHlo.after hostOps1_5 (W6 m ρ c)
abbrev W8 : Dev nD → Valuation τ sig (Elt F) := fun c => StableHlo.after hostOps1_6 (W7 m ρ c)
/-- The weighted-sum region's entry contents read at the TensorCore's references. -/
abbrev VB : (c : Dev nD) → (b : Ref sig .tc) → Buf (Elt F) ((c : Thread nD τ).loc b) := fun c b => W8 m ρ c b
/-- At the weighted-sum region's exit. -/
def W9 (c : Dev nD) : Valuation τ sig (Elt F) :=
  Pipeline.withArrays spec1 c (W8 m ρ c) fun w => (dat1 (VB m ρ) c).arrAt w cfg1.N
/-- After the final reshape: the contents at the return. -/
abbrev W10 : Dev nD → Valuation τ sig (Elt F) := fun c => StableHlo.after hostOps2 (W9 m ρ c)

theorem W1_arr (c : Dev nD) (w : Fin cfg0.W) :
    W1 m ρ c (Proc.devRef .tc (Pipeline.arrRef spec0 w)) = (dat0 (VA m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
theorem W9_arr (c : Dev nD) (w : Fin cfg1.W) :
    W9 m ρ c (Proc.devRef .tc (Pipeline.arrRef spec1 w)) = (dat1 (VB m ρ) c).arrAt w cfg1.N := by
  unfold W9; exact Pipeline.withArrays_arr spec1 launch1.win.arr_inj c _ _ w
theorem W9_of_ne (c : Dev nD) (b : Ref sig .tc) (hb : ∀ w, Pipeline.arrRef spec1 w ≠ b) :
    W9 m ρ c (Proc.devRef .tc b) = W8 m ρ c (Proc.devRef .tc b) := by
  unfold W9; exact Pipeline.withArrays_of_ne spec1 c _ _ b hb

/-! ## Each region's exit contents: its arrays at what the write-backs leave, the rest as entered -/

/-- The projection region's exit contents read at the TensorCore's references. -/
abbrev VA' : (c : Dev nD) → (b : Ref sig .tc) → Buf (Elt F) ((c : Thread nD τ).loc b) := fun c b => W1 m ρ c b
/-- The weighted-sum region's exit contents read at the TensorCore's references. -/
abbrev VB' : (c : Dev nD) → (b : Ref sig .tc) → Buf (Elt F) ((c : Thread nD τ).loc b) := fun c b => W9 m ρ c b

theorem hF0 (c : Dev nD) (w : Fin cfg0.W) : (dat0 (VA m ρ) c).arrAt w cfg0.N = VA' m ρ c (Pipeline.arrRef spec0 w) :=
  (W1_arr m ρ c w).symm
theorem hrest0 (c : Dev nD) : ∀ b, b ∉ Finset.univ.image (Pipeline.arrRef spec0) → VA' m ρ c b = VA m ρ c b :=
  fun b hb => W1_of_ne m ρ c b fun w e => hb (Finset.mem_image.mpr ⟨w, Finset.mem_univ _, e⟩)
theorem hF1 (c : Dev nD) (w : Fin cfg1.W) : (dat1 (VB m ρ) c).arrAt w cfg1.N = VB' m ρ c (Pipeline.arrRef spec1 w) :=
  (W9_arr m ρ c w).symm
theorem hrest1 (c : Dev nD) : ∀ b, b ∉ Finset.univ.image (Pipeline.arrRef spec1) → VB' m ρ c b = VB m ρ c b :=
  fun b hb => W9_of_ne m ρ c b fun w e => hb (Finset.mem_image.mpr ⟨w, Finset.mem_univ _, e⟩)

/-! ## The proof data family and the thread state -/

/-- Every pipeline's proof data, each at its region's entry contents: a literal match on the pipeline index. -/
def pdats : (p : Fin 2) → (c : Dev nD) → Dat τ (Elt F) Unit ℕ (UR sig nD τ) ℕ (Pipeline.pin (pcfgs (F := F)) adm p) c
  | ⟨0, _⟩ => fun c => dat0 (VA m ρ) c
  | ⟨1, _⟩ => fun c => dat1 (VB m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends
    with those references at the stretch's result from `W c`, the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the dues: every unscoped buffer at the last boundary's contents, the generator
    register at some state. -/
abbrev Tₙ (c : Dev nD) : sProp 𝕄 := iprop(StableHlo.held (c : Thread nD τ) (Pipeline.ucRefs τ sig) (W10 m ρ c) ∗ ∃ r, prngReg c r)

/-! ## The regions as segments -/

set_option backward.isDefEq.respectTransparency.types false in
/-- The projection region over the thread state: entered from every unscoped buffer at the launch contents, left at
    `W1`. Its arrays are split out of the unscoped buffers and put back at the exit contents; the generator register
    goes into the class invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (VA m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (VA m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (VA m ρ c) (VA' m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The weighted-sum region over the thread state: entered from every unscoped buffer at `W8`, left at `W9`. Its
    invariant before the first point is made from the class invariant, and after the last point gives it back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VB m ρ) c).loose
  hwaits := Pipeline.hwaits_of_owed_zero _ _ _ _ L lv 1 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec1 c (VB m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (VB m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (VB m ρ) c)
    unfold Pipeline.ΦA
    iintro ⟨Hp, -, Hr⟩
    isplitl [Hr]; · iexact Hr
    iexact Hp
  hout c := by
    rw [Pipeline.ownSems0_none]
    refine BIBase.Entails.trans (hout1 (VB m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (VB m ρ c) (VB' m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's ten segments in order: the projection region, a host segment per stretch from its boundary's contents,
    the weighted-sum region, the final reshape. -/
abbrev runSegs : List (Pipeline.Seg (pcfgs (F := F)) adm (pdats m ρ) () defs₀ 𝒱₀ L lv) :=
  [ .region (reg0 m ρ),
    .host (hseg hostOps1 hostOps1_sub hostOps1_fresh (W1 m ρ)),
    .host (hseg hostOps1_1 hostOps1_1_sub hostOps1_1_fresh (W2 m ρ)),
    .host (hseg hostOps1_2 hostOps1_2_sub hostOps1_2_fresh (W3 m ρ)),
    .host (hseg hostOps1_3 hostOps1_3_sub hostOps1_3_fresh (W4 m ρ)),
    .host (hseg hostOps1_4 hostOps1_4_sub hostOps1_4_fresh (W5 m ρ)),
    .host (hseg hostOps1_5 hostOps1_5_sub hostOps1_5_fresh (W6 m ρ)),
    .host (hseg hostOps1_6 hostOps1_6_sub hostOps1_6_fresh (W7 m ρ)),
    .region (reg1 m ρ),
    .host (hseg hostOps2 hostOps2_sub hostOps2_fresh (W9 m ρ)) ]
/-- @main is the run of the segments: it is the chain of its ten items, and the segments' run is the chain of their
    programs, which are those items. -/
theorem main_run (c : Dev nD) : main (F := F) c = Pipeline.Seg.run (runSegs m ρ) := (main_chain c).trans (by chain_rfl)

/-- What the final reshape leaves is the last thread state beside the core owing nothing: the same three conjuncts,
    grouped the other way. -/
theorem last_state (c : Dev nD) : iprop(StableHlo.held (c : Thread nD τ) (Pipeline.ucRefs τ sig) (W10 m ρ c) ∗ R c)
    ⊢ (iprop(Tₙ m ρ c ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

/-! ## The run -/

set_option backward.isDefEq.respectTransparency.types false in
/-- Every weakly fair execution of @main from memory `m` with zero counters terminates, nothing faulting, and every
    unscoped buffer of every core ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (runSegs m ρ)
    (fun c Q => by rw [main_run m ρ c])
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun c => last_state m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h => h)

/-- An unscoped TensorCore reference is among those the run's post speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- A reference that no host stretch writes and that is no array of the weighted-sum region holds, at the last
    boundary, what the projection region left in it: the fold walked back through the nine later items. -/
theorem W10_eq_W1 (c : Dev nD) (a : Ref sig .tc) (h10 : a ∉ hostOps2_W) (h9 : ∀ w, Pipeline.arrRef spec1 w ≠ a)
    (h8 : a ∉ hostOps1_6_W) (h7 : a ∉ hostOps1_5_W) (h6 : a ∉ hostOps1_4_W) (h5 : a ∉ hostOps1_3_W)
    (h4 : a ∉ hostOps1_2_W) (h3 : a ∉ hostOps1_1_W) (h2 : a ∉ hostOps1_W) :
    W10 m ρ c (Proc.devRef .tc a) = W1 m ρ c (Proc.devRef .tc a) :=
  calc W10 m ρ c (Proc.devRef .tc a)
    _ = W9 m ρ c (Proc.devRef .tc a) := StableHlo.after_of_writes_sub hostOps2 _ hostOps2_writes h10
    _ = W8 m ρ c (Proc.devRef .tc a) := W9_of_ne m ρ c a h9
    _ = W7 m ρ c (Proc.devRef .tc a) := StableHlo.after_of_writes_sub hostOps1_6 _ hostOps1_6_writes h8
    _ = W6 m ρ c (Proc.devRef .tc a) := StableHlo.after_of_writes_sub hostOps1_5 _ hostOps1_5_writes h7
    _ = W5 m ρ c (Proc.devRef .tc a) := StableHlo.after_of_writes_sub hostOps1_4 _ hostOps1_4_writes h6
    _ = W4 m ρ c (Proc.devRef .tc a) := StableHlo.after_of_writes_sub hostOps1_3 _ hostOps1_3_writes h5
    _ = W3 m ρ c (Proc.devRef .tc a) := StableHlo.after_of_writes_sub hostOps1_2 _ hostOps1_2_writes h4
    _ = W2 m ρ c (Proc.devRef .tc a) := StableHlo.after_of_writes_sub hostOps1_1 _ hostOps1_1_writes h3
    _ = W1 m ρ c (Proc.devRef .tc a) := StableHlo.after_of_writes_sub hostOps1 _ hostOps1_writes h2

/-- No item of @main writes an argument array: each ends as launched. -/
theorem W10_arg (c : Dev nD) (a : Ref sig .tc)
    (ha : a ∈ ([main_arg0, main_arg1, main_arg2, main_arg3, main_arg4, main_arg5, main_arg6, main_arg7] : List (Ref sig .tc))) :
    W10 m ρ c (Proc.devRef .tc a) = m ((c : Thread nD τ).loc a) := by
  simp only [List.mem_cons, List.not_mem_nil, or_false] at ha
  -- seven of the arguments are input arrays of the projection region, which leaves an input as entered; the second
  -- argument is no array of it, so the region leaves it as it leaves every buffer that is none of its arrays
  rcases ha with rfl | rfl | rfl | rfl | rfl | rfl | rfl | rfl
  · exact (W10_eq_W1 m ρ c main_arg0 (by decide) (by decide) (by decide) (by decide) (by decide) (by decide) (by decide) (by decide) (by decide)).trans
      ((W1_arr m ρ c 0).trans (((dat0 (VA m ρ) c).arrAt_in 0 rfl _).trans (A_eq0 (VA m ρ) c 0)))
  · exact (W10_eq_W1 m ρ c main_arg1 (by decide) (by decide) (by decide) (by decide) (by decide) (by decide) (by decide) (by decide) (by decide)).trans (W1_of_ne m ρ c main_arg1 (by decide))
  · exact (W10_eq_W1 m ρ c main_arg2 (by decide) (by decide) (by decide) (by decide) (by decide) (by decide) (by decide) (by decide) (by decide)).trans
      ((W1_arr m ρ c 1).trans (((dat0 (VA m ρ) c).arrAt_in 1 rfl _).trans (A_eq0 (VA m ρ) c 1)))
  · exact (W10_eq_W1 m ρ c main_arg3 (by decide) (by decide) (by decide) (by decide) (by decide) (by decide) (by decide) (by decide) (by decide)).trans
      ((W1_arr m ρ c 2).trans (((dat0 (VA m ρ) c).arrAt_in 2 rfl _).trans (A_eq0 (VA m ρ) c 2)))
  · exact (W10_eq_W1 m ρ c main_arg4 (by decide) (by decide) (by decide) (by decide) (by decide) (by decide) (by decide) (by decide) (by decide)).trans
      ((W1_arr m ρ c 3).trans (((dat0 (VA m ρ) c).arrAt_in 3 rfl _).trans (A_eq0 (VA m ρ) c 3)))
  · exact (W10_eq_W1 m ρ c main_arg5 (by decide) (by decide) (by decide) (by decide) (by decide) (by decide) (by decide) (by decide) (by decide)).trans
      ((W1_arr m ρ c 4).trans (((dat0 (VA m ρ) c).arrAt_in 4 rfl _).trans (A_eq0 (VA m ρ) c 4)))
  · exact (W10_eq_W1 m ρ c main_arg6 (by decide) (by decide) (by decide) (by decide) (by decide) (by decide) (by decide) (by decide) (by decide)).trans
      ((W1_arr m ρ c 5).trans (((dat0 (VA m ρ) c).arrAt_in 5 rfl _).trans (A_eq0 (VA m ρ) c 5)))
  · exact (W10_eq_W1 m ρ c main_arg7 (by decide) (by decide) (by decide) (by decide) (by decide) (by decide) (by decide) (by decide) (by decide)).trans
      ((W1_arr m ρ c 6).trans (((dat0 (VA m ρ) c).arrAt_in 6 rfl _).trans (A_eq0 (VA m ρ) c 6)))

/-- The frame claim at any `F`: the run, read at the eight argument arrays. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W10_arg m ρ c main_arg0 (by decide)),
      (h c _ (mem_uc main_arg1 (by decide))).trans (W10_arg m ρ c main_arg1 (by decide)),
      (h c _ (mem_uc main_arg2 (by decide))).trans (W10_arg m ρ c main_arg2 (by decide)),
      (h c _ (mem_uc main_arg3 (by decide))).trans (W10_arg m ρ c main_arg3 (by decide)),
      (h c _ (mem_uc main_arg4 (by decide))).trans (W10_arg m ρ c main_arg4 (by decide)),
      (h c _ (mem_uc main_arg5 (by decide))).trans (W10_arg m ρ c main_arg5 (by decide)),
      (h c _ (mem_uc main_arg6 (by decide))).trans (W10_arg m ρ c main_arg6 (by decide)),
      (h c _ (mem_uc main_arg7 (by decide))).trans (W10_arg m ρ c main_arg7 (by decide))⟩) (run_all m ρ)

end Cert.Kernel.Hand

end
-- ==== Proof.KI.Reg0.lean ====
/-
  Region 0 of the program: the fused projection kernel on its grid of 20 row blocks.
  At each point the body reads a block of 5000 rows of x and the whole of Wq, bq, Wk, bk, Wv, bv,
  and stores three blocks: x·Wq + bq, x·Wk + bk (5000 × 1 each) and x·Wv + bv (5000 × 256).
  Nothing is carried between points, so what each output buffer holds after the body is a
  function of the point's input blocks alone.
-/
import proofs.«425445_j56573309223705_1_alg».proof.Proof.Gen.KernelIdeal.Launch
import proofs.«425445_j56573309223705_1_alg».proof.Proof.Gen.KernelIdeal.Skeleton
import proofs.«425445_j56573309223705_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body loads and stores through. -/
abbrev rX : Rect S5000x256 := Rect.unit (s := S5000x256) ![0, 0] S5000x256.size inb_S5000x256_S5000x256_0_0
abbrev rW1 : Rect S256x1 := Rect.unit (s := S256x1) ![0, 0] S256x1.size inb_S256x1_S256x1_0_0
abbrev rB1 : Rect S1 := Rect.unit (s := S1) ![0] S1.size inb_S1_S1_0
abbrev rWv : Rect S256x256 := Rect.unit (s := S256x256) ![0, 0] S256x256.size inb_S256x256_S256x256_0_0
abbrev rBv : Rect S256 := Rect.unit (s := S256) ![0] S256.size inb_S256_S256_0
abbrev rQ : Rect S5000x1 := Rect.unit (s := S5000x1) ![0, 0] S5000x1.size inb_S5000x1_S5000x1_0_0

/-- The q block the body stores: one store of the whole buffer, the row block times Wq plus bq. -/
def out0_7 (x : Vec F S5000x256 .f32) (w : Vec F S256x1 .f32) (b : Vec F S1 .f32) : Vec F S5000x1 .f32 :=
  View.canon [⟨rQ, k0_pay2 (View.ld x rX) (View.ld w rW1) (View.ld b rB1)⟩]
/-- The k block: the same with Wk and bk. -/
def out0_8 (x : Vec F S5000x256 .f32) (w : Vec F S256x1 .f32) (b : Vec F S1 .f32) : Vec F S5000x1 .f32 :=
  View.canon [⟨rQ, k0_pay3 (View.ld x rX) (View.ld w rW1) (View.ld b rB1)⟩]
/-- The v block: the row block times Wv plus bv. -/
def out0_9 (x : Vec F S5000x256 .f32) (w : Vec F S256x256 .f32) (b : Vec F S256 .f32) : Vec F S5000x256 .f32 :=
  View.canon [⟨rX, k0_pay4 (View.ld x rX) (View.ld w rWv) (View.ld b rBv)⟩]

/-- The proof data of the projection pipeline on core `c`: arrays as the region finds them; after the body each
    input buffer at its block and each output buffer at the stored block; nothing carried, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t)
    | ⟨8, _⟩ => out0_8 (iblk0 V c 0 t) (iblk0 V c 3 t) (iblk0 V c 4 t)
    | ⟨9, _⟩ => out0_9 (iblk0 V c 0 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_7 (c : Dev nD) (t : Fin cfg0.N) : (dat0 V c).after 7 t = out0_7 (iblk0 V c 0 t) (iblk0 V c 1 t) (iblk0 V c 2 t) := by dsimp only [dat0]
theorem after0_8 (c : Dev nD) (t : Fin cfg0.N) : (dat0 V c).after 8 t = out0_8 (iblk0 V c 0 t) (iblk0 V c 3 t) (iblk0 V c 4 t) := by dsimp only [dat0]
theorem after0_9 (c : Dev nD) (t : Fin cfg0.N) : (dat0 V c).after 9 t = out0_9 (iblk0 V c 0 t) (iblk0 V c 5 t) (iblk0 V c 6 t) := by dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]

/-- Input window 0's current staging buffer holds its block at every point, fetched there or not, for any proof
    data whose array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is the entry contents and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof
    data whose array is the entry contents and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for any proof
    data whose array is the entry contents and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for any proof
    data whose array is the entry contents and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for any proof
    data whose array is the entry contents and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for any proof
    data whose array is the entry contents and whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- One store of the whole buffer tiles it, so it covers it. -/
theorem cover0_7 (p0 : Vec F S5000x1 .f32) (y : S5000x1.Idx) :
    ∃ pc ∈ ([⟨rQ, p0⟩] : List (View.Piece (Elt F) S5000x1 .f32)), y ∈ pc.1.set :=
  View.cover_of_tiled [⟨rQ, p0⟩] S5000x1.size (by rfl) y
theorem cover0_9 (p0 : Vec F S5000x256 .f32) (y : S5000x256.Idx) :
    ∃ pc ∈ ([⟨rX, p0⟩] : List (View.Piece (Elt F) S5000x256 .f32)), y ∈ pc.1.set :=
  View.cover_of_tiled [⟨rX, p0⟩] S5000x256.size (by rfl) y

set_option maxHeartbeats 1000000 in
/-- The kernel body on whole staging memrefs, the inputs' at read contents and the outputs' at anything, runs to the
    continuation holding the inputs' as they were and each output's at its stored block. -/
theorem sound_kernel0 (c : Dev nD) (E : Set ℕ) (i : grid0.Coords)
    (arg1 : Memref sig .tc .vmem S5000x256 .f32) (harg1 : arg1.IsWhole)
    (arg2 : Memref sig .tc .vmem S256x1 .f32) (harg2 : arg2.IsWhole)
    (arg3 : Memref sig .tc .vmem S1 .f32) (harg3 : arg3.IsWhole)
    (arg4 : Memref sig .tc .vmem S256x1 .f32) (harg4 : arg4.IsWhole)
    (arg5 : Memref sig .tc .vmem S1 .f32) (harg5 : arg5.IsWhole)
    (arg6 : Memref sig .tc .vmem S256x256 .f32) (harg6 : arg6.IsWhole)
    (arg7 : Memref sig .tc .vmem S256 .f32) (harg7 : arg7.IsWhole)
    (arg8 : Memref sig .tc .vmem S5000x1 .f32) (harg8 : arg8.IsWhole)
    (arg9 : Memref sig .tc .vmem S5000x1 .f32) (harg9 : arg9.IsWhole)
    (arg10 : Memref sig .tc .vmem S5000x256 .f32) (harg10 : arg10.IsWhole)
    (x0 : Vec F S5000x256 .f32) (x1 : Vec F S256x1 .f32) (x2 : Vec F S1 .f32) (x3 : Vec F S256x1 .f32) (x4 : Vec F S1 .f32)
    (x5 : Vec F S256x256 .f32) (x6 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗
        (∃ d, owns (c : Thread nD τ) arg8 fullShare d) ∗ (∃ d, owns (c : Thread nD τ) arg9 fullShare d) ∗ (∃ d, owns (c : Thread nD τ) arg10 fullShare d) ∗
        (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗
            owns (c : Thread nD τ) arg8 fullShare (out0_7 x0 x1 x2) ∗ owns (c : Thread nD τ) arg9 fullShare (out0_8 x0 x3 x4)
            ∗ owns (c : Thread nD τ) arg10 fullShare (out0_9 x0 x5 x6)) -∗ K ⟨⟩))
      ⊢ wp frame (wpE (defs₀ (F := F)) Variants.none c none) E
          (cc0__qkv_kernel i arg1 harg1 arg2 harg2 arg3 harg3 arg4 harg4 arg5 harg5 arg6 harg6 arg7 harg7 arg8 harg8 arg9 harg9 arg10 harg10) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_7 _)
  isplitl [H8]
  · iexists _; isplitr
    swap; · iexact H8
    ipureintro
    exact View.read_writes_eq_canon _ _ _ (cover0_7 _)
  iexists _; isplitr
  swap; · iexact H9
  ipureintro
  exact View.read_writes_eq_canon _ _ _ (cover0_9 _)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 1000000 in
/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation of the projection kernel at every grid point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.Reg1.lean ====
/-
  Region 1 of the program: the weighted-sum kernel on its grid of 50 row blocks.
  A scratch accumulator of shape 1 × 256 is carried from point to point: the first point sets it to zero,
  every point adds to it the column sums of (attention weight of the row) × (row of v) over its block of 2000 rows,
  and the last point copies it into the output buffer, which is written back there and nowhere else.
-/
import proofs.«425445_j56573309223705_1_alg».proof.Proof.Gen.KernelIdeal.Launch
import proofs.«425445_j56573309223705_1_alg».proof.Proof.Gen.KernelIdeal.Skeleton
import proofs.«425445_j56573309223705_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-buffer rectangles the body loads and stores through. -/
abbrev rAw : Rect S2000x1 := Rect.unit (s := S2000x1) ![0, 0] S2000x1.size inb_S2000x1_S2000x1_0_0
abbrev rVb : Rect S2000x256 := Rect.unit (s := S2000x256) ![0, 0] S2000x256.size inb_S2000x256_S2000x256_0_0
abbrev rAcc : Rect S1x256 := Rect.unit (s := S1x256) ![0, 0] S1x256.size inb_S1x256_S1x256_0_0

/-- The grid point numbered `n` (numbers past the grid wrap; only `n < 50` is ever used). -/
def pt1 (n : ℕ) : Fin cfg1.N := ⟨n % cfg1.N, Nat.mod_lt _ (by rw [show cfg1.N = 50 from N_1]; decide)⟩

/-- One step of the accumulation: the accumulator `a` plus the column sums of weight × row over the blocks `w`, `v`. -/
def step1 (w : Vec F S2000x1 .f32) (v : Vec F S2000x256 .f32) (a : Vec F S1x256 .f32) : Vec F S1x256 .f32 :=
  k1_pay2 (View.ld w rAw) (View.ld v rVb) a

/-- What the scratch accumulator holds after point `n`: zero, then one step per point up to `n`. -/
def acc1 (c : Dev nD) : ℕ → Vec F S1x256 .f32
  | 0 => step1 (iblk1 V c 0 (pt1 0)) (iblk1 V c 1 (pt1 0)) (k1_pay1 (F := F))
  | n + 1 => step1 (iblk1 V c 0 (pt1 (n + 1))) (iblk1 V c 1 (pt1 (n + 1))) (acc1 c n)

/-- The kernel's scratch accumulator as a whole memref. -/
abbrev scM1 : Memref sig .tc .vmem S1x256 .f32 := Memref.whole cc1_scratch0

/-- The invariant before point `n`: before the first point the scratch holds anything (the class invariant);
    before point `n + 1` it holds what point `n` left, beside the other scoped buffers and the generator register. -/
def Phi1 (c : Dev nD) : ℕ → sProp 𝕄
  | 0 => Pipeline.ΦA spec1 c
  | n + 1 => iprop(owns (c : Thread nD τ) scM1 fullShare (acc1 V c n)
      ∗ Pipeline.scopedRestBut (Ix := Unit) (Name := ℕ) (U := UR sig nD τ) (Lvl := ℕ) (Val := Elt F) spec1 c [cc1_scratch0]
      ∗ ∃ r, prngReg c r)

/-- The proof data of the weighted-sum pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => View.canon [⟨rAcc, acc1 V c t.val⟩]
  Φ t := Phi1 V c t.val
  q _ := fullShare
  owed _ := 0

theorem A_eq1 (c : Dev nD) (w : Fin cfg1.W) : (dat1 V c).A w = V c (Pipeline.arrRef spec1 w) := by
  dsimp only [dat1]

theorem after1_2 (c : Dev nD) (t : Fin cfg1.N) : (dat1 V c).after 2 t = View.canon [⟨rAcc, acc1 V c t.val⟩] := by dsimp only [dat1]

/-! ## The body's two conditions, in closed form over the grid -/

/-- The reset condition of the body (the first `scf.if`), from the grid coordinates. -/
abbrev cond1_0 (i : grid1.Coords) : Prop :=
  (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val = 0 :=
  (by decide +kernel : ∀ t : Fin grid1.N, cond1_0 (grid1.coords t) ↔ t.val = 0)

/-- The copy-out condition of the body (the second `scf.if`). -/
abbrev cond1_1 (i : grid1.Coords) : Prop := k1_cond2 i = 1#1
/-- It holds at the last point only. -/
theorem hcond1_1 : ∀ t : Fin cfg1.N, cond1_1 (grid1.coords t) ↔ t.val = 49 :=
  (by decide +kernel : ∀ t : Fin grid1.N, cond1_1 (grid1.coords t) ↔ t.val = 49)

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- The output window is idle at every point but the last, -/
theorem idleAt1_2 : ∀ t : Fin cfg1.N, t.val ≠ 49 → cfg1.idle 2 (grid1.coords t) = true := by decide +kernel
/-- is not written back there, -/
theorem noFlush1_2 : ∀ t : Fin cfg1.N, t.val ≠ 49 → (cfg1.win 2).flush t = false := by decide +kernel
/-- and is live at the last point. -/
theorem liveAt1_2 : ∀ t : Fin cfg1.N, t.val = 49 → cfg1.idle 2 (grid1.coords t) = false := by decide +kernel

/-- The class invariant with the scratch accumulator set apart as a memref owned at some contents. -/
theorem PhiA1_eq (c : Dev nD) :
    (Pipeline.ΦA spec1 c : sProp 𝕄)
      = iprop(((∃ d, owns (c : Thread nD τ) scM1 fullShare d)
          ∗ Pipeline.scopedRestBut (Ix := Unit) (Name := ℕ) (U := UR sig nD τ) (Lvl := ℕ) (Val := Elt F) spec1 c [cc1_scratch0])
          ∗ (∃ r, prngReg c r)) := by
  unfold Pipeline.ΦA
  rw [Pipeline.scopedRest_split_of_list spec1 c [cc1_scratch0] (by decide) (by decide)]
  simp only [scM1, owns_whole, bigSepL_singleton]
  try rfl

/-- What the region hands the kernel is the invariant before the first point. -/
theorem hin1 (c : Dev nD) : Pipeline.ΦA spec1 c ⊢ (dat1 V c).Φ 0 := by
  dsimp only [dat1]
  try exact Idealize.SL.BI.Entails.refl _

/-- After the last point the invariant gives the class invariant back: the accumulator's contents are forgotten. -/
theorem hout1 (c : Dev nD) : (dat1 V c).Φ (Fin.last cfg1.N) ⊢ Pipeline.ΦA spec1 c := by
  dsimp only [dat1]
  rw [Fin.val_last, show cfg1.N = 49 + 1 from N_1]
  rw [PhiA1_eq]
  unfold Phi1
  iintro ⟨HS, HR, Hg⟩
  isplitr [Hg]
  · isplitl [HS]
    · iexists _; iexact HS
    iexact HR
  iexact Hg

/-! ## The body on whole memrefs, case by case -/

theorem hz1 : (![0, 0] : Fin 2 → Nat) = fun _ => 0 := funext fun a => by fin_cases a <;> rfl

/-- A list of stores whose last is a store of the whole 1 × 256 buffer covers it. -/
theorem cover1 (p : Vec F S1x256 .f32) (L : List (View.Piece (Elt F) S1x256 .f32)) (y : S1x256.Idx) :
    ∃ pc ∈ ((⟨rAcc, p⟩ : View.Piece (Elt F) S1x256 .f32) :: L), y ∈ pc.1.set :=
  ⟨_, List.mem_cons_self, View.mem_set_unit_zero hz1 inb_S1x256_S1x256_0_0 y⟩

set_option maxHeartbeats 1000000 in
/-- At the first point: the reset branch stores zeros into the scratch, the point's step is added to them, the copy-out does not run.
    The scratch may hold anything before; the output buffer is not touched. -/
theorem run1_first (c : Dev nD) (i : grid1.Coords)
    (arg1 : Memref sig .tc .vmem S2000x1 .f32) (harg1 : arg1.IsWhole)
    (arg2 : Memref sig .tc .vmem S2000x256 .f32) (harg2 : arg2.IsWhole)
    (arg3 : Memref sig .tc .vmem S1x256 .f32) (harg3 : arg3.IsWhole)
    (arg4 : Memref sig .tc .vmem S1x256 .f32) (harg4 : arg4.IsWhole)
    (hc0 : cond1_0 i) (hc1 : ¬cond1_1 i)
    (x0 : Vec F S2000x1 .f32) (x1 : Vec F S2000x256 .f32)
    (E : Set ℕ) (K : PUnit → sProp 𝕄) :
    iprop(owns (c : Thread nD τ) arg1 fullShare x0 ∗ owns (c : Thread nD τ) arg2 fullShare x1
        ∗ (∃ d, owns (c : Thread nD τ) arg4 fullShare d)
        ∗ (iprop(owns (c : Thread nD τ) arg1 fullShare x0 ∗ owns (c : Thread nD τ) arg2 fullShare x1
            ∗ owns (c : Thread nD τ) arg4 fullShare (step1 x0 x1 (k1_pay1 (F := F)))) -∗ K ⟨⟩))
      ⊢ wp frame (wpE (defs₀ (F := F)) Variants.none c none) E (cc1__wsum_kernel i arg1 harg1 arg2 harg2 arg3 harg3 arg4 harg4) K := by
  simp only [cc1__wsum_kernel_eq_skeleton]; unfold cc1__wsum_kernel_skel
  unfold owns
  iintro ⟨⟨%f0, %hf0, H0⟩, ⟨%f1, %hf1, H1⟩, ⟨%d4, %f4, -, H4⟩, Hk⟩
  subst hf0 hf1
  sl_exec (disch := first | exact hc0 | exact hc1)
  sl_step

  iapply Hk
  isplitl [H0]
  · iexists f0; isplitr; · ipureintro; rfl
    iexact H0
  isplitl [H1]
  · iexists f1; isplitr; · ipureintro; rfl
    iexact H1
  iexists _; isplitr
  swap; · iexact H4
  ipureintro
  sl_unfold_run_names
  rw [View.read_writes_eq_canon _ _ _ (cover1 _ _), View.canon_cons_unit_zero hz1, View.readCov_unit_zero _ hz1]
  unfold step1
  simp only [View.readAt_eq_ld]

set_option maxHeartbeats 1000000 in
/-- At a point that is neither the first nor the last: the point's step is added to what the scratch holds; neither branch runs. -/
theorem run1_mid (c : Dev nD) (i : grid1.Coords)
    (arg1 : Memref sig .tc .vmem S2000x1 .f32) (harg1 : arg1.IsWhole)
    (arg2 : Memref sig .tc .vmem S2000x256 .f32) (harg2 : arg2.IsWhole)
    (arg3 : Memref sig .tc .vmem S1x256 .f32) (harg3 : arg3.IsWhole)
    (arg4 : Memref sig .tc .vmem S1x256 .f32) (harg4 : arg4.IsWhole)
    (hc0 : ¬cond1_0 i) (hc1 : ¬cond1_1 i)
    (x0 : Vec F S2000x1 .f32) (x1 : Vec F S2000x256 .f32) (a : Vec F S1x256 .f32)
    (E : Set ℕ) (K : PUnit → sProp 𝕄) :
    iprop(owns (c : Thread nD τ) arg1 fullShare x0 ∗ owns (c : Thread nD τ) arg2 fullShare x1
        ∗ owns (c : Thread nD τ) arg4 fullShare a
        ∗ (iprop(owns (c : Thread nD τ) arg1 fullShare x0 ∗ owns (c : Thread nD τ) arg2 fullShare x1
            ∗ owns (c : Thread nD τ) arg4 fullShare (step1 x0 x1 a)) -∗ K ⟨⟩))
      ⊢ wp frame (wpE (defs₀ (F := F)) Variants.none c none) E (cc1__wsum_kernel i arg1 harg1 arg2 harg2 arg3 harg3 arg4 harg4) K := by
  simp only [cc1__wsum_kernel_eq_skeleton]; unfold cc1__wsum_kernel_skel
  unfold owns
  iintro ⟨⟨%f0, %hf0, H0⟩, ⟨%f1, %hf1, H1⟩, ⟨%f4, %hf4, H4⟩, Hk⟩
  subst hf0 hf1 hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H4
  ipureintro
  rw [View.read_writes_eq_canon _ _ _ (cover1 _ _), View.canon_unit_zero hz1]
  unfold step1
  simp only [View.readAt_eq_ld, View.ld_unit_zero (S := S1x256) hz1]

set_option maxHeartbeats 1000000 in
/-- At the last point: the point's step is added to what the scratch holds and the sum is copied into the output buffer,
    which may hold anything before. -/
theorem run1_last (c : Dev nD) (i : grid1.Coords)
    (arg1 : Memref sig .tc .vmem S2000x1 .f32) (harg1 : arg1.IsWhole)
    (arg2 : Memref sig .tc .vmem S2000x256 .f32) (harg2 : arg2.IsWhole)
    (arg3 : Memref sig .tc .vmem S1x256 .f32) (harg3 : arg3.IsWhole)
    (arg4 : Memref sig .tc .vmem S1x256 .f32) (harg4 : arg4.IsWhole)
    (hc0 : ¬cond1_0 i) (hc1 : cond1_1 i)
    (x0 : Vec F S2000x1 .f32) (x1 : Vec F S2000x256 .f32) (a : Vec F S1x256 .f32)
    (E : Set ℕ) (K : PUnit → sProp 𝕄) :
    iprop(owns (c : Thread nD τ) arg1 fullShare x0 ∗ owns (c : Thread nD τ) arg2 fullShare x1
        ∗ (∃ d, owns (c : Thread nD τ) arg3 fullShare d)
        ∗ owns (c : Thread nD τ) arg4 fullShare a
        ∗ (iprop(owns (c : Thread nD τ) arg1 fullShare x0 ∗ owns (c : Thread nD τ) arg2 fullShare x1
            ∗ owns (c : Thread nD τ) arg3 fullShare (View.canon [⟨rAcc, step1 x0 x1 a⟩])
            ∗ owns (c : Thread nD τ) arg4 fullShare (step1 x0 x1 a)) -∗ K ⟨⟩))
      ⊢ wp frame (wpE (defs₀ (F := F)) Variants.none c none) E (cc1__wsum_kernel i arg1 harg1 arg2 harg2 arg3 harg3 arg4 harg4) K := by
  simp only [cc1__wsum_kernel_eq_skeleton]; unfold cc1__wsum_kernel_skel
  unfold owns
  iintro ⟨⟨%f0, %hf0, H0⟩, ⟨%f1, %hf1, H1⟩, ⟨%d3, %f3, -, H3⟩, ⟨%f4, %hf4, H4⟩, Hk⟩
  subst hf0 hf1 hf4
  sl_exec (disch := first | exact hc0 | exact hc1)
  sl_step

  iapply Hk
  isplitl [H0]
  · iexists f0; isplitr; · ipureintro; rfl
    iexact H0
  isplitl [H1]
  · iexists f1; isplitr; · ipureintro; rfl
    iexact H1
  isplitl [H3]
  · iexists _; isplitr
    swap; · iexact H3
    ipureintro
    sl_unfold_run_names
    rw [View.read_writes_eq_canon _ _ _ (cover1 _ _), View.readCov_unit_zero _ hz1]
    unfold step1
    simp only [View.readAt_eq_ld, View.ld_unit_zero (S := S1x256) hz1]
  iexists _; isplitr
  swap; · iexact H4
  ipureintro
  sl_unfold_run_names
  rw [View.read_writes_eq_canon _ _ _ (cover1 _ _), View.canon_unit_zero hz1]
  unfold step1
  simp only [View.readAt_eq_ld, View.ld_unit_zero (S := S1x256) hz1]

/-! ## The accumulator and the invariant, point by point -/

/-- The point numbered `t.val` is `t`. -/
theorem pt1_val (t : Fin cfg1.N) : pt1 t.val = t := Fin.ext (Nat.mod_eq_of_lt t.isLt)

/-- At the first point the accumulator is the point's step over zeros. -/
theorem acc1_first (c : Dev nD) (t : Fin cfg1.N) (hz : t.val = 0) :
    acc1 V c t.val = step1 (iblk1 V c 0 t) (iblk1 V c 1 t) (k1_pay1 (F := F)) := by
  have h := pt1_val t
  rw [hz] at h ⊢
  rw [acc1, h]

/-- At a later point it is the point's step over what the point before left. -/
theorem acc1_pos (c : Dev nD) (t : Fin cfg1.N) (hz : t.val ≠ 0) :
    acc1 V c t.val = step1 (iblk1 V c 0 t) (iblk1 V c 1 t) (acc1 V c (t.val - 1)) := by
  obtain ⟨n, hn⟩ : ∃ n, t.val = n + 1 := ⟨t.val - 1, by omega⟩
  have h := pt1_val t
  rw [hn] at h ⊢
  rw [Nat.add_sub_cancel]
  rw [acc1, h]

theorem Phi1_zero (c : Dev nD) (n : ℕ) (hz : n = 0) : Phi1 V c n = Pipeline.ΦA spec1 c := by
  subst hz; rfl

/-- After point `n` (before point `n + 1`): the scratch at that point's accumulator. -/
theorem Phi1_succ (c : Dev nD) (n : ℕ) :
    Phi1 V c (n + 1) = iprop(owns (c : Thread nD τ) scM1 fullShare (acc1 V c n)
      ∗ Pipeline.scopedRestBut (Ix := Unit) (Name := ℕ) (U := UR sig nD τ) (Lvl := ℕ) (Val := Elt F) spec1 c [cc1_scratch0]
      ∗ ∃ r, prngReg c r) := rfl

/-- Before a point that is not the first: the scratch at what the point before left. -/
theorem Phi1_pos (c : Dev nD) (n : ℕ) (hz : n ≠ 0) :
    Phi1 V c n = iprop(owns (c : Thread nD τ) scM1 fullShare (acc1 V c (n - 1))
      ∗ Pipeline.scopedRestBut (Ix := Unit) (Name := ℕ) (U := UR sig nD τ) (Lvl := ℕ) (Val := Elt F) spec1 c [cc1_scratch0]
      ∗ ∃ r, prngReg c r) := by
  cases n with
  | zero => exact absurd rfl hz
  | succ n => rfl

/-! ## What the body finds and leaves in the input windows' buffers -/

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]

/-- Both input windows are fetched at every point and uncut: the body finds each at its block. -/
theorem before1_0 (c : Dev nD) (t : Fin cfg1.N) (d) : (dat1 V c).before 0 t d = iblk1 V c 0 t :=
  ((dat1 V c).before_fetched 0 t (fetch1_0 t) d).trans (by unfold Dat.fetched Dat.blockOf iblk1; rw [A_eq1]; try rfl)
theorem before1_1 (c : Dev nD) (t : Fin cfg1.N) (d) : (dat1 V c).before 1 t d = iblk1 V c 1 t :=
  ((dat1 V c).before_fetched 1 t (fetch1_1 t) d).trans (by unfold Dat.fetched Dat.blockOf iblk1; rw [A_eq1]; try rfl)

/-! ## The body obligation at a point -/

/-- Each window's current staging memref at point `t`, as the pipeline passes it to the body. -/
abbrev ms1_0 (t : Fin cfg1.N) : Memref sig .tc .vmem S2000x1 .f32 := win1_0.stage (cfg1.slots t 0)
abbrev ms1_1 (t : Fin cfg1.N) : Memref sig .tc .vmem S2000x256 .f32 := win1_1.stage (cfg1.slots t 1)
abbrev ms1_2 (t : Fin cfg1.N) : Memref sig .tc .vmem S1x256 .f32 := win1_2.stage (cfg1.slots t 2)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The input buffers hold their blocks. By the point's number: at the first the invariant hands
    the scratch at anything and the reset case runs; later it hands the scratch at what the point before left. The scratch
    is taken back at this point's accumulator. The output buffer is handed back untouched at every point but the last,
    where the copy-out case leaves the accumulator in it. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0 V, before1_1 V]
  rw [show (dat1 V c).owesAt () t.succ = (dat1 V c).owesAt () t.castSucc from rfl]
  rw [show (dat1 V c).Φ t.succ = Phi1 V c (t.val + 1) from rfl, Phi1_succ]
  rw [show (dat1 V c).Φ t.castSucc = Phi1 V c t.val from rfl]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 50 := lt_of_lt_of_eq t.isLt (show cfg1.N = 50 from N_1)
  by_cases hz : t.val = 0
  · have h49 : t.val ≠ 49 := by omega
    rw [Dat.leavesExact_idle (dat1 V c) 2 t (idleAt1_2 t h49) (noFlush1_2 t h49)]
    rw [Phi1_zero V c _ hz, PhiA1_eq, acc1_first V c t hz]
    iintro ⟨⟨⟨HS, HR⟩, Hg⟩, Ho, ⟨%d0, H0⟩, ⟨%d1, H1⟩, H2⟩
    iapply (run1_first c (grid1.coords t) _ _ _ _ _ _ _ _ ((hcond1_0 t).mpr hz) (fun h => h49 ((hcond1_1 t).mp h))
      (iblk1 V c 0 t) (iblk1 V c 1 t) Set.univ _)
    isplitl [H0]; · iexact H0
    isplitl [H1]; · iexact H1
    isplitl [HS]; · iexact HS
    iintro ⟨H0, H1, HS⟩
    isplitl [HS HR Hg]
    · isplitl [HS]; · iexact HS
      isplitl [HR]; · iexact HR
      iexact Hg
    isplitl [Ho]; · iexact Ho
    isplitl [H0]; · iexact H0
    isplitl [H1]; · iexact H1
    iexact H2
  · by_cases h49 : t.val = 49
    · rw [show (dat1 V c).leavesExact 2 t = owns (c : Thread nD τ) (ms1_2 t) fullShare ((dat1 V c).after 2 t) from by
        unfold Dat.leavesExact; rw [liveAt1_2 t h49], after1_2]
      rw [Phi1_pos V c _ hz, acc1_pos V c t hz]
      iintro ⟨⟨HS, HR, Hg⟩, Ho, ⟨%d0, H0⟩, ⟨%d1, H1⟩, ⟨%d2, H2⟩⟩
      iapply (run1_last c (grid1.coords t) _ _ _ _ _ _ _ _ (fun h => hz ((hcond1_0 t).mp h)) ((hcond1_1 t).mpr h49)
        (iblk1 V c 0 t) (iblk1 V c 1 t) (acc1 V c (t.val - 1)) Set.univ _)
      isplitl [H0]; · iexact H0
      isplitl [H1]; · iexact H1
      isplitl [H2]; · iexists _; iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
    · rw [Dat.leavesExact_idle (dat1 V c) 2 t (idleAt1_2 t h49) (noFlush1_2 t h49)]
      rw [Phi1_pos V c _ hz, acc1_pos V c t hz]
      iintro ⟨⟨HS, HR, Hg⟩, Ho, ⟨%d0, H0⟩, ⟨%d1, H1⟩, H2⟩
      iapply (run1_mid c (grid1.coords t) _ _ _ _ _ _ _ _ (fun h => hz ((hcond1_0 t).mp h)) (fun h => h49 ((hcond1_1 t).mp h))
        (iblk1 V c 0 t) (iblk1 V c 1 t) (acc1 V c (t.val - 1)) Set.univ _)
      isplitl [H0]; · iexact H0
      isplitl [H1]; · iexact H1
      isplitl [HS]; · iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      iexact H2

/-- The body obligation of the weighted-sum kernel at every grid point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KI.Run.lean ====
/-
  The whole run of the program: @main is the projection region, seven stretches of host operations
  (the two gathers, the product, leaky-relu, softmax and the scatter-add), the weighted-sum region, and a
  final reshape. The buffer contents at each boundary are named, from the launch memory to the return, and every
  weakly fair execution is shown to end with every unscoped buffer at the last of them.
-/
import proofs.«425445_j56573309223705_1_alg».proof.Proof.Gen.KernelIdeal.Launch
import proofs.«425445_j56573309223705_1_alg».proof.Proof.Gen.KernelIdeal.Skeleton
import proofs.«425445_j56573309223705_1_alg».proof.Proof.Gen.KernelIdeal.Points
import proofs.«425445_j56573309223705_1_alg».proof.Proof.Gen.KernelIdeal.Regions
import proofs.«425445_j56573309223705_1_alg».proof.Proof.KI.Reg0
import proofs.«425445_j56573309223705_1_alg».proof.Proof.KI.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (the projection region's entry). -/
abbrev W0 : Dev nD → Valuation τ sig (Elt F) := fun c b => (s₀ m ρ).mem ((c : Dev nD), b)
/-- The same read at the TensorCore's references. -/
abbrev VA : (c : Dev nD) → (b : Ref sig .tc) → Buf (Elt F) ((c : Thread nD τ).loc b) := fun c b => W0 m ρ c b
/-- At the projection region's exit: its arrays at what its write-backs leave, every other buffer as entered. -/
def W1 (c : Dev nD) : Valuation τ sig (Elt F) :=
  Pipeline.withArrays spec0 c (W0 m ρ c) fun w => (dat0 (VA m ρ) c).arrAt w cfg0.N
/-- After each host stretch in turn. -/
abbrev W2 : Dev nD → Valuation τ sig (Elt F) := fun c => StableHlo.after hostOps1 (W1 m ρ c)
abbrev W3 : Dev nD → Valuation τ sig (Elt F) := fun c => StableHlo.after hostOps1_1 (W2 m ρ c)
abbrev W4 : Dev nD → Valuation τ sig (Elt F) := fun c => StableHlo.after hostOps1_2 (W3 m ρ c)
abbrev W5 : Dev nD → Valuation τ sig (Elt F) := fun c => StableHlo.after hostOps1_3 (W4 m ρ c)
abbrev W6 : Dev nD → Valuation τ sig (Elt F) := fun c => StableHlo.after hostOps1_4 (W5 m ρ c)
abbrev W7 : Dev nD → Valuation τ sig (Elt F) := fun c => StableHlo.after hostOps1_5 (W6 m ρ c)
abbrev W8 : Dev nD → Valuation τ sig (Elt F) := fun c => StableHlo.after hostOps1_6 (W7 m ρ c)
/-- The weighted-sum region's entry contents read at the TensorCore's references. -/
abbrev VB : (c : Dev nD) → (b : Ref sig .tc) → Buf (Elt F) ((c : Thread nD τ).loc b) := fun c b => W8 m ρ c b
/-- At the weighted-sum region's exit. -/
def W9 (c : Dev nD) : Valuation τ sig (Elt F) :=
  Pipeline.withArrays spec1 c (W8 m ρ c) fun w => (dat1 (VB m ρ) c).arrAt w cfg1.N
/-- After the final reshape: the contents at the return. -/
abbrev W10 : Dev nD → Valuation τ sig (Elt F) := fun c => StableHlo.after hostOps2 (W9 m ρ c)

theorem W1_arr (c : Dev nD) (w : Fin cfg0.W) :
    W1 m ρ c (Proc.devRef .tc (Pipeline.arrRef spec0 w)) = (dat0 (VA m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
theorem W9_arr (c : Dev nD) (w : Fin cfg1.W) :
    W9 m ρ c (Proc.devRef .tc (Pipeline.arrRef spec1 w)) = (dat1 (VB m ρ) c).arrAt w cfg1.N := by
  unfold W9; exact Pipeline.withArrays_arr spec1 launch1.win.arr_inj c _ _ w
theorem W9_of_ne (c : Dev nD) (b : Ref sig .tc) (hb : ∀ w, Pipeline.arrRef spec1 w ≠ b) :
    W9 m ρ c (Proc.devRef .tc b) = W8 m ρ c (Proc.devRef .tc b) := by
  unfold W9; exact Pipeline.withArrays_of_ne spec1 c _ _ b hb

/-! ## Each region's exit contents: its arrays at what the write-backs leave, the rest as entered -/

/-- The projection region's exit contents read at the TensorCore's references. -/
abbrev VA' : (c : Dev nD) → (b : Ref sig .tc) → Buf (Elt F) ((c : Thread nD τ).loc b) := fun c b => W1 m ρ c b
/-- The weighted-sum region's exit contents read at the TensorCore's references. -/
abbrev VB' : (c : Dev nD) → (b : Ref sig .tc) → Buf (Elt F) ((c : Thread nD τ).loc b) := fun c b => W9 m ρ c b

theorem hF0 (c : Dev nD) (w : Fin cfg0.W) : (dat0 (VA m ρ) c).arrAt w cfg0.N = VA' m ρ c (Pipeline.arrRef spec0 w) :=
  (W1_arr m ρ c w).symm
theorem hrest0 (c : Dev nD) : ∀ b, b ∉ Finset.univ.image (Pipeline.arrRef spec0) → VA' m ρ c b = VA m ρ c b :=
  fun b hb => W1_of_ne m ρ c b fun w e => hb (Finset.mem_image.mpr ⟨w, Finset.mem_univ _, e⟩)
theorem hF1 (c : Dev nD) (w : Fin cfg1.W) : (dat1 (VB m ρ) c).arrAt w cfg1.N = VB' m ρ c (Pipeline.arrRef spec1 w) :=
  (W9_arr m ρ c w).symm
theorem hrest1 (c : Dev nD) : ∀ b, b ∉ Finset.univ.image (Pipeline.arrRef spec1) → VB' m ρ c b = VB m ρ c b :=
  fun b hb => W9_of_ne m ρ c b fun w e => hb (Finset.mem_image.mpr ⟨w, Finset.mem_univ _, e⟩)

/-! ## The proof data family and the thread state -/

/-- Every pipeline's proof data, each at its region's entry contents: a literal match on the pipeline index. -/
def pdats : (p : Fin 2) → (c : Dev nD) → Dat τ (Elt F) Unit ℕ (UR sig nD τ) ℕ (Pipeline.pin (pcfgs (F := F)) adm p) c
  | ⟨0, _⟩ => fun c => dat0 (VA m ρ) c
  | ⟨1, _⟩ => fun c => dat1 (VB m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends
    with those references at the stretch's result from `W c`, the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the dues: every unscoped buffer at the last boundary's contents, the generator
    register at some state. -/
abbrev Tₙ (c : Dev nD) : sProp 𝕄 := iprop(StableHlo.held (c : Thread nD τ) (Pipeline.ucRefs τ sig) (W10 m ρ c) ∗ ∃ r, prngReg c r)

/-! ## The regions as segments -/

set_option backward.isDefEq.respectTransparency.types false in
/-- The projection region over the thread state: entered from every unscoped buffer at the launch contents, left at
    `W1`. Its arrays are split out of the unscoped buffers and put back at the exit contents; the generator register
    goes into the class invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (VA m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (VA m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (VA m ρ c) (VA' m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The weighted-sum region over the thread state: entered from every unscoped buffer at `W8`, left at `W9`. Its
    invariant before the first point is made from the class invariant, and after the last point gives it back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VB m ρ) c).loose
  hwaits := Pipeline.hwaits_of_owed_zero _ _ _ _ L lv 1 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec1 c (VB m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (VB m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (VB m ρ) c)
    unfold Pipeline.ΦA
    iintro ⟨Hp, -, Hr⟩
    isplitl [Hr]; · iexact Hr
    iexact Hp
  hout c := by
    rw [Pipeline.ownSems0_none]
    refine BIBase.Entails.trans (hout1 (VB m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (VB m ρ c) (VB' m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's ten segments in order: the projection region, a host segment per stretch from its boundary's contents,
    the weighted-sum region, the final reshape. -/
abbrev runSegs : List (Pipeline.Seg (pcfgs (F := F)) adm (pdats m ρ) () defs₀ 𝒱₀ L lv) :=
  [ .region (reg0 m ρ),
    .host (hseg hostOps1 hostOps1_sub hostOps1_fresh (W1 m ρ)),
    .host (hseg hostOps1_1 hostOps1_1_sub hostOps1_1_fresh (W2 m ρ)),
    .host (hseg hostOps1_2 hostOps1_2_sub hostOps1_2_fresh (W3 m ρ)),
    .host (hseg hostOps1_3 hostOps1_3_sub hostOps1_3_fresh (W4 m ρ)),
    .host (hseg hostOps1_4 hostOps1_4_sub hostOps1_4_fresh (W5 m ρ)),
    .host (hseg hostOps1_5 hostOps1_5_sub hostOps1_5_fresh (W6 m ρ)),
    .host (hseg hostOps1_6 hostOps1_6_sub hostOps1_6_fresh (W7 m ρ)),
    .region (reg1 m ρ),
    .host (hseg hostOps2 hostOps2_sub hostOps2_fresh (W9 m ρ)) ]
/-- @main is the run of the segments: it is the chain of its ten items, and the segments' run is the chain of their
    programs, which are those items. -/
theorem main_run (c : Dev nD) : main (F := F) c = Pipeline.Seg.run (runSegs m ρ) := (main_chain c).trans (by chain_rfl)

/-- What the final reshape leaves is the last thread state beside the core owing nothing: the same three conjuncts,
    grouped the other way. -/
theorem last_state (c : Dev nD) : iprop(StableHlo.held (c : Thread nD τ) (Pipeline.ucRefs τ sig) (W10 m ρ c) ∗ R c)
    ⊢ (iprop(Tₙ m ρ c ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

/-! ## The run -/

set_option backward.isDefEq.respectTransparency.types false in
/-- Every weakly fair execution of @main from memory `m` with zero counters terminates, nothing faulting, and every
    unscoped buffer of every core ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (runSegs m ρ)
    (fun c Q => by rw [main_run m ρ c])
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun c => last_state m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h => h)

/-- An unscoped TensorCore reference is among those the run's post speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- A reference that no host stretch writes and that is no array of the weighted-sum region holds, at the last
    boundary, what the projection region left in it: the fold walked back through the nine later items. -/
theorem W10_eq_W1 (c : Dev nD) (a : Ref sig .tc) (h10 : a ∉ hostOps2_W) (h9 : ∀ w, Pipeline.arrRef spec1 w ≠ a)
    (h8 : a ∉ hostOps1_6_W) (h7 : a ∉ hostOps1_5_W) (h6 : a ∉ hostOps1_4_W) (h5 : a ∉ hostOps1_3_W)
    (h4 : a ∉ hostOps1_2_W) (h3 : a ∉ hostOps1_1_W) (h2 : a ∉ hostOps1_W) :
    W10 m ρ c (Proc.devRef .tc a) = W1 m ρ c (Proc.devRef .tc a) :=
  calc W10 m ρ c (Proc.devRef .tc a)
    _ = W9 m ρ c (Proc.devRef .tc a) := StableHlo.after_of_writes_sub hostOps2 _ hostOps2_writes h10
    _ = W8 m ρ c (Proc.devRef .tc a) := W9_of_ne m ρ c a h9
    _ = W7 m ρ c (Proc.devRef .tc a) := StableHlo.after_of_writes_sub hostOps1_6 _ hostOps1_6_writes h8
    _ = W6 m ρ c (Proc.devRef .tc a) := StableHlo.after_of_writes_sub hostOps1_5 _ hostOps1_5_writes h7
    _ = W5 m ρ c (Proc.devRef .tc a) := StableHlo.after_of_writes_sub hostOps1_4 _ hostOps1_4_writes h6
    _ = W4 m ρ c (Proc.devRef .tc a) := StableHlo.after_of_writes_sub hostOps1_3 _ hostOps1_3_writes h5
    _ = W3 m ρ c (Proc.devRef .tc a) := StableHlo.after_of_writes_sub hostOps1_2 _ hostOps1_2_writes h4
    _ = W2 m ρ c (Proc.devRef .tc a) := StableHlo.after_of_writes_sub hostOps1_1 _ hostOps1_1_writes h3
    _ = W1 m ρ c (Proc.devRef .tc a) := StableHlo.after_of_writes_sub hostOps1 _ hostOps1_writes h2

/-- No item of @main writes an argument array: each ends as launched. -/
theorem W10_arg (c : Dev nD) (a : Ref sig .tc)
    (ha : a ∈ ([main_arg0, main_arg1, main_arg2, main_arg3, main_arg4, main_arg5, main_arg6, main_arg7] : List (Ref sig .tc))) :
    W10 m ρ c (Proc.devRef .tc a) = m ((c : Thread nD τ).loc a) := by
  simp only [List.mem_cons, List.not_mem_nil, or_false] at ha
  -- seven of the arguments are input arrays of the projection region, which leaves an input as entered; the second
  -- argument is no array of it, so the region leaves it as it leaves every buffer that is none of its arrays
  rcases ha with rfl | rfl | rfl | rfl | rfl | rfl | rfl | rfl
  · exact (W10_eq_W1 m ρ c main_arg0 (by decide) (by decide) (by decide) (by decide) (by decide) (by decide) (by decide) (by decide) (by decide)).trans
      ((W1_arr m ρ c 0).trans (((dat0 (VA m ρ) c).arrAt_in 0 rfl _).trans (A_eq0 (VA m ρ) c 0)))
  · exact (W10_eq_W1 m ρ c main_arg1 (by decide) (by decide) (by decide) (by decide) (by decide) (by decide) (by decide) (by decide) (by decide)).trans (W1_of_ne m ρ c main_arg1 (by decide))
  · exact (W10_eq_W1 m ρ c main_arg2 (by decide) (by decide) (by decide) (by decide) (by decide) (by decide) (by decide) (by decide) (by decide)).trans
      ((W1_arr m ρ c 1).trans (((dat0 (VA m ρ) c).arrAt_in 1 rfl _).trans (A_eq0 (VA m ρ) c 1)))
  · exact (W10_eq_W1 m ρ c main_arg3 (by decide) (by decide) (by decide) (by decide) (by decide) (by decide) (by decide) (by decide) (by decide)).trans
      ((W1_arr m ρ c 2).trans (((dat0 (VA m ρ) c).arrAt_in 2 rfl _).trans (A_eq0 (VA m ρ) c 2)))
  · exact (W10_eq_W1 m ρ c main_arg4 (by decide) (by decide) (by decide) (by decide) (by decide) (by decide) (by decide) (by decide) (by decide)).trans
      ((W1_arr m ρ c 3).trans (((dat0 (VA m ρ) c).arrAt_in 3 rfl _).trans (A_eq0 (VA m ρ) c 3)))
  · exact (W10_eq_W1 m ρ c main_arg5 (by decide) (by decide) (by decide) (by decide) (by decide) (by decide) (by decide) (by decide) (by decide)).trans
      ((W1_arr m ρ c 4).trans (((dat0 (VA m ρ) c).arrAt_in 4 rfl _).trans (A_eq0 (VA m ρ) c 4)))
  · exact (W10_eq_W1 m ρ c main_arg6 (by decide) (by decide) (by decide) (by decide) (by decide) (by decide) (by decide) (by decide) (by decide)).trans
      ((W1_arr m ρ c 5).trans (((dat0 (VA m ρ) c).arrAt_in 5 rfl _).trans (A_eq0 (VA m ρ) c 5)))
  · exact (W10_eq_W1 m ρ c main_arg7 (by decide) (by decide) (by decide) (by decide) (by decide) (by decide) (by decide) (by decide) (by decide)).trans
      ((W1_arr m ρ c 6).trans (((dat0 (VA m ρ) c).arrAt_in 6 rfl _).trans (A_eq0 (VA m ρ) c 6)))

/-- The frame claim at any `F`: the run, read at the eight argument arrays. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W10_arg m ρ c main_arg0 (by decide)),
      (h c _ (mem_uc main_arg1 (by decide))).trans (W10_arg m ρ c main_arg1 (by decide)),
      (h c _ (mem_uc main_arg2 (by decide))).trans (W10_arg m ρ c main_arg2 (by decide)),
      (h c _ (mem_uc main_arg3 (by decide))).trans (W10_arg m ρ c main_arg3 (by decide)),
      (h c _ (mem_uc main_arg4 (by decide))).trans (W10_arg m ρ c main_arg4 (by decide)),
      (h c _ (mem_uc main_arg5 (by decide))).trans (W10_arg m ρ c main_arg5 (by decide)),
      (h c _ (mem_uc main_arg6 (by decide))).trans (W10_arg m ρ c main_arg6 (by decide)),
      (h c _ (mem_uc main_arg7 (by decide))).trans (W10_arg m ρ c main_arg7 (by decide))⟩) (run_all m ρ)

end Cert.KernelIdeal.Hand

end
-- ==== Proof.Spec.lean ====
/-
  The mathematics both programs compute, as functions of the input arrays over the extended reals,
  index by index, stated over literal shapes so that neither program's text is needed to read it:
  a row of x times a weight column plus a bias (the projections q, k and v), and the sum over all
  rows of (weight of the row) × (row of v) (the graph embedding).
-/
import Idealize.ShloMosaic.Lib.ValueIdx
import Idealize.ShloMosaic.PureOps.Ideal

noncomputable section

namespace Cert.Spec

open Idealize.ShloMosaic Idealize.ShloMosaic.ValueIdx

/-- The one-column projection: entry (n, 0) is Σ_k x[n,k]·w[k,0] + b[0]. -/
def proj (x : (⟨2, ![100000, 256]⟩ : Shape).Idx → EReal) (w : (⟨2, ![256, 1]⟩ : Shape).Idx → EReal)
    (b : (⟨1, ![1]⟩ : Shape).Idx → EReal) : (⟨2, ![100000, 1]⟩ : Shape).Idx → EReal :=
  fun i => (∑ k : Fin 256, x (ix2 (i 0) k) * w (ix2 k (0 : Fin 1))) + b (ix1 (0 : Fin 1))

/-- The 256-column projection: entry (n, j) is Σ_k x[n,k]·w[k,j] + b[j]. -/
def projV (x : (⟨2, ![100000, 256]⟩ : Shape).Idx → EReal) (w : (⟨2, ![256, 256]⟩ : Shape).Idx → EReal)
    (b : (⟨1, ![256]⟩ : Shape).Idx → EReal) : (⟨2, ![100000, 256]⟩ : Shape).Idx → EReal :=
  fun i => (∑ k : Fin 256, x (ix2 (i 0) k) * w (ix2 k (i 1))) + b (ix1 (i 1))

/-- The weighted sum of rows: entry j is Σ_n a[n]·v[n,j]. -/
def wsum (a : (⟨1, ![100000]⟩ : Shape).Idx → EReal) (v : (⟨2, ![100000, 256]⟩ : Shape).Idx → EReal) :
    (⟨1, ![256]⟩ : Shape).Idx → EReal :=
  fun j => ∑ n : Fin 100000, a (ix1 n) * v (ix2 n (j 0))

end Cert.Spec

end
-- ==== Proof.KI.HostVal.lean ====
/-
  The host stretches of the program read as functions: what each stretch leaves in the buffers the later items read,
  as the stretch's operations applied to the contents it starts from. The two rows of the edge table as vectors, a
  one-column array as a vector, the take of a vector at a vector of indices (an index wrapped when negative, the
  gathered entry where the wrapped index is in range and a fill value elsewhere), the leaky rectifier, and the
  softmax over all edges followed by the scatter-add into the zero vector at the row indices.
-/
import proofs.«425445_j56573309223705_1_alg».proof.Proof.Gen.KernelIdeal.Launch
import Idealize.ShloMosaic.Lib.StableHlo.Run

set_option maxRecDepth 16384

noncomputable section

namespace Cert.KernelIdeal.Hand

open Idealize.ShloMosaic Idealize.ShloMosaic.TcCoe Idealize.ShloMosaic.StableHlo
open Idealize.SL.Sem
open Cert.KernelIdeal Cert.KernelIdeal.Gen

variable {F : FTy → Type} [FloatOps F]

/-! ## The stretches' functions -/

/-- Row 0 of the edge table as a vector. -/
def rowK (e : (⟨S2x3200000, .i32⟩ : BufTy).Contents (Elt F)) : (⟨S3200000, .i32⟩ : BufTy).Contents (Elt F) :=
  shapeCast S3200000 (extractStridedSlice S1x3200000 ![0, 0] e slices_S2x3200000_S1x3200000_0_0) shapeCasts_S1x3200000_S3200000

/-- Row 1 of the edge table as a vector. -/
def colK (e : (⟨S2x3200000, .i32⟩ : BufTy).Contents (Elt F)) : (⟨S3200000, .i32⟩ : BufTy).Contents (Elt F) :=
  shapeCast S3200000 (extractStridedSlice S1x3200000 ![1, 0] e slices_S2x3200000_S1x3200000_1_0) shapeCasts_S1x3200000_S3200000

/-- A one-column array as a vector. -/
def vecK (q : (⟨S100000x1, .f32⟩ : BufTy).Contents (Elt F)) : (⟨S100000, .f32⟩ : BufTy).Contents (Elt F) :=
  shapeCast S100000 q shapeCasts_S100000x1_S100000

/-- An index vector with each negative index wrapped by the table's length. -/
def wrapK (idx : (⟨S3200000, .i32⟩ : BufTy).Contents (Elt F)) : (⟨S3200000, .i32⟩ : BufTy).Contents (Elt F) :=
  select (cmpi .slt idx (broadcastInDim S3200000 ![] bcast_S_S3200000 (constantI S_ 32 0#32)))
    (addi idx (broadcastInDim S3200000 ![] bcast_S_S3200000 (constantI S_ 32 100000#32))) idx

/-- The wrapped indices as a column of start indices. -/
def startK (idx : (⟨S3200000, .i32⟩ : BufTy).Contents (Elt F)) : (⟨S3200000x1, .i32⟩ : BufTy).Contents (Elt F) :=
  broadcastInDim S3200000x1 ![0] bcast_S3200000_S3200000x1_0 (wrapK idx)

/-- Where a start index lies in the table: at least 0 and at most 99999, conjoined over the axis of size one. -/
def maskK (p : (⟨S3200000x1, .i32⟩ : BufTy).Contents (Elt F)) : (⟨S3200000, .i1⟩ : BufTy).Contents (Elt F) :=
  Host.reduce IntOp.andi
    (andi (cmpi .sge p (broadcastInDim S3200000x1 ![] bcast_S_S3200000x1 (constantI S_ 32 0#32)))
      (cmpi .sle p (broadcastInDim S3200000x1 ![0, 1] bcast_S1x1_S3200000x1_0_1
        (broadcastInDim S1x1 ![1] bcast_S1_S1x1_1 (constantI S1 32 99999#32)))))
    (constantI S_ 1 1#1) reducesTo_S3200000x1_S3200000_d1 h_S_

/-- The take of a vector at a vector of indices: the gathered entry where the wrapped index is in range, the fill
    value elsewhere. -/
def takeK (x : (⟨S100000, .f32⟩ : BufTy).Contents (Elt F)) (idx : (⟨S3200000, .i32⟩ : BufTy).Contents (Elt F)) : (⟨S3200000, .f32⟩ : BufTy).Contents (Elt F) :=
  select (maskK (startK (F := F) idx))
    (Host.gather gather_S100000_S3200000x1_S3200000_n_0_n_n_0_1_1 x (startK (F := F) idx))
    (broadcastInDim S3200000 ![] bcast_S_S3200000 (constant S_ .f32 0x7FC00000#32))

/-- The leaky rectifier with the slope a scalar array: where the entry is at least zero the entry, elsewhere the slope
    times the entry. -/
def lreluK (att : (⟨S3200000, .f32⟩ : BufTy).Contents (Elt F)) (slope : (⟨S_, .f32⟩ : BufTy).Contents (Elt F)) : (⟨S3200000, .f32⟩ : BufTy).Contents (Elt F) :=
  select (cmpf .oge att (broadcastInDim S3200000 ![] bcast_S_S3200000 (constant S_ .f32 0x00000000#32))) att
    (mulf (broadcastInDim S3200000 ![] bcast_S_S3200000 (id slope)) att)

/-- The exponentials of the softmax: each entry less the maximum over all entries, exponentiated. -/
def expK (lr : (⟨S3200000, .f32⟩ : BufTy).Contents (Elt F)) : (⟨S3200000, .f32⟩ : BufTy).Contents (Elt F) :=
  Host.exp (subf lr
    (broadcastInDim S3200000 ![0] bcast_S1_S3200000_0 (broadcastInDim S1 ![] bcast_S_S1
      (maximumf (constant S_ .f32 0xFF800000#32)
        (Host.reduce FloatOps.maximumf lr (constant S_ .f32 0xFF800000#32) reducesTo_S3200000_S_d0 h_S_)))))

/-- The softmax weights: each exponential over the sum of them all. -/
def smK (ex : (⟨S3200000, .f32⟩ : BufTy).Contents (Elt F)) : (⟨S3200000, .f32⟩ : BufTy).Contents (Elt F) :=
  Host.divf ex
    (broadcastInDim S3200000 ![0] bcast_S1_S3200000_0 (broadcastInDim S1 ![] bcast_S_S1
      (Host.reduceAdd ex (constant S_ .f32 0x00000000#32) reducesTo_S3200000_S_d0 h_S_)))

/-- The node weights from the rectified logits: the softmax over all edges, each edge's weight added into the zero
    vector at the edge's row index. -/
def awK (lr : (⟨S3200000, .f32⟩ : BufTy).Contents (Elt F)) (row : (⟨S3200000, .i32⟩ : BufTy).Contents (Elt F)) : (⟨S100000, .f32⟩ : BufTy).Contents (Elt F) :=
  Host.scatterAdd scatter_S100000_S3200000x1_S3200000_n_0_0_1
    (broadcastInDim S100000 ![] bcast_S_S100000 (constant S_ .f32 0x00000000#32))
    (broadcastInDim S3200000x1 ![0] bcast_S3200000_S3200000x1_0 row)
    (smK (expK lr))

/-! ## What each stretch leaves, from any contents -/

variable (V : Valuation τ sig (Elt F))

/-! ## Reading a stretch piece by piece

What a list of operations leaves is what its tail leaves from what its head leaves, so a long stretch is read as
a few short ones. -/

theorem after_append (l₁ l₂ : List (HloOp τ sig (Elt F))) (V : Valuation τ sig (Elt F)) :
    after (l₁ ++ l₂) V = after l₂ (after l₁ V) := by
  induction l₁ generalizing V with
  | nil => rfl
  | cons op l ih => exact ih _

theorem after_split (n : ℕ) (l : List (HloOp τ sig (Elt F))) (V : Valuation τ sig (Elt F)) :
    after l V = after (l.drop n) (after (l.take n) V) := by
  conv_lhs => rw [← List.take_append_drop n l]
  exact after_append _ _ _

/-! ### The take of main_v5 at main_v2 (the stretch hostOps1_1), piece by piece -/

-- its first eight operations: the wrapped indices as a column
theorem tk0_A : after ((hostOps1_1 (F := F)).take 8) V (Proc.devRef .tc main_call0_v5) = startK (V (Proc.devRef .tc main_v2)) := by
  show after [_, _, _, _, _, _, _, _] V _ = _
  after_results_simp
  simp only [TRef.ofBuf, TRef.toBuf, cast_cast, cast_eq]
  unfold startK wrapK
  rfl
theorem tk0_A_keep : after ((hostOps1_1 (F := F)).take 8) V (Proc.devRef .tc main_v5) = V (Proc.devRef .tc main_v5) := by
  show after [_, _, _, _, _, _, _, _] V _ = _
  after_results
-- the next ten: the in-range mask from the column of start indices
theorem tk0_B : after (((hostOps1_1 (F := F)).drop 8).take 10) V (Proc.devRef .tc main_call0_v12) = maskK (V (Proc.devRef .tc main_call0_v5)) := by
  show after [_, _, _, _, _, _, _, _, _, _] V _ = _
  after_results_simp
  simp only [TRef.ofBuf, TRef.toBuf, cast_cast, cast_eq]
  unfold maskK
  rfl
theorem tk0_B_keep5 : after (((hostOps1_1 (F := F)).drop 8).take 10) V (Proc.devRef .tc main_call0_v5) = V (Proc.devRef .tc main_call0_v5) := by
  show after [_, _, _, _, _, _, _, _, _, _] V _ = _
  after_results
theorem tk0_B_keep : after (((hostOps1_1 (F := F)).drop 8).take 10) V (Proc.devRef .tc main_v5) = V (Proc.devRef .tc main_v5) := by
  show after [_, _, _, _, _, _, _, _, _, _] V _ = _
  after_results
-- the next three: the gather and the fill value
theorem tk0_C13 : after (((hostOps1_1 (F := F)).drop 18).take 3) V (Proc.devRef .tc main_call0_v13)
    = Host.gather gather_S100000_S3200000x1_S3200000_n_0_n_n_0_1_1 (V (Proc.devRef .tc main_v5)) (V (Proc.devRef .tc main_call0_v5)) := by
  show after [_, _, _] V _ = _
  after_results_simp
  simp only [TRef.ofBuf, TRef.toBuf, cast_cast, cast_eq]
theorem tk0_C14 : after (((hostOps1_1 (F := F)).drop 18).take 3) V (Proc.devRef .tc main_call0_v14)
    = broadcastInDim S3200000 ![] bcast_S_S3200000 (constant (F := F) S_ .f32 0x7FC00000#32) := by
  show after [_, _, _] V _ = _
  after_results_simp
  simp only [TRef.ofBuf, TRef.toBuf, cast_cast, cast_eq]
theorem tk0_C12 : after (((hostOps1_1 (F := F)).drop 18).take 3) V (Proc.devRef .tc main_call0_v12) = V (Proc.devRef .tc main_call0_v12) := by
  show after [_, _, _] V _ = _
  after_results
-- the last: the select
theorem tk0_S : after ((hostOps1_1 (F := F)).drop 21) V (Proc.devRef .tc main_v6)
    = select (V (Proc.devRef .tc main_call0_v12)) (V (Proc.devRef .tc main_call0_v13)) (V (Proc.devRef .tc main_call0_v14)) := by
  show after [_] V _ = _
  after_results_simp
  simp only [TRef.ofBuf, TRef.toBuf, cast_cast, cast_eq]

theorem tk0_all : after hostOps1_1 V (Proc.devRef .tc main_v6) = takeK (V (Proc.devRef .tc main_v5)) (V (Proc.devRef .tc main_v2)) := by
  rw [after_split 21 hostOps1_1 V, tk0_S]
  rw [after_split 18 ((hostOps1_1 (F := F)).take 21) V]
  rw [show ((hostOps1_1 (F := F)).take 21).drop 18 = ((hostOps1_1 (F := F)).drop 18).take 3 from rfl,
    show ((hostOps1_1 (F := F)).take 21).take 18 = (hostOps1_1 (F := F)).take 18 from rfl]
  rw [tk0_C12, tk0_C13, tk0_C14]
  rw [after_split 8 ((hostOps1_1 (F := F)).take 18) V]
  rw [show ((hostOps1_1 (F := F)).take 18).drop 8 = ((hostOps1_1 (F := F)).drop 8).take 10 from rfl,
    show ((hostOps1_1 (F := F)).take 18).take 8 = (hostOps1_1 (F := F)).take 8 from rfl]
  rw [tk0_B, tk0_B_keep5, tk0_B_keep, tk0_A, tk0_A_keep]
  rfl

/-! ### The take of main_v7 at main_v4 (the stretch hostOps1_3), piece by piece -/

-- its first eight operations: the wrapped indices as a column
theorem tk1_A : after ((hostOps1_3 (F := F)).take 8) V (Proc.devRef .tc main_call1_v5) = startK (V (Proc.devRef .tc main_v4)) := by
  show after [_, _, _, _, _, _, _, _] V _ = _
  after_results_simp
  simp only [TRef.ofBuf, TRef.toBuf, cast_cast, cast_eq]
  unfold startK wrapK
  rfl
theorem tk1_A_keep : after ((hostOps1_3 (F := F)).take 8) V (Proc.devRef .tc main_v7) = V (Proc.devRef .tc main_v7) := by
  show after [_, _, _, _, _, _, _, _] V _ = _
  after_results
-- the next ten: the in-range mask from the column of start indices
theorem tk1_B : after (((hostOps1_3 (F := F)).drop 8).take 10) V (Proc.devRef .tc main_call1_v12) = maskK (V (Proc.devRef .tc main_call1_v5)) := by
  show after [_, _, _, _, _, _, _, _, _, _] V _ = _
  after_results_simp
  simp only [TRef.ofBuf, TRef.toBuf, cast_cast, cast_eq]
  unfold maskK
  rfl
theorem tk1_B_keep5 : after (((hostOps1_3 (F := F)).drop 8).take 10) V (Proc.devRef .tc main_call1_v5) = V (Proc.devRef .tc main_call1_v5) := by
  show after [_, _, _, _, _, _, _, _, _, _] V _ = _
  after_results
theorem tk1_B_keep : after (((hostOps1_3 (F := F)).drop 8).take 10) V (Proc.devRef .tc main_v7) = V (Proc.devRef .tc main_v7) := by
  show after [_, _, _, _, _, _, _, _, _, _] V _ = _
  after_results
-- the next three: the gather and the fill value
theorem tk1_C13 : after (((hostOps1_3 (F := F)).drop 18).take 3) V (Proc.devRef .tc main_call1_v13)
    = Host.gather gather_S100000_S3200000x1_S3200000_n_0_n_n_0_1_1 (V (Proc.devRef .tc main_v7)) (V (Proc.devRef .tc main_call1_v5)) := by
  show after [_, _, _] V _ = _
  after_results_simp
  simp only [TRef.ofBuf, TRef.toBuf, cast_cast, cast_eq]
theorem tk1_C14 : after (((hostOps1_3 (F := F)).drop 18).take 3) V (Proc.devRef .tc main_call1_v14)
    = broadcastInDim S3200000 ![] bcast_S_S3200000 (constant (F := F) S_ .f32 0x7FC00000#32) := by
  show after [_, _, _] V _ = _
  after_results_simp
  simp only [TRef.ofBuf, TRef.toBuf, cast_cast, cast_eq]
theorem tk1_C12 : after (((hostOps1_3 (F := F)).drop 18).take 3) V (Proc.devRef .tc main_call1_v12) = V (Proc.devRef .tc main_call1_v12) := by
  show after [_, _, _] V _ = _
  after_results
-- the last: the select
theorem tk1_S : after ((hostOps1_3 (F := F)).drop 21) V (Proc.devRef .tc main_v8)
    = select (V (Proc.devRef .tc main_call1_v12)) (V (Proc.devRef .tc main_call1_v13)) (V (Proc.devRef .tc main_call1_v14)) := by
  show after [_] V _ = _
  after_results_simp
  simp only [TRef.ofBuf, TRef.toBuf, cast_cast, cast_eq]

theorem tk1_all : after hostOps1_3 V (Proc.devRef .tc main_v8) = takeK (V (Proc.devRef .tc main_v7)) (V (Proc.devRef .tc main_v4)) := by
  rw [after_split 21 hostOps1_3 V, tk1_S]
  rw [after_split 18 ((hostOps1_3 (F := F)).take 21) V]
  rw [show ((hostOps1_3 (F := F)).take 21).drop 18 = ((hostOps1_3 (F := F)).drop 18).take 3 from rfl,
    show ((hostOps1_3 (F := F)).take 21).take 18 = (hostOps1_3 (F := F)).take 18 from rfl]
  rw [tk1_C12, tk1_C13, tk1_C14]
  rw [after_split 8 ((hostOps1_3 (F := F)).take 18) V]
  rw [show ((hostOps1_3 (F := F)).take 18).drop 8 = ((hostOps1_3 (F := F)).drop 8).take 10 from rfl,
    show ((hostOps1_3 (F := F)).take 18).take 8 = (hostOps1_3 (F := F)).take 8 from rfl]
  rw [tk1_B, tk1_B_keep5, tk1_B_keep, tk1_A, tk1_A_keep]
  rfl

theorem h1_v2 : after hostOps1 V (Proc.devRef .tc main_v2) = rowK (V (Proc.devRef .tc main_arg1)) := by
  after_results <;> unfold rowK <;> rfl
theorem h1_v4 : after hostOps1 V (Proc.devRef .tc main_v4) = colK (V (Proc.devRef .tc main_arg1)) := by
  after_results <;> unfold colK <;> rfl
theorem h1_v5 : after hostOps1 V (Proc.devRef .tc main_v5) = vecK (V (Proc.devRef .tc main_v0_0)) := by
  after_results <;> unfold vecK <;> rfl

theorem h1_1_v6 : after hostOps1_1 V (Proc.devRef .tc main_v6) = takeK (V (Proc.devRef .tc main_v5)) (V (Proc.devRef .tc main_v2)) := by
  exact tk0_all V

theorem h1_2_v7 : after hostOps1_2 V (Proc.devRef .tc main_v7) = vecK (V (Proc.devRef .tc main_v0_1)) := by
  after_results <;> unfold vecK <;> rfl

theorem h1_3_v8 : after hostOps1_3 V (Proc.devRef .tc main_v8) = takeK (V (Proc.devRef .tc main_v7)) (V (Proc.devRef .tc main_v4)) := by
  exact tk1_all V

theorem h1_4_v9 : after hostOps1_4 V (Proc.devRef .tc main_v9) = mulf (V (Proc.devRef .tc main_v6)) (V (Proc.devRef .tc main_v8)) := by
  after_results <;> rfl
theorem h1_4_cst : after hostOps1_4 V (Proc.devRef .tc main_cst) = constant S_ .f32 0x3E4CCCCD#32 := by
  after_results <;> rfl

theorem h1_5_v10 : after hostOps1_5 V (Proc.devRef .tc main_v10) = lreluK (V (Proc.devRef .tc main_v9)) (V (Proc.devRef .tc main_cst)) := by
  after_results_simp
  simp only [TRef.ofBuf, TRef.toBuf, cast_cast, cast_eq]
  unfold lreluK
  rfl

set_option maxHeartbeats 300000 in
theorem h1_6_v23 : after hostOps1_6 V (Proc.devRef .tc main_v23) = awK (V (Proc.devRef .tc main_v10)) (V (Proc.devRef .tc main_v2)) := by
  after_results_simp
  unfold awK smK expK
  rfl

set_option maxHeartbeats 300000 in
theorem h1_6_v24 : after hostOps1_6 V (Proc.devRef .tc main_v24)
    = shapeCast S100000x1 (awK (V (Proc.devRef .tc main_v10)) (V (Proc.devRef .tc main_v2))) shapeCasts_S100000_S100000x1 := by
  after_results_simp
  unfold awK smK expK
  rfl

theorem h2_v26 : after hostOps2 V (Proc.devRef .tc main_v26) = shapeCast S256 (V (Proc.devRef .tc main_v25)) shapeCasts_S1x256_S256 := by
  after_results <;> rfl

end Cert.KernelIdeal.Hand

end
-- ==== Proof.KI.Val0.lean ====
/-
  What the projection region leaves in its three output arrays, over the extended reals: block t of an output
  is written back at point t and the twenty blocks tile the array, so entry (n, j) is the stored block's entry at
  row n mod 5000 of block n / 5000, which is Σ_k x[n,k]·w[k,j] + b[j] (the matrix unit's product into a zero
  accumulator is the plain sum; changes of float format are the identity).
-/
import proofs.«425445_j56573309223705_1_alg».proof.Proof.Spec
import proofs.«425445_j56573309223705_1_alg».proof.Proof.KI.Reg0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

-- the TensorCore's buffer contents when the region is entered, at the exact instance
variable (V : (c : Dev nD) → (b : Ref sig .tc) → Buf (Elt Ideal) ((c : Thread nD τ).loc b))

namespace P0

/-! ## The payloads at an index -/

/-- The one-column product's operand indices, axis by axis: the left operand reads the output's row and the
    contracted coordinate, the right operand the contracted coordinate and the output's column. -/
theorem lhs_q_0 (i : S5000x1.Idx) (q : dot_S5000x256_S256x1_S5000x1_1_0_0_1_n_n.contr.Idx) :
    (dot_S5000x256_S256x1_S5000x1_1_0_0_1_n_n.lhsIdx i q 0).val = (i 0).val := by
  unfold DotDims.lhsIdx
  rw [dif_neg (show ¬(0 : Fin S5000x256.rank) ∈ dot_S5000x256_S256x1_S5000x1_1_0_0_1_n_n.lhsBatch by decide), dif_pos (show (0 : Fin S5000x256.rank) ∈ dot_S5000x256_S256x1_S5000x1_1_0_0_1_n_n.lhsNonContracting by decide)]
  rfl
theorem lhs_q_1 (i : S5000x1.Idx) (q : dot_S5000x256_S256x1_S5000x1_1_0_0_1_n_n.contr.Idx) :
    (dot_S5000x256_S256x1_S5000x1_1_0_0_1_n_n.lhsIdx i q 1).val = (q ⟨0, by decide⟩).val :=
  dot_S5000x256_S256x1_S5000x1_1_0_0_1_n_n.lhsIdx_val_of_single rfl i q
theorem rhs_q_0 (i : S5000x1.Idx) (q : dot_S5000x256_S256x1_S5000x1_1_0_0_1_n_n.contr.Idx) :
    (dot_S5000x256_S256x1_S5000x1_1_0_0_1_n_n.rhsIdx i q 0).val = (q ⟨0, by decide⟩).val :=
  dot_S5000x256_S256x1_S5000x1_1_0_0_1_n_n.rhsIdx_val_of_single rfl i q
theorem rhs_q_1 (i : S5000x1.Idx) (q : dot_S5000x256_S256x1_S5000x1_1_0_0_1_n_n.contr.Idx) :
    (dot_S5000x256_S256x1_S5000x1_1_0_0_1_n_n.rhsIdx i q 1).val = (i 1).val := by
  unfold DotDims.rhsIdx
  rw [dif_neg (show ¬(1 : Fin S256x1.rank) ∈ dot_S5000x256_S256x1_S5000x1_1_0_0_1_n_n.rhsBatch by decide), dif_pos (show (1 : Fin S256x1.rank) ∈ dot_S5000x256_S256x1_S5000x1_1_0_0_1_n_n.rhsNonContracting by decide)]
  rfl

/-- The q payload at row p: the row of x against the weight column, plus the bias. -/
theorem pay2_apply (x : Vec Ideal S5000x256 .f32) (w : Vec Ideal S256x1 .f32) (b : Vec Ideal S1 .f32) (p : Fin 5000) :
    k0_pay2 x w b (ix2 p (0 : Fin 1)) = (∑ k : Fin 256, x (ix2 p k) * w (ix2 k (0 : Fin 1))) + b (ix1 (0 : Fin 1)) := by
  unfold k0_pay2 k0_pay1
  dsimp only
  rw [addf_apply, broadcastTo_1b_ab_apply, shapeCast_a_1a_apply]
  simp only [matmul]
  rw [Ideal.matmul_constant_zero_apply, ← Equiv.sum_comp (contrEquiv1 dot_S5000x256_S256x1_S5000x1_1_0_0_1_n_n 256 rfl rfl).symm]
  congr 1
  refine Finset.sum_congr rfl fun k _ => ?_
  have hk := contrEquiv1_symm_val dot_S5000x256_S256x1_S5000x1_1_0_0_1_n_n 256 rfl rfl k
  have el : dot_S5000x256_S256x1_S5000x1_1_0_0_1_n_n.lhsIdx (ix2 p (0 : Fin 1)) ((contrEquiv1 dot_S5000x256_S256x1_S5000x1_1_0_0_1_n_n 256 rfl rfl).symm k) = ix2 p k := funext fun a => Fin.ext (by
    match a with
    | ⟨0, _⟩ => exact lhs_q_0 _ _
    | ⟨1, _⟩ => exact (lhs_q_1 _ _).trans hk)
  have er : dot_S5000x256_S256x1_S5000x1_1_0_0_1_n_n.rhsIdx (ix2 p (0 : Fin 1)) ((contrEquiv1 dot_S5000x256_S256x1_S5000x1_1_0_0_1_n_n 256 rfl rfl).symm k) = ix2 k (0 : Fin 1) := funext fun a => Fin.ext (by
    match a with
    | ⟨0, _⟩ => exact (rhs_q_0 _ _).trans hk
    | ⟨1, _⟩ => exact rhs_q_1 _ _)
  rw [el, er]
  rfl

/-- The k payload is the same function of its three blocks as the q payload. -/
theorem pay3_eq (x : Vec Ideal S5000x256 .f32) (w : Vec Ideal S256x1 .f32) (b : Vec Ideal S1 .f32) :
    k0_pay3 x w b = k0_pay2 x w b := rfl

/-- The 256-column product's operand indices, axis by axis. -/
theorem lhs_v_0 (i : S5000x256.Idx) (q : dot_S5000x256_S256x256_S5000x256_1_0_0_1_n_n.contr.Idx) :
    (dot_S5000x256_S256x256_S5000x256_1_0_0_1_n_n.lhsIdx i q 0).val = (i 0).val := by
  unfold DotDims.lhsIdx
  rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
  rfl
theorem lhs_v_1 (i : S5000x256.Idx) (q : dot_S5000x256_S256x256_S5000x256_1_0_0_1_n_n.contr.Idx) :
    (dot_S5000x256_S256x256_S5000x256_1_0_0_1_n_n.lhsIdx i q 1).val = (q ⟨0, by decide⟩).val :=
  dot_S5000x256_S256x256_S5000x256_1_0_0_1_n_n.lhsIdx_val_of_single rfl i q
theorem rhs_v_0 (i : S5000x256.Idx) (q : dot_S5000x256_S256x256_S5000x256_1_0_0_1_n_n.contr.Idx) :
    (dot_S5000x256_S256x256_S5000x256_1_0_0_1_n_n.rhsIdx i q 0).val = (q ⟨0, by decide⟩).val :=
  dot_S5000x256_S256x256_S5000x256_1_0_0_1_n_n.rhsIdx_val_of_single rfl i q
theorem rhs_v_1 (i : S5000x256.Idx) (q : dot_S5000x256_S256x256_S5000x256_1_0_0_1_n_n.contr.Idx) :
    (dot_S5000x256_S256x256_S5000x256_1_0_0_1_n_n.rhsIdx i q 1).val = (i 1).val := by
  unfold DotDims.rhsIdx
  rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
  rfl

/-- The v payload at (p, j): the row of x against column j of the weights, plus the bias at j. -/
theorem pay4_apply (x : Vec Ideal S5000x256 .f32) (w : Vec Ideal S256x256 .f32) (b : Vec Ideal S256 .f32) (p : Fin 5000) (j : Fin 256) :
    k0_pay4 x w b (ix2 p j) = (∑ k : Fin 256, x (ix2 p k) * w (ix2 k j)) + b (ix1 j) := by
  unfold k0_pay4 k0_pay1
  dsimp only
  rw [addf_apply, broadcastTo_1b_ab_apply, shapeCast_a_1a_apply]
  simp only [matmul]
  rw [Ideal.matmul_constant_zero_apply, ← Equiv.sum_comp (contrEquiv1 dot_S5000x256_S256x256_S5000x256_1_0_0_1_n_n 256 rfl rfl).symm]
  congr 1
  refine Finset.sum_congr rfl fun k _ => ?_
  have hk := contrEquiv1_symm_val dot_S5000x256_S256x256_S5000x256_1_0_0_1_n_n 256 rfl rfl k
  have el : dot_S5000x256_S256x256_S5000x256_1_0_0_1_n_n.lhsIdx (ix2 p j) ((contrEquiv1 dot_S5000x256_S256x256_S5000x256_1_0_0_1_n_n 256 rfl rfl).symm k) = ix2 p k := funext fun a => Fin.ext (by
    match a with
    | ⟨0, _⟩ => exact lhs_v_0 _ _
    | ⟨1, _⟩ => exact (lhs_v_1 _ _).trans hk)
  have er : dot_S5000x256_S256x256_S5000x256_1_0_0_1_n_n.rhsIdx (ix2 p j) ((contrEquiv1 dot_S5000x256_S256x256_S5000x256_1_0_0_1_n_n 256 rfl rfl).symm k) = ix2 k j := funext fun a => Fin.ext (by
    match a with
    | ⟨0, _⟩ => exact (rhs_v_0 _ _).trans hk
    | ⟨1, _⟩ => exact rhs_v_1 _ _)
  rw [el, er]
  rfl

/-- A row of the q payload, over a block of x whose row p is row n of an array X, is the projection of X at row n. -/
theorem q_row (X : S100000x256.Idx → EReal) (W : S256x1.Idx → EReal) (B : S1.Idx → EReal)
    (x : Vec Ideal S5000x256 .f32) (w : Vec Ideal S256x1 .f32) (b : Vec Ideal S1 .f32) (p : Fin 5000) (n : Fin 100000)
    (hx : ∀ k : Fin 256, x (ix2 p k) = X (ix2 n k)) (hw : w = W) (hb : b = B) :
    k0_pay2 x w b (ix2 p (0 : Fin 1)) = Cert.Spec.proj X W B (ix2 n (0 : Fin 1)) := by
  subst hw hb
  rw [pay2_apply]
  show _ = (∑ k : Fin 256, X (ix2 n k) * w (ix2 k (0 : Fin 1))) + b (ix1 (0 : Fin 1))
  congr 1
  exact Finset.sum_congr rfl fun k _ => by rw [hx k]

/-- An entry of the v payload, over a block of x whose row p is row n of an array X, is the projection of X at (n, j). -/
theorem v_row (X : S100000x256.Idx → EReal) (W : S256x256.Idx → EReal) (B : S256.Idx → EReal)
    (x : Vec Ideal S5000x256 .f32) (w : Vec Ideal S256x256 .f32) (b : Vec Ideal S256 .f32) (p : Fin 5000) (j : Fin 256)
    (n : Fin 100000) (hx : ∀ k : Fin 256, x (ix2 p k) = X (ix2 n k)) (hw : w = W) (hb : b = B) :
    k0_pay4 x w b (ix2 p j) = Cert.Spec.projV X W B (ix2 n j) := by
  subst hw hb
  rw [pay4_apply]
  show _ = (∑ k : Fin 256, X (ix2 n k) * w (ix2 k j)) + b (ix1 j)
  congr 1
  exact Finset.sum_congr rfl fun k _ => by rw [hx k]

/-! ## The blocks the body reads, as parts of the arrays -/

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: x and the three outputs move one block of rows per point, the weights and
    the biases stay at block zero. -/
theorem index0_0 : ∀ t : Fin cfg0.N, win0_0.index t (0 : Fin 2) = t.val ∧ win0_0.index t (1 : Fin 2) = 0 :=
  (by decide +kernel : ∀ t : Fin grid0.N, _)
theorem index0_1 : ∀ t : Fin cfg0.N, win0_1.index t (0 : Fin 2) = 0 ∧ win0_1.index t (1 : Fin 2) = 0 :=
  (by decide +kernel : ∀ t : Fin grid0.N, _)
theorem index0_2 : ∀ t : Fin cfg0.N, win0_2.index t (0 : Fin 1) = 0 :=
  (by decide +kernel : ∀ t : Fin grid0.N, _)
theorem index0_3 : ∀ t : Fin cfg0.N, win0_3.index t (0 : Fin 2) = 0 ∧ win0_3.index t (1 : Fin 2) = 0 :=
  (by decide +kernel : ∀ t : Fin grid0.N, _)
theorem index0_4 : ∀ t : Fin cfg0.N, win0_4.index t (0 : Fin 1) = 0 :=
  (by decide +kernel : ∀ t : Fin grid0.N, _)
theorem index0_5 : ∀ t : Fin cfg0.N, win0_5.index t (0 : Fin 2) = 0 ∧ win0_5.index t (1 : Fin 2) = 0 :=
  (by decide +kernel : ∀ t : Fin grid0.N, _)
theorem index0_6 : ∀ t : Fin cfg0.N, win0_6.index t (0 : Fin 1) = 0 :=
  (by decide +kernel : ∀ t : Fin grid0.N, _)
theorem index0_7 : ∀ t : Fin cfg0.N, win0_7.index t (0 : Fin 2) = t.val ∧ win0_7.index t (1 : Fin 2) = 0 :=
  (by decide +kernel : ∀ t : Fin grid0.N, _)
theorem index0_8 : ∀ t : Fin cfg0.N, win0_8.index t (0 : Fin 2) = t.val ∧ win0_8.index t (1 : Fin 2) = 0 :=
  (by decide +kernel : ∀ t : Fin grid0.N, _)
theorem index0_9 : ∀ t : Fin cfg0.N, win0_9.index t (0 : Fin 2) = t.val ∧ win0_9.index t (1 : Fin 2) = 0 :=
  (by decide +kernel : ∀ t : Fin grid0.N, _)

/-- The block of x at point t is rows 5000t … 5000t + 4999 of x. -/
theorem iblk0_x (c : Dev nD) (t : Fin cfg0.N) (y : S5000x256.Idx) (n : S100000x256.Idx)
    (h0 : (n 0).val = 5000 * t.val + (y 0).val) (h1 : (n 1).val = (y 1).val) :
    (iblk0 V c 0 t : Vec Ideal S5000x256 .f32) y = (V c main_arg0 : S100000x256.Idx → EReal) n := by
  obtain ⟨e0, e1⟩ := index0_0 t
  unfold iblk0
  rw [View.read_apply]
  show V c main_arg0 _ = V c main_arg0 _
  congr 1
  funext a
  apply Fin.ext
  match a with
  | ⟨0, _⟩ => show win0_0.index t (0 : Fin 2) * 5000 + 1 * (y 0).val = (n 0).val; rw [e0, h0]; omega
  | ⟨1, _⟩ => show win0_0.index t (1 : Fin 2) * 256 + 1 * (y 1).val = (n 1).val; rw [e1, h1]; omega

/-- The block of Wq at every point is Wq. -/
theorem iblk0_wq (c : Dev nD) (t : Fin cfg0.N) :
    (iblk0 V c 1 t : Vec Ideal S256x1 .f32) = (V c main_arg2 : S256x1.Idx → EReal) := by
  obtain ⟨e0, e1⟩ := index0_1 t
  funext y
  unfold iblk0
  rw [View.read_apply]
  show V c main_arg2 _ = V c main_arg2 _
  congr 1
  funext a
  apply Fin.ext
  match a with
  | ⟨0, _⟩ => show win0_1.index t (0 : Fin 2) * 256 + 1 * (y 0).val = (y 0).val; rw [e0]; omega
  | ⟨1, _⟩ => show win0_1.index t (1 : Fin 2) * 1 + 1 * (y 1).val = (y 1).val; rw [e1]; omega

/-- The block of bq at every point is bq. -/
theorem iblk0_bq (c : Dev nD) (t : Fin cfg0.N) :
    (iblk0 V c 2 t : Vec Ideal S1 .f32) = (V c main_arg3 : S1.Idx → EReal) := by
  have e0 := index0_2 t
  funext y
  unfold iblk0
  rw [View.read_apply]
  show V c main_arg3 _ = V c main_arg3 _
  congr 1
  funext a
  apply Fin.ext
  match a with
  | ⟨0, _⟩ => show win0_2.index t (0 : Fin 1) * 1 + 1 * (y 0).val = (y 0).val; rw [e0]; omega

/-- The block of Wk at every point is Wk. -/
theorem iblk0_wk (c : Dev nD) (t : Fin cfg0.N) :
    (iblk0 V c 3 t : Vec Ideal S256x1 .f32) = (V c main_arg4 : S256x1.Idx → EReal) := by
  obtain ⟨e0, e1⟩ := index0_3 t
  funext y
  unfold iblk0
  rw [View.read_apply]
  show V c main_arg4 _ = V c main_arg4 _
  congr 1
  funext a
  apply Fin.ext
  match a with
  | ⟨0, _⟩ => show win0_3.index t (0 : Fin 2) * 256 + 1 * (y 0).val = (y 0).val; rw [e0]; omega
  | ⟨1, _⟩ => show win0_3.index t (1 : Fin 2) * 1 + 1 * (y 1).val = (y 1).val; rw [e1]; omega

/-- The block of bk at every point is bk. -/
theorem iblk0_bk (c : Dev nD) (t : Fin cfg0.N) :
    (iblk0 V c 4 t : Vec Ideal S1 .f32) = (V c main_arg5 : S1.Idx → EReal) := by
  have e0 := index0_4 t
  funext y
  unfold iblk0
  rw [View.read_apply]
  show V c main_arg5 _ = V c main_arg5 _
  congr 1
  funext a
  apply Fin.ext
  match a with
  | ⟨0, _⟩ => show win0_4.index t (0 : Fin 1) * 1 + 1 * (y 0).val = (y 0).val; rw [e0]; omega

/-- The block of Wv at every point is Wv. -/
theorem iblk0_wv (c : Dev nD) (t : Fin cfg0.N) :
    (iblk0 V c 5 t : Vec Ideal S256x256 .f32) = (V c main_arg6 : S256x256.Idx → EReal) := by
  obtain ⟨e0, e1⟩ := index0_5 t
  funext y
  unfold iblk0
  rw [View.read_apply]
  show V c main_arg6 _ = V c main_arg6 _
  congr 1
  funext a
  apply Fin.ext
  match a with
  | ⟨0, _⟩ => show win0_5.index t (0 : Fin 2) * 256 + 1 * (y 0).val = (y 0).val; rw [e0]; omega
  | ⟨1, _⟩ => show win0_5.index t (1 : Fin 2) * 256 + 1 * (y 1).val = (y 1).val; rw [e1]; omega

/-- The block of bv at every point is bv. -/
theorem iblk0_bv (c : Dev nD) (t : Fin cfg0.N) :
    (iblk0 V c 6 t : Vec Ideal S256 .f32) = (V c main_arg7 : S256.Idx → EReal) := by
  have e0 := index0_6 t
  funext y
  unfold iblk0
  rw [View.read_apply]
  show V c main_arg7 _ = V c main_arg7 _
  congr 1
  funext a
  apply Fin.ext
  match a with
  | ⟨0, _⟩ => show win0_6.index t (0 : Fin 1) * 256 + 1 * (y 0).val = (y 0).val; rw [e0]; omega

/-- Row p of block t is row 5000t + p of the array. -/
theorem row_lt (t : Fin cfg0.N) (p : Fin 5000) : 5000 * t.val + p.val < 100000 := by
  have ht : t.val < 20 := lt_of_lt_of_eq t.isLt N_0
  have hp := p.isLt
  omega

/-! ## The q array -/

/-- Where row p of the q block at point t sits in the q array. -/
theorem emb0_7 (t : Fin cfg0.N) (p : Fin 5000) (n : Fin 100000) (hn : n.val = 5000 * t.val + p.val) :
    (((cfg0.win 7).blk t).view.emb (ix2 p (0 : Fin 1)) : S100000x1.Idx) = ix2 n (0 : Fin 1) := by
  obtain ⟨e0, e1⟩ := index0_7 t
  funext a
  apply Fin.ext
  match a with
  | ⟨0, _⟩ => show win0_7.index t (0 : Fin 2) * 5000 + 1 * p.val = n.val; rw [e0, hn]; omega
  | ⟨1, _⟩ => show win0_7.index t (1 : Fin 2) * 1 + 1 * 0 = 0; rw [e1]

/-- What point t writes back to the q array is block t of the projection. -/
theorem flushed0_7 (c : Dev nD) (t : Fin cfg0.N) :
    (dat0 V c).flushed 7 t = ((cfg0.win 7).blk t).view.read (Elt Ideal) (Cert.Spec.proj (V c main_arg0) (V c main_arg2) (V c main_arg3)) := by
  show (cfg0.win 7).cut (grid0.coords t) ((dat0 V c).after 7 t) = _
  rw [after0_7]
  unfold out0_7
  rw [View.canon_unit_zero hz2]
  simp only [View.ld_unit_zero (S := S5000x256) hz2, View.ld_unit_zero (S := S256x1) hz2, View.ld_unit_zero (S := S1) hz1]
  funext j
  show k0_pay2 (iblk0 V c 0 t) (iblk0 V c 1 t) (iblk0 V c 2 t) (j : S5000x1.Idx) = Cert.Spec.proj (V c main_arg0) (V c main_arg2) (V c main_arg3) (((cfg0.win 7).blk t).view.emb j)
  obtain ⟨p, q, rfl⟩ : ∃ (p : Fin 5000) (q : Fin 1), (j : S5000x1.Idx) = ix2 p q := ⟨j 0, j 1, eq_ix2 j⟩
  obtain rfl : q = 0 := Subsingleton.elim _ _
  rw [emb0_7 t p ⟨_, row_lt t p⟩ rfl]
  exact q_row _ _ _ _ _ _ p ⟨_, row_lt t p⟩ (fun k => iblk0_x V c t _ _ rfl rfl) (iblk0_wq V c t) (iblk0_bq V c t)

/-- An index of the q array is in point t's block iff each coordinate is in the block's range on its axis. -/
theorem mem_blk0_7 (t : Fin cfg0.N) (i : S100000x1.Idx) :
    i ∈ ((cfg0.win 7).blk t).view.set ↔ ∀ a : Fin 2, win0_7.index t a * S5000x1.size a ≤ (i a).val ∧ (i a).val < win0_7.index t a * S5000x1.size a + S5000x1.size a := by
  show i ∈ ((View.whole main_v0_0).slice (win0_7.rect t)).set ↔ _
  rw [View.set_slice_whole, Rect.mem_set_unit]
  exact Iff.rfl

/-- Row r of the q array is in the block of point r / 5000, which is written back. -/
theorem covered0_7 (i : S100000x1.Idx) :
    ∃ t : Fin cfg0.N, (cfg0.win 7).flush t = true ∧ i ∈ ((cfg0.win 7).blk t).view.set := by
  have hN : cfg0.N = 20 := N_0
  have hi0 : (i 0).val < 100000 := (i 0).isLt
  have hi1 : (i 1).val < 1 := (i 1).isLt
  have hq : (i 0).val / 5000 < cfg0.N := by rw [hN]; omega
  obtain ⟨e0, e1⟩ := index0_7 ⟨(i 0).val / 5000, hq⟩
  refine ⟨⟨(i 0).val / 5000, hq⟩, flush0_7 _, ?_⟩
  rw [mem_blk0_7]
  intro a
  match a with
  | ⟨0, _⟩ =>
    show win0_7.index ⟨(i 0).val / 5000, hq⟩ (0 : Fin 2) * 5000 ≤ (i 0).val ∧ (i 0).val < win0_7.index ⟨(i 0).val / 5000, hq⟩ (0 : Fin 2) * 5000 + 5000
    rw [e0]
    show (i 0).val / 5000 * 5000 ≤ (i 0).val ∧ (i 0).val < (i 0).val / 5000 * 5000 + 5000
    omega
  | ⟨1, _⟩ =>
    show win0_7.index ⟨(i 0).val / 5000, hq⟩ (1 : Fin 2) * 1 ≤ (i 1).val ∧ (i 1).val < win0_7.index ⟨(i 0).val / 5000, hq⟩ (1 : Fin 2) * 1 + 1
    rw [e1]
    omega

/-! ## The k array -/

/-- Where row p of the k block at point t sits in the k array. -/
theorem emb0_8 (t : Fin cfg0.N) (p : Fin 5000) (n : Fin 100000) (hn : n.val = 5000 * t.val + p.val) :
    (((cfg0.win 8).blk t).view.emb (ix2 p (0 : Fin 1)) : S100000x1.Idx) = ix2 n (0 : Fin 1) := by
  obtain ⟨e0, e1⟩ := index0_8 t
  funext a
  apply Fin.ext
  match a with
  | ⟨0, _⟩ => show win0_8.index t (0 : Fin 2) * 5000 + 1 * p.val = n.val; rw [e0, hn]; omega
  | ⟨1, _⟩ => show win0_8.index t (1 : Fin 2) * 1 + 1 * 0 = 0; rw [e1]

/-- What point t writes back to the k array is block t of the projection. -/
theorem flushed0_8 (c : Dev nD) (t : Fin cfg0.N) :
    (dat0 V c).flushed 8 t = ((cfg0.win 8).blk t).view.read (Elt Ideal) (Cert.Spec.proj (V c main_arg0) (V c main_arg4) (V c main_arg5)) := by
  show (cfg0.win 8).cut (grid0.coords t) ((dat0 V c).after 8 t) = _
  rw [after0_8]
  unfold out0_8
  rw [View.canon_unit_zero hz2]
  simp only [View.ld_unit_zero (S := S5000x256) hz2, View.ld_unit_zero (S := S256x1) hz2, View.ld_unit_zero (S := S1) hz1]
  funext j
  show k0_pay3 (iblk0 V c 0 t) (iblk0 V c 3 t) (iblk0 V c 4 t) (j : S5000x1.Idx) = Cert.Spec.proj (V c main_arg0) (V c main_arg4) (V c main_arg5) (((cfg0.win 8).blk t).view.emb j)
  obtain ⟨p, q, rfl⟩ : ∃ (p : Fin 5000) (q : Fin 1), (j : S5000x1.Idx) = ix2 p q := ⟨j 0, j 1, eq_ix2 j⟩
  obtain rfl : q = 0 := Subsingleton.elim _ _
  rw [emb0_8 t p ⟨_, row_lt t p⟩ rfl]
  refine (congrFun (pay3_eq _ _ _) _).trans ?_
  exact q_row _ _ _ _ _ _ p ⟨_, row_lt t p⟩ (fun k => iblk0_x V c t _ _ rfl rfl) (iblk0_wk V c t) (iblk0_bk V c t)

/-- An index of the k array is in point t's block iff each coordinate is in the block's range on its axis. -/
theorem mem_blk0_8 (t : Fin cfg0.N) (i : S100000x1.Idx) :
    i ∈ ((cfg0.win 8).blk t).view.set ↔ ∀ a : Fin 2, win0_8.index t a * S5000x1.size a ≤ (i a).val ∧ (i a).val < win0_8.index t a * S5000x1.size a + S5000x1.size a := by
  show i ∈ ((View.whole main_v0_1).slice (win0_8.rect t)).set ↔ _
  rw [View.set_slice_whole, Rect.mem_set_unit]
  exact Iff.rfl

/-- Row r of the k array is in the block of point r / 5000, which is written back. -/
theorem covered0_8 (i : S100000x1.Idx) :
    ∃ t : Fin cfg0.N, (cfg0.win 8).flush t = true ∧ i ∈ ((cfg0.win 8).blk t).view.set := by
  have hN : cfg0.N = 20 := N_0
  have hi0 : (i 0).val < 100000 := (i 0).isLt
  have hi1 : (i 1).val < 1 := (i 1).isLt
  have hq : (i 0).val / 5000 < cfg0.N := by rw [hN]; omega
  obtain ⟨e0, e1⟩ := index0_8 ⟨(i 0).val / 5000, hq⟩
  refine ⟨⟨(i 0).val / 5000, hq⟩, flush0_8 _, ?_⟩
  rw [mem_blk0_8]
  intro a
  match a with
  | ⟨0, _⟩ =>
    show win0_8.index ⟨(i 0).val / 5000, hq⟩ (0 : Fin 2) * 5000 ≤ (i 0).val ∧ (i 0).val < win0_8.index ⟨(i 0).val / 5000, hq⟩ (0 : Fin 2) * 5000 + 5000
    rw [e0]
    show (i 0).val / 5000 * 5000 ≤ (i 0).val ∧ (i 0).val < (i 0).val / 5000 * 5000 + 5000
    omega
  | ⟨1, _⟩ =>
    show win0_8.index ⟨(i 0).val / 5000, hq⟩ (1 : Fin 2) * 1 ≤ (i 1).val ∧ (i 1).val < win0_8.index ⟨(i 0).val / 5000, hq⟩ (1 : Fin 2) * 1 + 1
    rw [e1]
    omega

/-! ## The v array -/

/-- Where entry (p, j) of the v block at point t sits in the v array. -/
theorem emb0_9 (t : Fin cfg0.N) (p : Fin 5000) (j : Fin 256) (n : Fin 100000) (hn : n.val = 5000 * t.val + p.val) :
    (((cfg0.win 9).blk t).view.emb (ix2 p j) : S100000x256.Idx) = ix2 n j := by
  obtain ⟨e0, e1⟩ := index0_9 t
  funext a
  apply Fin.ext
  match a with
  | ⟨0, _⟩ => show win0_9.index t (0 : Fin 2) * 5000 + 1 * p.val = n.val; rw [e0, hn]; omega
  | ⟨1, _⟩ => show win0_9.index t (1 : Fin 2) * 256 + 1 * j.val = j.val; rw [e1]; omega

/-- What point t writes back to the v array is block t of the projection. -/
theorem flushed0_9 (c : Dev nD) (t : Fin cfg0.N) :
    (dat0 V c).flushed 9 t = ((cfg0.win 9).blk t).view.read (Elt Ideal) (Cert.Spec.projV (V c main_arg0) (V c main_arg6) (V c main_arg7)) := by
  show (cfg0.win 9).cut (grid0.coords t) ((dat0 V c).after 9 t) = _
  rw [after0_9]
  unfold out0_9
  rw [View.canon_unit_zero hz2]
  simp only [View.ld_unit_zero (S := S5000x256) hz2, View.ld_unit_zero (S := S256x256) hz2, View.ld_unit_zero (S := S256) hz1]
  funext j
  show k0_pay4 (iblk0 V c 0 t) (iblk0 V c 5 t) (iblk0 V c 6 t) (j : S5000x256.Idx) = Cert.Spec.projV (V c main_arg0) (V c main_arg6) (V c main_arg7) (((cfg0.win 9).blk t).view.emb j)
  obtain ⟨p, q, rfl⟩ : ∃ (p : Fin 5000) (q : Fin 256), (j : S5000x256.Idx) = ix2 p q := ⟨j 0, j 1, eq_ix2 j⟩
  rw [emb0_9 t p q ⟨_, row_lt t p⟩ rfl]
  exact v_row _ _ _ _ _ _ p q ⟨_, row_lt t p⟩ (fun k => iblk0_x V c t _ _ rfl rfl) (iblk0_wv V c t) (iblk0_bv V c t)

/-- An index of the v array is in point t's block iff each coordinate is in the block's range on its axis. -/
theorem mem_blk0_9 (t : Fin cfg0.N) (i : S100000x256.Idx) :
    i ∈ ((cfg0.win 9).blk t).view.set ↔ ∀ a : Fin 2, win0_9.index t a * S5000x256.size a ≤ (i a).val ∧ (i a).val < win0_9.index t a * S5000x256.size a + S5000x256.size a := by
  show i ∈ ((View.whole main_v0_2).slice (win0_9.rect t)).set ↔ _
  rw [View.set_slice_whole, Rect.mem_set_unit]
  exact Iff.rfl

/-- Row r of the v array is in the block of point r / 5000, which is written back. -/
theorem covered0_9 (i : S100000x256.Idx) :
    ∃ t : Fin cfg0.N, (cfg0.win 9).flush t = true ∧ i ∈ ((cfg0.win 9).blk t).view.set := by
  have hN : cfg0.N = 20 := N_0
  have hi0 : (i 0).val < 100000 := (i 0).isLt
  have hi1 : (i 1).val < 256 := (i 1).isLt
  have hq : (i 0).val / 5000 < cfg0.N := by rw [hN]; omega
  obtain ⟨e0, e1⟩ := index0_9 ⟨(i 0).val / 5000, hq⟩
  refine ⟨⟨(i 0).val / 5000, hq⟩, flush0_9 _, ?_⟩
  rw [mem_blk0_9]
  intro a
  match a with
  | ⟨0, _⟩ =>
    show win0_9.index ⟨(i 0).val / 5000, hq⟩ (0 : Fin 2) * 5000 ≤ (i 0).val ∧ (i 0).val < win0_9.index ⟨(i 0).val / 5000, hq⟩ (0 : Fin 2) * 5000 + 5000
    rw [e0]
    show (i 0).val / 5000 * 5000 ≤ (i 0).val ∧ (i 0).val < (i 0).val / 5000 * 5000 + 5000
    omega
  | ⟨1, _⟩ =>
    show win0_9.index ⟨(i 0).val / 5000, hq⟩ (1 : Fin 2) * 256 ≤ (i 1).val ∧ (i 1).val < win0_9.index ⟨(i 0).val / 5000, hq⟩ (1 : Fin 2) * 256 + 256
    rw [e1]
    omega

end P0

/-- The q array after the region. -/
theorem arr0_7 (c : Dev nD) (i : (⟨2, ![100000, 1]⟩ : Shape).Idx) :
    (dat0 V c).arrAt 7 cfg0.N i = Cert.Spec.proj (V c main_arg0) (V c main_arg2) (V c main_arg3) i := by
  exact congrFun ((dat0 V c).arrAt_eq_of_cover 7 (Cert.Spec.proj (V c main_arg0) (V c main_arg2) (V c main_arg3))
    (fun t _ => P0.flushed0_7 V c t) P0.covered0_7) i

/-- The k array after the region. -/
theorem arr0_8 (c : Dev nD) (i : (⟨2, ![100000, 1]⟩ : Shape).Idx) :
    (dat0 V c).arrAt 8 cfg0.N i = Cert.Spec.proj (V c main_arg0) (V c main_arg4) (V c main_arg5) i := by
  exact congrFun ((dat0 V c).arrAt_eq_of_cover 8 (Cert.Spec.proj (V c main_arg0) (V c main_arg4) (V c main_arg5))
    (fun t _ => P0.flushed0_8 V c t) P0.covered0_8) i

/-- The v array after the region. -/
theorem arr0_9 (c : Dev nD) (i : (⟨2, ![100000, 256]⟩ : Shape).Idx) :
    (dat0 V c).arrAt 9 cfg0.N i = Cert.Spec.projV (V c main_arg0) (V c main_arg6) (V c main_arg7) i := by
  exact congrFun ((dat0 V c).arrAt_eq_of_cover 9 (Cert.Spec.projV (V c main_arg0) (V c main_arg6) (V c main_arg7))
    (fun t _ => P0.flushed0_9 V c t) P0.covered0_9) i

end Cert.KernelIdeal.Hand

end
-- ==== Proof.Ref.Stages.lean ====
/- The stages of the reference program: each a plain function of the arrays it reads, written with the operation
   terms of the printed program — the two column projections and the value projection, the two rows of the edge
   table, the edges' attention logits, the leaky rectifier, the softmax's exponentials and weights, the nodes'
   attention weights, the embedding. The program's result buffers hold their composition over the arguments. -/
import proofs.«425445_j56573309223705_1_alg».proof.Proof.Gen.ReferenceIdeal
import Idealize.ShloMosaic.PureOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- A projection to one column: the product with the weight column, plus the bias broadcast to every row
    (the term of %3 from %arg0, %arg2, %arg3, and of %7 from %arg0, %arg4, %arg5). -/
def qkStage (x : (⟨S100000x256, .f32⟩ : BufTy).Contents (Elt F)) (w : (⟨S256x1, .f32⟩ : BufTy).Contents (Elt F)) (b : (⟨S1, .f32⟩ : BufTy).Contents (Elt F)) :
    (⟨S100000x1, .f32⟩ : BufTy).Contents (Elt F) :=
  addf (Host.dotGeneral dot_S100000x256_S256x1_S100000x1_1_0_0_1_n_n none x w)
    (broadcastInDim S100000x1 ![0, 1] bcast_S1x1_S100000x1_0_1 (broadcastInDim S1x1 ![1] bcast_S1_S1x1_1 b))

/-- The value projection: the product with the weight matrix, plus the bias broadcast to every row (the term of %11). -/
def vStage (x : (⟨S100000x256, .f32⟩ : BufTy).Contents (Elt F)) (w : (⟨S256x256, .f32⟩ : BufTy).Contents (Elt F)) (b : (⟨S256, .f32⟩ : BufTy).Contents (Elt F)) :
    (⟨S100000x256, .f32⟩ : BufTy).Contents (Elt F) :=
  addf (Host.dotGeneral dot_S100000x256_S256x256_S100000x256_1_0_0_1_n_n none x w)
    (broadcastInDim S100000x256 ![0, 1] bcast_S1x256_S100000x256_0_1 (broadcastInDim S1x256 ![1] bcast_S256_S1x256_1 b))

/-- Row 0 of the edge table as a vector (the term of %13). -/
def rowStage (e : (⟨S2x3200000, .i32⟩ : BufTy).Contents (Elt F)) : (⟨S3200000, .i32⟩ : BufTy).Contents (Elt F) :=
  shapeCast S3200000 (extractStridedSlice S1x3200000 ![0, 0] e slices_S2x3200000_S1x3200000_0_0) shapeCasts_S1x3200000_S3200000

/-- Row 1 of the edge table as a vector (the term of %15). -/
def colStage (e : (⟨S2x3200000, .i32⟩ : BufTy).Contents (Elt F)) : (⟨S3200000, .i32⟩ : BufTy).Contents (Elt F) :=
  shapeCast S3200000 (extractStridedSlice S1x3200000 ![1, 0] e slices_S2x3200000_S1x3200000_1_0) shapeCasts_S1x3200000_S3200000

/-- The attention logit of every edge (the term of %31 from %3, %7, %13, %15): each index wrapped when negative,
    the two columns gathered at the wrapped indices, their product, summed over the axis of size one. -/
def attStage (q k : (⟨S100000x1, .f32⟩ : BufTy).Contents (Elt F)) (row col : (⟨S3200000, .i32⟩ : BufTy).Contents (Elt F)) : (⟨S3200000, .f32⟩ : BufTy).Contents (Elt F) :=
  Host.reduceAdd
    (mulf
      (Host.gather gather_S100000x1_S3200000x1_S3200000x1_1_0_n_n_0_1_11 q
        (broadcastInDim S3200000x1 ![0] bcast_S3200000_S3200000x1_0
          (select (cmpi .slt row (broadcastInDim S3200000 ![] bcast_S_S3200000 (constantI S_ 32 0#32)))
            (addi row (broadcastInDim S3200000 ![] bcast_S_S3200000 (constantI S_ 32 100000#32))) row)))
      (Host.gather gather_S100000x1_S3200000x1_S3200000x1_1_0_n_n_0_1_11 k
        (broadcastInDim S3200000x1 ![0] bcast_S3200000_S3200000x1_0
          (select (cmpi .slt col (broadcastInDim S3200000 ![] bcast_S_S3200000 (constantI S_ 32 0#32)))
            (addi col (broadcastInDim S3200000 ![] bcast_S_S3200000 (constantI S_ 32 100000#32))) col))))
    (constant S_ .f32 0x00000000#32) reducesTo_S3200000x1_S3200000_d1 h_S_

/-- The leaky rectifier of slope 0.2 (the term of %32 from %31): where the logit is at least zero the logit,
    elsewhere the slope times the logit. -/
def lreluStage (att : (⟨S3200000, .f32⟩ : BufTy).Contents (Elt F)) : (⟨S3200000, .f32⟩ : BufTy).Contents (Elt F) :=
  select (cmpf .oge att (broadcastInDim S3200000 ![] bcast_S_S3200000 (constant S_ .f32 0x00000000#32))) att
    (mulf (broadcastInDim S3200000 ![] bcast_S_S3200000 (id (constant S_ .f32 0x3E4CCCCD#32))) att)

/-- The exponentials of the softmax (the term of %38 from %32): each entry less the maximum over all entries
    (the reduction started at minus infinity, then once more the maximum with minus infinity), exponentiated. -/
def expStage (lr : (⟨S3200000, .f32⟩ : BufTy).Contents (Elt F)) : (⟨S3200000, .f32⟩ : BufTy).Contents (Elt F) :=
  Host.exp (subf lr
    (broadcastInDim S3200000 ![0] bcast_S1_S3200000_0 (broadcastInDim S1 ![] bcast_S_S1
      (maximumf (constant S_ .f32 0xFF800000#32)
        (Host.reduce FloatOps.maximumf lr (constant S_ .f32 0xFF800000#32) reducesTo_S3200000_S_d0 h_S_)))))

/-- The softmax weights (the term of %42 from %38): each exponential over the sum of them all. -/
def smStage (ex : (⟨S3200000, .f32⟩ : BufTy).Contents (Elt F)) : (⟨S3200000, .f32⟩ : BufTy).Contents (Elt F) :=
  Host.divf ex
    (broadcastInDim S3200000 ![0] bcast_S1_S3200000_0 (broadcastInDim S1 ![] bcast_S_S1
      (Host.reduceAdd ex (constant S_ .f32 0x00000000#32) reducesTo_S3200000_S_d0 h_S_)))

/-- The attention weight of every node (the term of %45 from %31 and %13): the leaky rectifier, the softmax over
    all edges, and each edge's weight added into the zero vector at the edge's (unwrapped) row index. -/
def awStage (att : (⟨S3200000, .f32⟩ : BufTy).Contents (Elt F)) (row : (⟨S3200000, .i32⟩ : BufTy).Contents (Elt F)) : (⟨S100000, .f32⟩ : BufTy).Contents (Elt F) :=
  Host.scatterAdd scatter_S100000_S3200000x1_S3200000_n_0_0_1
    (broadcastInDim S100000 ![] bcast_S_S100000 (constant S_ .f32 0x00000000#32))
    (broadcastInDim S3200000x1 ![0] bcast_S3200000_S3200000x1_0 row)
    (smStage (expStage (lreluStage att)))

/-- The embedding (the term of %49 from %45 and %11): each node's weight broadcast along its row of values,
    the product, summed over the nodes. -/
def embStage (aw : (⟨S100000, .f32⟩ : BufTy).Contents (Elt F)) (v : (⟨S100000x256, .f32⟩ : BufTy).Contents (Elt F)) : (⟨S256, .f32⟩ : BufTy).Contents (Elt F) :=
  Host.reduceAdd
    (mulf (broadcastInDim S100000x256 ![0, 1] bcast_S100000x1_S100000x256_0_1
        (broadcastInDim S100000x1 ![0] bcast_S100000_S100000x1_0 aw)) v)
    (constant S_ .f32 0x00000000#32) reducesTo_S100000x256_S256_d0 h_S_

end Cert.ReferenceIdeal.Hand

end
-- ==== Proof.Ref.RefVal.lean ====
/-
  The reference's stages read at an index, over the extended reals: its two projections and its embedding are the
  specification's functions (a dot_general with one contracted axis is the plain sum; a reduction from zero is the
  plain sum), a row of the edge table is that row, and, where both indices of an edge are node numbers, the edge's
  logit is the product of the two gathered entries (an index that is a node number is neither wrapped nor clamped;
  the sum over the axis of size one is its one term).
-/
import proofs.«425445_j56573309223705_1_alg».proof.Proof.Spec
import proofs.«425445_j56573309223705_1_alg».proof.Proof.Ref.Stages
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

set_option maxRecDepth 16384

noncomputable section

namespace Cert.ReferenceIdeal.Hand

open Idealize.ShloMosaic Idealize.ShloMosaic.TcCoe Idealize.ShloMosaic.ValueIdx
open Cert.ReferenceIdeal Cert.ReferenceIdeal.Gen

/-! ## The one-column product -/

theorem lhs_dot_S100000x256_S256x1_S100000x1_1_0_0_1_n_n_0 (j : S100000x1.Idx)
    (k : dot_S100000x256_S256x1_S100000x1_1_0_0_1_n_n.contr.Idx) :
    (dot_S100000x256_S256x1_S100000x1_1_0_0_1_n_n.lhsIdx j k 0).val = (j 0).val := rfl

theorem lhs_dot_S100000x256_S256x1_S100000x1_1_0_0_1_n_n_1 (j : S100000x1.Idx)
    (k : dot_S100000x256_S256x1_S100000x1_1_0_0_1_n_n.contr.Idx) :
    (dot_S100000x256_S256x1_S100000x1_1_0_0_1_n_n.lhsIdx j k 1).val = (k ⟨0, by decide⟩).val := rfl

theorem rhs_dot_S100000x256_S256x1_S100000x1_1_0_0_1_n_n_0 (j : S100000x1.Idx)
    (k : dot_S100000x256_S256x1_S100000x1_1_0_0_1_n_n.contr.Idx) :
    (dot_S100000x256_S256x1_S100000x1_1_0_0_1_n_n.rhsIdx j k 0).val = (k ⟨0, by decide⟩).val := rfl

theorem rhs_dot_S100000x256_S256x1_S100000x1_1_0_0_1_n_n_1 (j : S100000x1.Idx)
    (k : dot_S100000x256_S256x1_S100000x1_1_0_0_1_n_n.contr.Idx) :
    (dot_S100000x256_S256x1_S100000x1_1_0_0_1_n_n.rhsIdx j k 1).val = (j 1).val := rfl

/-- The one-column product read at an index is the plain sum over the contracted axis. -/
theorem dot_qk_apply (x : (⟨S100000x256, .f32⟩ : BufTy).Contents (Elt Ideal)) (w : (⟨S256x1, .f32⟩ : BufTy).Contents (Elt Ideal))
    (p : Fin 100000) (q : Fin 1) :
    Host.dotGeneral (F := Ideal) (φ₁ := .f32) (φ₂ := .f32) dot_S100000x256_S256x1_S100000x1_1_0_0_1_n_n none x w (ix2 p q)
      = ∑ k : Fin 256, x (ix2 p k) * w (ix2 k (0 : Fin 1)) := by
  show FloatOps.dotGeneral (F := Ideal) (φ₁ := .f32) (φ₂ := .f32) dot_S100000x256_S256x1_S100000x1_1_0_0_1_n_n none .single x w (ix2 p q) = _
  rw [Ideal.dotGeneral_apply,
    ← Equiv.sum_comp (contrEquiv1 dot_S100000x256_S256x1_S100000x1_1_0_0_1_n_n 256 rfl rfl).symm]
  refine Finset.sum_congr rfl fun k _ => ?_
  have hk := contrEquiv1_symm_val dot_S100000x256_S256x1_S100000x1_1_0_0_1_n_n 256 rfl rfl k
  have hl : dot_S100000x256_S256x1_S100000x1_1_0_0_1_n_n.lhsIdx (ix2 p q)
      ((contrEquiv1 dot_S100000x256_S256x1_S100000x1_1_0_0_1_n_n 256 rfl rfl).symm k) = ix2 p k := by
    funext a
    refine Fin.ext ?_
    match a with
    | ⟨0, _⟩ => exact lhs_dot_S100000x256_S256x1_S100000x1_1_0_0_1_n_n_0 _ _
    | ⟨1, _⟩ => exact (lhs_dot_S100000x256_S256x1_S100000x1_1_0_0_1_n_n_1 _ _).trans hk
  have hr : dot_S100000x256_S256x1_S100000x1_1_0_0_1_n_n.rhsIdx (ix2 p q)
      ((contrEquiv1 dot_S100000x256_S256x1_S100000x1_1_0_0_1_n_n 256 rfl rfl).symm k) = ix2 k (0 : Fin 1) := by
    funext a
    refine Fin.ext ?_
    match a with
    | ⟨0, _⟩ => exact (rhs_dot_S100000x256_S256x1_S100000x1_1_0_0_1_n_n_0 _ _).trans hk
    | ⟨1, _⟩ =>
      refine (rhs_dot_S100000x256_S256x1_S100000x1_1_0_0_1_n_n_1 _ _).trans ?_
      show q.val = 0
      omega
  rw [hl, hr]

/-- The bias of the one-column projection, broadcast to every row, reads the bias's one entry. -/
theorem bias_qk_apply (b : (⟨S1, .f32⟩ : BufTy).Contents (Elt Ideal)) (p : Fin 100000) (q : Fin 1) :
    broadcastInDim S100000x1 ![0, 1] bcast_S1x1_S100000x1_0_1 (broadcastInDim S1x1 ![1] bcast_S1_S1x1_1 b) (ix2 p q)
      = b (ix1 (0 : Fin 1)) := by
  refine (broadcastInDim_apply _ _ _ (ix2 p q) (ix2 (0 : Fin 1) (0 : Fin 1)) fun a => ?_).trans ?_
  · match a with
    | ⟨0, _⟩ => rfl
    | ⟨1, _⟩ => rfl
  · refine broadcastInDim_apply _ _ b (ix2 (0 : Fin 1) (0 : Fin 1)) (ix1 (0 : Fin 1)) fun a => ?_
    match a with
    | ⟨0, _⟩ => rfl

/-- The one-column projection stage is the specification's. -/
theorem qkStage_eq (x : (⟨S100000x256, .f32⟩ : BufTy).Contents (Elt Ideal)) (w : (⟨S256x1, .f32⟩ : BufTy).Contents (Elt Ideal))
    (b : (⟨S1, .f32⟩ : BufTy).Contents (Elt Ideal)) : qkStage (F := Ideal) x w b = Cert.Spec.proj x w b := by
  funext i
  obtain ⟨p, q, rfl⟩ : ∃ (p : Fin 100000) (q : Fin 1), i = ix2 p q := ⟨i 0, i 1, eq_ix2 i⟩
  unfold qkStage
  rw [addf_apply, dot_qk_apply, bias_qk_apply]
  rfl

/-! ## The value product -/

theorem lhs_dot_S100000x256_S256x256_S100000x256_1_0_0_1_n_n_0 (j : S100000x256.Idx)
    (k : dot_S100000x256_S256x256_S100000x256_1_0_0_1_n_n.contr.Idx) :
    (dot_S100000x256_S256x256_S100000x256_1_0_0_1_n_n.lhsIdx j k 0).val = (j 0).val := rfl

theorem lhs_dot_S100000x256_S256x256_S100000x256_1_0_0_1_n_n_1 (j : S100000x256.Idx)
    (k : dot_S100000x256_S256x256_S100000x256_1_0_0_1_n_n.contr.Idx) :
    (dot_S100000x256_S256x256_S100000x256_1_0_0_1_n_n.lhsIdx j k 1).val = (k ⟨0, by decide⟩).val := rfl

theorem rhs_dot_S100000x256_S256x256_S100000x256_1_0_0_1_n_n_0 (j : S100000x256.Idx)
    (k : dot_S100000x256_S256x256_S100000x256_1_0_0_1_n_n.contr.Idx) :
    (dot_S100000x256_S256x256_S100000x256_1_0_0_1_n_n.rhsIdx j k 0).val = (k ⟨0, by decide⟩).val := rfl

theorem rhs_dot_S100000x256_S256x256_S100000x256_1_0_0_1_n_n_1 (j : S100000x256.Idx)
    (k : dot_S100000x256_S256x256_S100000x256_1_0_0_1_n_n.contr.Idx) :
    (dot_S100000x256_S256x256_S100000x256_1_0_0_1_n_n.rhsIdx j k 1).val = (j 1).val := rfl

/-- The value product read at an index is the plain sum over the contracted axis. -/
theorem dot_v_apply (x : (⟨S100000x256, .f32⟩ : BufTy).Contents (Elt Ideal)) (w : (⟨S256x256, .f32⟩ : BufTy).Contents (Elt Ideal))
    (p : Fin 100000) (q : Fin 256) :
    Host.dotGeneral (F := Ideal) (φ₁ := .f32) (φ₂ := .f32) dot_S100000x256_S256x256_S100000x256_1_0_0_1_n_n none x w (ix2 p q)
      = ∑ k : Fin 256, x (ix2 p k) * w (ix2 k q) := by
  show FloatOps.dotGeneral (F := Ideal) (φ₁ := .f32) (φ₂ := .f32) dot_S100000x256_S256x256_S100000x256_1_0_0_1_n_n none .single x w (ix2 p q) = _
  rw [Ideal.dotGeneral_apply,
    ← Equiv.sum_comp (contrEquiv1 dot_S100000x256_S256x256_S100000x256_1_0_0_1_n_n 256 rfl rfl).symm]
  refine Finset.sum_congr rfl fun k _ => ?_
  have hk := contrEquiv1_symm_val dot_S100000x256_S256x256_S100000x256_1_0_0_1_n_n 256 rfl rfl k
  have hl : dot_S100000x256_S256x256_S100000x256_1_0_0_1_n_n.lhsIdx (ix2 p q)
      ((contrEquiv1 dot_S100000x256_S256x256_S100000x256_1_0_0_1_n_n 256 rfl rfl).symm k) = ix2 p k := by
    funext a
    refine Fin.ext ?_
    match a with
    | ⟨0, _⟩ => exact lhs_dot_S100000x256_S256x256_S100000x256_1_0_0_1_n_n_0 _ _
    | ⟨1, _⟩ => exact (lhs_dot_S100000x256_S256x256_S100000x256_1_0_0_1_n_n_1 _ _).trans hk
  have hr : dot_S100000x256_S256x256_S100000x256_1_0_0_1_n_n.rhsIdx (ix2 p q)
      ((contrEquiv1 dot_S100000x256_S256x256_S100000x256_1_0_0_1_n_n 256 rfl rfl).symm k) = ix2 k q := by
    funext a
    refine Fin.ext ?_
    match a with
    | ⟨0, _⟩ => exact (rhs_dot_S100000x256_S256x256_S100000x256_1_0_0_1_n_n_0 _ _).trans hk
    | ⟨1, _⟩ => exact rhs_dot_S100000x256_S256x256_S100000x256_1_0_0_1_n_n_1 _ _
  rw [hl, hr]

/-- The bias of the value projection, broadcast to every row, reads the bias at the column. -/
theorem bias_v_apply (b : (⟨S256, .f32⟩ : BufTy).Contents (Elt Ideal)) (p : Fin 100000) (q : Fin 256) :
    broadcastInDim S100000x256 ![0, 1] bcast_S1x256_S100000x256_0_1 (broadcastInDim S1x256 ![1] bcast_S256_S1x256_1 b) (ix2 p q)
      = b (ix1 q) := by
  refine (broadcastInDim_apply _ _ _ (ix2 p q) (ix2 (0 : Fin 1) q) fun a => ?_).trans ?_
  · match a with
    | ⟨0, _⟩ => rfl
    | ⟨1, _⟩ => rfl
  · refine broadcastInDim_apply _ _ b (ix2 (0 : Fin 1) q) (ix1 q) fun a => ?_
    match a with
    | ⟨0, _⟩ => rfl

/-- The value projection stage is the specification's. -/
theorem vStage_eq (x : (⟨S100000x256, .f32⟩ : BufTy).Contents (Elt Ideal)) (w : (⟨S256x256, .f32⟩ : BufTy).Contents (Elt Ideal))
    (b : (⟨S256, .f32⟩ : BufTy).Contents (Elt Ideal)) : vStage (F := Ideal) x w b = Cert.Spec.projV x w b := by
  funext i
  obtain ⟨p, q, rfl⟩ : ∃ (p : Fin 100000) (q : Fin 256), i = ix2 p q := ⟨i 0, i 1, eq_ix2 i⟩
  unfold vStage
  rw [addf_apply, dot_v_apply, bias_v_apply]
  rfl

/-! ## The embedding -/

/-- A node's weight, broadcast along its row of values, reads the weight. -/
theorem aw_bcast_apply (aw : (⟨S100000, .f32⟩ : BufTy).Contents (Elt Ideal)) (n : Fin 100000) (c : Fin 256) :
    broadcastInDim S100000x256 ![0, 1] bcast_S100000x1_S100000x256_0_1
        (broadcastInDim S100000x1 ![0] bcast_S100000_S100000x1_0 aw) (ix2 n c) = aw (ix1 n) := by
  refine (broadcastInDim_apply _ _ _ (ix2 n c) (ix2 n (0 : Fin 1)) fun a => ?_).trans ?_
  · match a with
    | ⟨0, _⟩ => rfl
    | ⟨1, _⟩ => rfl
  · refine broadcastInDim_apply _ _ aw (ix2 n (0 : Fin 1)) (ix1 n) fun a => ?_
    match a with
    | ⟨0, _⟩ => rfl

theorem reduces_S100000x256_S256_d0 : S100000x256.Reduces [0] S256 := by decide

/-- The embedding stage is the specification's weighted sum of rows. -/
theorem embStage_eq (aw : (⟨S100000, .f32⟩ : BufTy).Contents (Elt Ideal)) (v : (⟨S100000x256, .f32⟩ : BufTy).Contents (Elt Ideal)) :
    embStage (F := Ideal) aw v = Cert.Spec.wsum aw v := by
  funext j
  obtain ⟨c, rfl⟩ : ∃ c : Fin 256, j = ix1 c := ⟨j 0, eq_ix1 j⟩
  unfold embStage Cert.Spec.wsum
  show Ideal.hostReduceAdd reducesTo_S100000x256_S256_d0 _ (Ideal.ofBits .f32 0x00000000#32) (ix1 c) = _
  rw [Ideal.hostReduceAdd_single reducesTo_S100000x256_S256_d0 reduces_S100000x256_S256_d0, Ideal.ofBits_zero_f32, zero_add]
  refine Finset.sum_congr rfl fun (n : Fin 100000) _ => ?_
  have hl : reduces_S100000x256_S256_d0.lift (ix1 c) n = ix2 n c := by
    funext a
    refine Fin.ext ?_
    match a with
    | ⟨0, _⟩ => rfl
    | ⟨1, _⟩ => rfl
  rw [hl, mulf_apply, aw_bcast_apply]

/-! ## The two rows of the edge table -/

/-- Row 0 of the edge table, entry by entry. -/
theorem rowStage_apply (E : (⟨S2x3200000, .i32⟩ : BufTy).Contents (Elt Ideal)) (e : Fin 3200000) :
    rowStage (F := Ideal) E (ix1 e) = E (ix2 (0 : Fin 2) e) := by
  unfold rowStage
  refine (shapeCast_1a_a_apply _ _ e).trans ?_
  exact slice2_axis0_apply 0 E _ (0 : Fin 1) e (0 : Fin 2) rfl

/-- Row 1 of the edge table, entry by entry. -/
theorem colStage_apply (E : (⟨S2x3200000, .i32⟩ : BufTy).Contents (Elt Ideal)) (e : Fin 3200000) :
    colStage (F := Ideal) E (ix1 e) = E (ix2 (1 : Fin 2) e) := by
  unfold colStage
  refine (shapeCast_1a_a_apply _ _ e).trans ?_
  exact slice2_axis0_apply 1 E _ (0 : Fin 1) e (1 : Fin 2) rfl

/-! ## The edges' logits -/

theorem reduces_S3200000x1_S3200000_d1 : S3200000x1.Reduces [1] S3200000 := by decide

/-- The start-indices position a result index reads: its own row, column 0. -/
theorem gather_S100000x1_S3200000x1_S3200000x1_1_0_n_n_0_1_11_siIdx (j : S3200000x1.Idx)
    (c : Fin gather_S100000x1_S3200000x1_S3200000x1_1_0_n_n_0_1_11.startIndexMap.length) :
    gather_S100000x1_S3200000x1_S3200000x1_1_0_n_n_0_1_11.siIdx j c = ix2 (j 0 : Fin 3200000) (0 : Fin 1) := by
  funext b
  refine Fin.ext ?_
  match b with
  | ⟨0, _⟩ => rfl
  | ⟨1, _⟩ =>
    show c.val = 0
    have h : c.val < 1 := c.isLt
    omega

/-- On the collapsed axis the operand index is the start index, read signed and clamped into the column. -/
theorem gather_S100000x1_S3200000x1_S3200000x1_1_0_n_n_0_1_11_opIdx_0 (idx : IVec S3200000x1 32) (j : S3200000x1.Idx) :
    (gather_S100000x1_S3200000x1_S3200000x1_1_0_n_n_0_1_11.operandIdx j idx 0).val
      = min (idx (ix2 (j 0 : Fin 3200000) (0 : Fin 1))).toInt.toNat 99999 := by
  have h : (gather_S100000x1_S3200000x1_S3200000x1_1_0_n_n_0_1_11.operandIdx j idx 0).val
      = min (idx (gather_S100000x1_S3200000x1_S3200000x1_1_0_n_n_0_1_11.siIdx j ⟨0, Nat.one_pos⟩)).toInt.toNat 99999 := rfl
  rw [h, gather_S100000x1_S3200000x1_S3200000x1_1_0_n_n_0_1_11_siIdx]
  rfl

/-- On the offset axis the operand index is the result's column. -/
theorem gather_S100000x1_S3200000x1_S3200000x1_1_0_n_n_0_1_11_opIdx_1 (idx : IVec S3200000x1 32) (j : S3200000x1.Idx) :
    (gather_S100000x1_S3200000x1_S3200000x1_1_0_n_n_0_1_11.operandIdx j idx 1).val = (j 1).val := by
  show 0 + 0 + (j 1).val = (j 1).val
  omega

/-- The gather of a column at a column of start indices, read at row `e` where the start index is a row number `r`
    of the column: the column at row `r` (a row number is its own signed reading and its own clamp). -/
theorem gather_node_apply (x : (⟨S100000x1, .f32⟩ : BufTy).Contents (Elt Ideal)) (idx : IVec S3200000x1 32) (e : Fin 3200000)
    (r : BitVec 32) (hidx : idx (ix2 e (0 : Fin 1)) = r) (hr : r.toNat < 100000) :
    Host.gather gather_S100000x1_S3200000x1_S3200000x1_1_0_n_n_0_1_11 x idx (ix2 e (0 : Fin 1))
      = x (ix2 (⟨r.toNat, hr⟩ : Fin 100000) (0 : Fin 1)) := by
  unfold Host.gather
  refine congrArg x (funext fun a => Fin.ext ?_)
  match a with
  | ⟨0, _⟩ =>
    refine (gather_S100000x1_S3200000x1_S3200000x1_1_0_n_n_0_1_11_opIdx_0 idx (ix2 e (0 : Fin 1))).trans ?_
    show min (idx (ix2 e (0 : Fin 1))).toInt.toNat 99999 = r.toNat
    rw [hidx, StableHlo.Predicate.toInt_eq_toNat_of_lt (by omega), Int.toNat_natCast]
    omega
  | ⟨1, _⟩ => exact gather_S100000x1_S3200000x1_S3200000x1_1_0_n_n_0_1_11_opIdx_1 idx (ix2 e (0 : Fin 1))

/-- An index that is a node number is not negative, so the wrap keeps it; as a column it reads the index. -/
theorem wrap_apply (row : (⟨S3200000, .i32⟩ : BufTy).Contents (Elt Ideal)) (e : Fin 3200000) (hr : (row (ix1 e)).toNat < 100000) :
    broadcastInDim S3200000x1 ![0] bcast_S3200000_S3200000x1_0
        (select (cmpi .slt row (broadcastInDim S3200000 ![] bcast_S_S3200000 (constantI S_ 32 0#32)))
          (addi row (broadcastInDim S3200000 ![] bcast_S_S3200000 (constantI S_ 32 100000#32))) row) (ix2 e (0 : Fin 1))
      = row (ix1 e) := by
  refine (broadcastInDim_apply _ _ _ (ix2 e (0 : Fin 1)) (ix1 e) fun a => ?_).trans ?_
  · match a with
    | ⟨0, _⟩ => rfl
  · rw [select_apply]
    have hc : cmpi .slt row (broadcastInDim S3200000 ![] bcast_S_S3200000 (constantI S_ 32 0#32)) (ix1 e) = 0#1 := by
      refine eq_zero_of_ne_one fun h => ?_
      have h' : IntOp.cmpi .slt (row (ix1 e)) 0#32 = 1#1 := h
      rw [StableHlo.Predicate.slt_iff_toNat (by omega) (by decide)] at h'
      have h0 : (0#32 : BitVec 32).toNat = 0 := rfl
      omega
    rw [hc, select_zero]

/-- The logit of edge `e` when both its indices are node numbers: q at the row index times k at the column index. -/
theorem attStage_apply (q k : (⟨S100000x1, .f32⟩ : BufTy).Contents (Elt Ideal)) (row col : (⟨S3200000, .i32⟩ : BufTy).Contents (Elt Ideal))
    (e : Fin 3200000) (hr : (row (ix1 e)).toNat < 100000) (hc : (col (ix1 e)).toNat < 100000) :
    attStage (F := Ideal) q k row col (ix1 e)
      = q (ix2 (⟨(row (ix1 e)).toNat, hr⟩ : Fin 100000) (0 : Fin 1)) * k (ix2 (⟨(col (ix1 e)).toNat, hc⟩ : Fin 100000) (0 : Fin 1)) := by
  unfold attStage
  show Ideal.hostReduceAdd reducesTo_S3200000x1_S3200000_d1 _ (Ideal.ofBits .f32 0x00000000#32) (ix1 e) = _
  rw [Ideal.hostReduceAdd_single reducesTo_S3200000x1_S3200000_d1 reduces_S3200000x1_S3200000_d1, Ideal.ofBits_zero_f32, zero_add]
  refine (Fin.sum_univ_one _).trans ?_
  have hl : reduces_S3200000x1_S3200000_d1.lift (ix1 e) (0 : Fin 1) = ix2 e (0 : Fin 1) := by
    funext a
    refine Fin.ext ?_
    match a with
    | ⟨0, _⟩ => rfl
    | ⟨1, _⟩ => rfl
  show mulf _ _ (reduces_S3200000x1_S3200000_d1.lift (ix1 e) (0 : Fin 1)) = _
  rw [hl, mulf_apply, gather_node_apply q _ e (row (ix1 e)) (wrap_apply row e hr) hr,
    gather_node_apply k _ e (col (ix1 e)) (wrap_apply col e hc) hc]

end Cert.ReferenceIdeal.Hand

end
-- ==== Proof.KI.ProjVal.lean ====
/-
  The three arrays the projection region leaves, as the reference's projection stages of the launch arguments:
  each is the specification's sum (the region's value, block by block) and so is the reference's stage.
-/
import proofs.«425445_j56573309223705_1_alg».proof.Proof.Spec
import proofs.«425445_j56573309223705_1_alg».proof.Proof.KI.Run
import proofs.«425445_j56573309223705_1_alg».proof.Proof.KI.Val0
import proofs.«425445_j56573309223705_1_alg».proof.Proof.Ref.Stages
import proofs.«425445_j56573309223705_1_alg».proof.Proof.Ref.RefVal

set_option maxRecDepth 16384

noncomputable section

namespace Cert.KernelIdeal.Hand

open Idealize.ShloMosaic Idealize.ShloMosaic.TcCoe Idealize.ShloMosaic.ValueIdx
open Idealize.SL.Sem
open Cert.KernelIdeal Cert.KernelIdeal.Gen
open Cert.ReferenceIdeal.Hand (qkStage vStage qkStage_eq vStage_eq)

variable (m : (ℓ : Loc nD τ sig) → Buf (Elt Ideal) ℓ) (ρ : Dev nD → PrngReg)

/-- The q array after the projection region is the reference's projection of x by Wq and bq. -/
theorem q_arr (c : Dev nD) :
    W1 m ρ c (Proc.devRef .tc main_v0_0)
      = qkStage (F := Ideal) (m ((c.tc : Thread nD τ).loc main_arg0)) (m ((c.tc : Thread nD τ).loc main_arg2)) (m ((c.tc : Thread nD τ).loc main_arg3)) := by
  rw [qkStage_eq]
  funext i
  exact ((congrFun (W1_arr m ρ c 7) i).trans (arr0_7 (VA m ρ) c i))

/-- The k array after the projection region is the reference's projection of x by Wk and bk. -/
theorem k_arr (c : Dev nD) :
    W1 m ρ c (Proc.devRef .tc main_v0_1)
      = qkStage (F := Ideal) (m ((c.tc : Thread nD τ).loc main_arg0)) (m ((c.tc : Thread nD τ).loc main_arg4)) (m ((c.tc : Thread nD τ).loc main_arg5)) := by
  rw [qkStage_eq]
  funext i
  exact ((congrFun (W1_arr m ρ c 8) i).trans (arr0_8 (VA m ρ) c i))

/-- The v array after the projection region is the reference's value projection of x by Wv and bv. -/
theorem v_arr (c : Dev nD) :
    W1 m ρ c (Proc.devRef .tc main_v0_2)
      = vStage (F := Ideal) (m ((c.tc : Thread nD τ).loc main_arg0)) (m ((c.tc : Thread nD τ).loc main_arg6)) (m ((c.tc : Thread nD τ).loc main_arg7)) := by
  rw [vStage_eq]
  funext i
  exact ((congrFun (W1_arr m ρ c 9) i).trans (arr0_9 (VA m ρ) c i))

end Cert.KernelIdeal.Hand

end
-- ==== Proof.KI.Bridge.lean ====
/-
  The node weights the kernel returns as the reference's stages of the same arguments, over the extended reals, for
  an edge list whose entries are all node numbers.
  The two projected columns the first region leaves are the reference's projections. Where an index is a node number
  the kernel's take neither wraps it, nor masks it, nor clamps it, so the two gathered vectors are q and k at the
  edges' indices and the logits agree edge by edge. From the logits to the node weights both programs apply the same
  operations (leaky rectifier, softmax over all edges, scatter-add at the row indices).
-/
import proofs.«425445_j56573309223705_1_alg».proof.Proof.Spec
import proofs.«425445_j56573309223705_1_alg».proof.Proof.KI.Run
import proofs.«425445_j56573309223705_1_alg».proof.Proof.KI.HostVal
import proofs.«425445_j56573309223705_1_alg».proof.Proof.KI.ProjVal
import proofs.«425445_j56573309223705_1_alg».proof.Proof.Ref.Stages
import proofs.«425445_j56573309223705_1_alg».proof.Proof.Ref.RefVal
import Idealize.ShloMosaic.Lib.Pipeline.Value
import Idealize.ShloMosaic.Lib.ValueIdx
import Idealize.ShloMosaic.Lib.ValueLayout
import Idealize.ShloMosaic.Lib.Affine
import Idealize.ShloMosaic.Lib.StableHlo.Run
import Idealize.ShloMosaic.Lib.StableHlo.Predicate
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen
open Cert.ReferenceIdeal.Hand (qkStage vStage rowStage colStage attStage awStage embStage)

namespace Aw

section AnyFloat
variable {F : FTy → Type} [FloatOps F]

/-! ## The take at an index that is a node number -/

/-- A fold by "and" from one over entries that are all one is one. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l fun n hn => h n (List.mem_cons_of_mem _ hn)

/-- The rank-1 index at a coordinate, in its two spellings. -/
theorem ofFin_eq_ix1 {n : ℕ} (p : Fin n) : Shape.Idx.ofFin p = ix1 p := by
  funext d; match d with | ⟨0, _⟩ => rfl

/-- Row p of a one-column array, in its two spellings. -/
theorem ixP_eq_ix2 {n : ℕ} (p : Fin n) : StableHlo.Predicate.ixP p = ix2 p (0 : Fin 1) := by
  funext d; match d with | ⟨0, _⟩ => rfl | ⟨1, _⟩ => rfl

/-- A one-column array read as a vector. -/
theorem vecK_apply (q : (⟨S100000x1, .f32⟩ : BufTy).Contents (Elt F)) (n : Fin 100000) : vecK q (ix1 n) = q (ix2 n (0 : Fin 1)) := by
  unfold vecK
  exact shapeCast_apply q _ _ _ (by rw [Shape.rowMajor_val_two, Shape.rowMajor_val_one]; show n.val * 1 + 0 = n.val; omega)

variable (idx : (⟨S3200000, .i32⟩ : BufTy).Contents (Elt F)) (h : ∀ e : Fin 3200000, (idx (ix1 e)).toNat < 100000)
include h

/-- An index that is a node number is not wrapped. -/
theorem wrapK_apply (e : Fin 3200000) : wrapK idx (ix1 e) = idx (ix1 e) := by
  have hlt := h e
  have h0 : IntOp.cmpi .slt (idx (ix1 e)) 0#32 = 0#1 :=
    eq_zero_of_ne_one fun h1 => by
      have := (StableHlo.Predicate.slt_iff_toNat (by omega) (by decide)).mp h1
      simp at this
  show Scalar.select (IntOp.cmpi .slt (idx (ix1 e)) 0#32) (IntOp.addi (idx (ix1 e)) 100000#32) (idx (ix1 e)) = _
  rw [h0, select_zero]

/-- The start index of edge e is its index. -/
theorem startK_apply (e : Fin 3200000) (b : Fin 1) : startK idx (ix2 e b) = idx (ix1 e) := by
  obtain rfl : b = 0 := Subsingleton.elim _ _
  unfold startK
  rw [← ixP_eq_ix2, StableHlo.Predicate.bcast_col1, ofFin_eq_ix1]
  exact wrapK_apply idx h e

/-- Every start index lies in the table. -/
theorem maskK_apply (e : Fin 3200000) : maskK (startK idx) (ix1 e) = 1#1 := by
  unfold maskK
  rw [Host.reduce_eq_foldl]
  refine foldl_andi_one _ _ fun i _ => ?_
  obtain ⟨a, b, rfl⟩ : ∃ a b, i = ix2 a b := ⟨i 0, i 1, eq_ix2 i⟩
  show IntOp.andi (IntOp.cmpi .sge (startK idx (ix2 a b)) 0#32) (IntOp.cmpi .sle (startK idx (ix2 a b)) 99999#32) = 1#1
  rw [startK_apply idx h a b]
  have hlt := h a
  exact IntOp.andi_eq_one.mpr
    ⟨(StableHlo.Predicate.sge_iff_toNat (by omega) (by decide)).mpr (Nat.zero_le _),
      (StableHlo.Predicate.sle_iff_toNat (by omega) (by decide)).mpr (by show _ ≤ 99999; omega)⟩

/-- The take at edge e is the table at the edge's index. -/
theorem takeK_apply (x : (⟨S100000, .f32⟩ : BufTy).Contents (Elt F)) (e : Fin 3200000) :
    takeK x idx (ix1 e) = x (ix1 ⟨(idx (ix1 e)).toNat, h e⟩) := by
  have hlt := h e
  have hg : Host.gather gather_S100000_S3200000x1_S3200000_n_0_n_n_0_1_1 x (startK idx) (ix1 e)
      = x (ix1 ⟨(idx (ix1 e)).toNat, h e⟩) := by
    refine (congrArg (Host.gather gather_S100000_S3200000x1_S3200000_n_0_n_n_0_1_1 x (startK idx)) (ofFin_eq_ix1 e).symm).trans ?_
    rw [StableHlo.Predicate.gather_take gather_S100000_S3200000x1_S3200000_n_0_n_n_0_1_1 rfl rfl rfl rfl x (startK idx) e (by decide),
      ofFin_eq_ix1]
    refine congrArg x (congrArg ix1 (Fin.ext ?_))
    show min (startK idx (StableHlo.Predicate.ixP e)).toInt.toNat (100000 - 1) = (idx (ix1 e)).toNat
    rw [ixP_eq_ix2, startK_apply idx h e 0, StableHlo.Predicate.toInt_eq_toNat_of_lt (by omega), Int.toNat_natCast]
    omega
  unfold takeK
  rw [select_apply, maskK_apply idx h e, select_one]
  exact hg

omit h

/-! ## The kernel's stretches and the reference's stages -/

/-- The kernel's row vector is the reference's. -/
theorem rowK_eq (E : (⟨S2x3200000, .i32⟩ : BufTy).Contents (Elt F)) : rowK E = rowStage E := rfl
/-- The kernel's column vector is the reference's. -/
theorem colK_eq (E : (⟨S2x3200000, .i32⟩ : BufTy).Contents (Elt F)) : colK E = colStage E := rfl

/-- From the logits to the node weights the kernel applies the reference's operations. -/
theorem awK_eq (att : (⟨S3200000, .f32⟩ : BufTy).Contents (Elt F)) (row : (⟨S3200000, .i32⟩ : BufTy).Contents (Elt F)) :
    awK (lreluK att (constant S_ .f32 0x3E4CCCCD#32)) row = awStage att row := by
  unfold awK smK expK lreluK awStage Cert.ReferenceIdeal.Hand.smStage Cert.ReferenceIdeal.Hand.expStage
    Cert.ReferenceIdeal.Hand.lreluStage
  rfl

/-! ## The node weights at the return, through the stretches -/

variable (m : (ℓ : Loc nD τ sig) → Buf (Elt F) ℓ) (ρ : Dev nD → PrngReg)

theorem W1_arg1 (c : Dev nD) : W1 m ρ c (Proc.devRef .tc main_arg1) = (m ((c.tc : Thread nD τ).loc main_arg1)) :=
  W1_of_ne m ρ c main_arg1 (by decide)

theorem W2_v2 (c : Dev nD) : W2 m ρ c (Proc.devRef .tc main_v2) = rowK (m ((c.tc : Thread nD τ).loc main_arg1)) :=
  (h1_v2 (W1 m ρ c)).trans (congrArg rowK (W1_arg1 m ρ c))
theorem W2_v4 (c : Dev nD) : W2 m ρ c (Proc.devRef .tc main_v4) = colK (m ((c.tc : Thread nD τ).loc main_arg1)) :=
  (h1_v4 (W1 m ρ c)).trans (congrArg colK (W1_arg1 m ρ c))
theorem W2_v5 (c : Dev nD) : W2 m ρ c (Proc.devRef .tc main_v5) = vecK (W1 m ρ c (Proc.devRef .tc main_v0_0)) :=
  h1_v5 (W1 m ρ c)

theorem W3_v6 (c : Dev nD) : W3 m ρ c (Proc.devRef .tc main_v6) = takeK (vecK (W1 m ρ c (Proc.devRef .tc main_v0_0))) (rowK (m ((c.tc : Thread nD τ).loc main_arg1))) :=
  (h1_1_v6 (W2 m ρ c)).trans (by rw [W2_v5, W2_v2])

theorem W4_v4 (c : Dev nD) : W4 m ρ c (Proc.devRef .tc main_v4) = colK (m ((c.tc : Thread nD τ).loc main_arg1)) :=
  calc W4 m ρ c (Proc.devRef .tc main_v4)
    _ = W3 m ρ c (Proc.devRef .tc main_v4) := StableHlo.after_of_writes_sub hostOps1_2 _ hostOps1_2_writes (by decide)
    _ = W2 m ρ c (Proc.devRef .tc main_v4) := StableHlo.after_of_writes_sub hostOps1_1 _ hostOps1_1_writes (by decide)
    _ = colK _ := W2_v4 m ρ c
theorem W4_v7 (c : Dev nD) : W4 m ρ c (Proc.devRef .tc main_v7) = vecK (W1 m ρ c (Proc.devRef .tc main_v0_1)) :=
  calc W4 m ρ c (Proc.devRef .tc main_v7)
    _ = vecK (W3 m ρ c (Proc.devRef .tc main_v0_1)) := h1_2_v7 (W3 m ρ c)
    _ = vecK (W2 m ρ c (Proc.devRef .tc main_v0_1)) := congrArg vecK (StableHlo.after_of_writes_sub hostOps1_1 _ hostOps1_1_writes (by decide))
    _ = vecK (W1 m ρ c (Proc.devRef .tc main_v0_1)) := congrArg vecK (StableHlo.after_of_writes_sub hostOps1 _ hostOps1_writes (by decide))

theorem W5_v8 (c : Dev nD) : W5 m ρ c (Proc.devRef .tc main_v8) = takeK (vecK (W1 m ρ c (Proc.devRef .tc main_v0_1))) (colK (m ((c.tc : Thread nD τ).loc main_arg1))) :=
  (h1_3_v8 (W4 m ρ c)).trans (by rw [W4_v7, W4_v4])
theorem W5_v6 (c : Dev nD) : W5 m ρ c (Proc.devRef .tc main_v6) = takeK (vecK (W1 m ρ c (Proc.devRef .tc main_v0_0))) (rowK (m ((c.tc : Thread nD τ).loc main_arg1))) :=
  calc W5 m ρ c (Proc.devRef .tc main_v6)
    _ = W4 m ρ c (Proc.devRef .tc main_v6) := StableHlo.after_of_writes_sub hostOps1_3 _ hostOps1_3_writes (by decide)
    _ = W3 m ρ c (Proc.devRef .tc main_v6) := StableHlo.after_of_writes_sub hostOps1_2 _ hostOps1_2_writes (by decide)
    _ = _ := W3_v6 m ρ c

theorem W7_v2 (c : Dev nD) : W7 m ρ c (Proc.devRef .tc main_v2) = rowK (m ((c.tc : Thread nD τ).loc main_arg1)) :=
  calc W7 m ρ c (Proc.devRef .tc main_v2)
    _ = W6 m ρ c (Proc.devRef .tc main_v2) := StableHlo.after_of_writes_sub hostOps1_5 _ hostOps1_5_writes (by decide)
    _ = W5 m ρ c (Proc.devRef .tc main_v2) := StableHlo.after_of_writes_sub hostOps1_4 _ hostOps1_4_writes (by decide)
    _ = W4 m ρ c (Proc.devRef .tc main_v2) := StableHlo.after_of_writes_sub hostOps1_3 _ hostOps1_3_writes (by decide)
    _ = W3 m ρ c (Proc.devRef .tc main_v2) := StableHlo.after_of_writes_sub hostOps1_2 _ hostOps1_2_writes (by decide)
    _ = W2 m ρ c (Proc.devRef .tc main_v2) := StableHlo.after_of_writes_sub hostOps1_1 _ hostOps1_1_writes (by decide)
    _ = rowK _ := W2_v2 m ρ c

theorem W6_v9 (c : Dev nD) : W6 m ρ c (Proc.devRef .tc main_v9)
    = mulf (takeK (vecK (W1 m ρ c (Proc.devRef .tc main_v0_0))) (rowK (m ((c.tc : Thread nD τ).loc main_arg1)))) (takeK (vecK (W1 m ρ c (Proc.devRef .tc main_v0_1))) (colK (m ((c.tc : Thread nD τ).loc main_arg1)))) :=
  (h1_4_v9 (W5 m ρ c)).trans (by rw [W5_v6, W5_v8])
theorem W6_cst (c : Dev nD) : W6 m ρ c (Proc.devRef .tc main_cst) = constant S_ .f32 0x3E4CCCCD#32 :=
  h1_4_cst (W5 m ρ c)

theorem W7_v10 (c : Dev nD) : W7 m ρ c (Proc.devRef .tc main_v10)
    = lreluK (mulf (takeK (vecK (W1 m ρ c (Proc.devRef .tc main_v0_0))) (rowK (m ((c.tc : Thread nD τ).loc main_arg1))))
        (takeK (vecK (W1 m ρ c (Proc.devRef .tc main_v0_1))) (colK (m ((c.tc : Thread nD τ).loc main_arg1))))) (constant S_ .f32 0x3E4CCCCD#32) :=
  (h1_5_v10 (W6 m ρ c)).trans (by rw [W6_v9, W6_cst])

/-- The node weights at the return: the stretches' functions composed over the two projected columns and the edge table. -/
theorem W10_v23 (c : Dev nD) : W10 m ρ c (Proc.devRef .tc main_v23)
    = awK (lreluK (mulf (takeK (vecK (W1 m ρ c (Proc.devRef .tc main_v0_0))) (rowK (m ((c.tc : Thread nD τ).loc main_arg1))))
        (takeK (vecK (W1 m ρ c (Proc.devRef .tc main_v0_1))) (colK (m ((c.tc : Thread nD τ).loc main_arg1))))) (constant S_ .f32 0x3E4CCCCD#32)) (rowK (m ((c.tc : Thread nD τ).loc main_arg1))) :=
  calc W10 m ρ c (Proc.devRef .tc main_v23)
    _ = W9 m ρ c (Proc.devRef .tc main_v23) := StableHlo.after_of_writes_sub hostOps2 _ hostOps2_writes (by decide)
    _ = W8 m ρ c (Proc.devRef .tc main_v23) := W9_of_ne m ρ c main_v23 (by decide)
    _ = awK (W7 m ρ c (Proc.devRef .tc main_v10)) (W7 m ρ c (Proc.devRef .tc main_v2)) := h1_6_v23 (W7 m ρ c)
    _ = _ := by rw [W7_v10, W7_v2]

end AnyFloat

/-! ## The logits, over the extended reals -/

/-- Where every entry of the edge table is a node number, the product of the two takes is the reference's logit. -/
theorem logits_eq (q k : (⟨S100000x1, .f32⟩ : BufTy).Contents (Elt Ideal)) (E : (⟨S2x3200000, .i32⟩ : BufTy).Contents (Elt Ideal))
    (hE : ∀ i, (E i).toNat < 100000) :
    mulf (takeK (vecK q) (rowStage (F := Ideal) E)) (takeK (vecK k) (colStage (F := Ideal) E))
      = attStage (F := Ideal) q k (rowStage E) (colStage E) := by
  have hr : ∀ e : Fin 3200000, (rowStage (F := Ideal) E (ix1 e)).toNat < 100000 := fun e => by
    rw [Cert.ReferenceIdeal.Hand.rowStage_apply]; exact hE _
  have hc : ∀ e : Fin 3200000, (colStage (F := Ideal) E (ix1 e)).toNat < 100000 := fun e => by
    rw [Cert.ReferenceIdeal.Hand.colStage_apply]; exact hE _
  funext j
  obtain ⟨e, rfl⟩ : ∃ e, j = ix1 e := ⟨j 0, eq_ix1 j⟩
  rw [Cert.ReferenceIdeal.Hand.attStage_apply q k _ _ e (hr e) (hc e)]
  refine (mulf_apply _ _ _).trans ?_
  rw [takeK_apply _ hr (vecK q) e, takeK_apply _ hc (vecK k) e, vecK_apply, vecK_apply]

end Aw

variable (m : (ℓ : Loc nD τ sig) → Buf (Elt Ideal) ℓ) (ρ : Dev nD → PrngReg)

/-- The node weights the kernel returns are the reference's stages of the kernel's arguments. -/
theorem result_aw (c : Dev nD) (hE : ∀ i, (m ((c.tc : Thread nD τ).loc main_arg1) i).toNat < 100000) :
    W10 m ρ c (Proc.devRef .tc main_v23)
      = awStage (F := Ideal)
          (attStage (qkStage (m ((c.tc : Thread nD τ).loc main_arg0)) (m ((c.tc : Thread nD τ).loc main_arg2)) (m ((c.tc : Thread nD τ).loc main_arg3)))
            (qkStage (m ((c.tc : Thread nD τ).loc main_arg0)) (m ((c.tc : Thread nD τ).loc main_arg4)) (m ((c.tc : Thread nD τ).loc main_arg5)))
            (rowStage (m ((c.tc : Thread nD τ).loc main_arg1))) (colStage (m ((c.tc : Thread nD τ).loc main_arg1))))
          (rowStage (m ((c.tc : Thread nD τ).loc main_arg1))) := by
  rw [Aw.W10_v23, q_arr, k_arr, Aw.rowK_eq, Aw.colK_eq, Aw.logits_eq _ _ _ hE, Aw.awK_eq]

end Cert.KernelIdeal.Hand

end
-- ==== Proof.KI.Val1.lean ====
/-
  What the weighted-sum region leaves in its output array, over the extended reals: the accumulator after the last
  point is the sum over the fifty blocks of the block's column sums of weight × row, and a sum over blocks of sums
  over a block's rows is the sum over all 100000 rows (addition of extended reals is commutative and associative).
-/
import proofs.«425445_j56573309223705_1_alg».proof.Proof.Spec
import proofs.«425445_j56573309223705_1_alg».proof.Proof.KI.Reg1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

-- the TensorCore's buffer contents when the region is entered, at the exact instance
variable (V : (c : Dev nD) → (b : Ref sig .tc) → Buf (Elt Ideal) ((c : Thread nD τ).loc b))

/-- The zero offsets of a whole-buffer rectangle, as the constant function. -/
theorem hz2 : (![0, 0] : Fin 2 → Nat) = fun _ => 0 := funext fun a => by fin_cases a <;> rfl

/-- The zero accumulator reads 0 everywhere. -/
theorem pay1_apply (i : S1x256.Idx) : (k1_pay1 (F := Ideal)) i = 0 := by
  unfold k1_pay1
  rw [shapeCast_self]
  exact Ideal.ofBits_zero_f32

/-- A column broadcast along the columns reads, at (r, j), the column at r. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum over the rows of a block, read at column j. -/
theorem colsum_apply (src : FVec Ideal S2000x256 .f32) (h : S2000x256.Reduces [0] S256) (hφ : FKind.Formats .f32)
    (hacc : (0x00000000#32 : BitVec 32) = 0x00000000#32) (j : Fin 256) :
    multiReduction (F := Ideal) .add [0] S256 src 0x00000000#32 h hφ hacc (ix1 j) = ∑ r : Fin 2000, src (ix2 r j) := by
  refine (Ideal.multiReduction_add_single src 0x00000000#32 h hφ hacc (ix1 j)).trans ?_
  refine Finset.sum_congr rfl fun r _ => congrArg src ?_
  funext a
  match a with
  | ⟨0, _⟩ => rfl
  | ⟨1, _⟩ => rfl

/-- One step of the accumulation at column j: the accumulator plus the block's sum of weight × row. -/
theorem pay2_apply (w : Vec Ideal S2000x1 .f32) (v : Vec Ideal S2000x256 .f32) (a : Vec Ideal S1x256 .f32) (j : Fin 256) :
    k1_pay2 w v a (ix2 (0 : Fin 1) j) = a (ix2 (0 : Fin 1) j) + ∑ r : Fin 2000, w (ix2 r (0 : Fin 1)) * v (ix2 r j) := by
  unfold k1_pay2
  simp only [shapeCast_self]
  rw [addf_apply]
  congr 1
  refine (shapeCast_a_1a_apply _ _ (0 : Fin 1) j).trans ?_
  refine (colsum_apply _ _ _ _ j).trans ?_
  refine Finset.sum_congr rfl fun r _ => ?_
  rw [mulf_apply]
  congr 1
  exact broadcastTo_a1_ab_apply w _ r j

/-- A point's number is below 50. -/
theorem pt_lt (t : Fin cfg1.N) : t.val < 50 := lt_of_lt_of_eq t.isLt N_1

/-- Row r of block t, as a row of the whole arrays. -/
def row1 (t : Fin cfg1.N) (r : Fin 2000) : Fin 100000 :=
  ⟨2000 * t.val + r.val, by have h := pt_lt t; have := r.isLt; omega⟩

/-- The summand of row n at column j: the row's weight times the row's entry. -/
def wterm (a : S100000x1.Idx → EReal) (v : S100000x256.Idx → EReal) (j : Fin 256) (n : Fin 100000) : EReal :=
  a (ix2 n (0 : Fin 1)) * v (ix2 n j)

/-- The summand over the region's two operands. -/
abbrev term1 (c : Dev nD) (j : Fin 256) (n : Fin 100000) : EReal := wterm (V c main_v24) (V c main_v0_2) j n

/-- The block index of the weight window at point t is (t, 0). -/
theorem index1_0 : ∀ t : Fin cfg1.N, win1_0.index t 0 = t.val ∧ win1_0.index t 1 = 0 :=
  (by decide +kernel : ∀ t : Fin grid1.N, win1_0.index t 0 = t.val ∧ win1_0.index t 1 = 0)

/-- The block index of the row window at point t is (t, 0). -/
theorem index1_1 : ∀ t : Fin cfg1.N, win1_1.index t 0 = t.val ∧ win1_1.index t 1 = 0 :=
  (by decide +kernel : ∀ t : Fin grid1.N, win1_1.index t 0 = t.val ∧ win1_1.index t 1 = 0)

/-- The weight window's block at point t is rows 2000t … 2000t + 1999 of the weight column. -/
theorem iblk1_0_apply (c : Dev nD) (t : Fin cfg1.N) (r : Fin 2000) :
    (iblk1 V c 0 t : Vec Ideal S2000x1 .f32) (ix2 r (0 : Fin 1))
      = (V c main_v24 : S100000x1.Idx → EReal) (ix2 (row1 t r) (0 : Fin 1)) := by
  have hi := index1_0 t
  unfold iblk1
  rw [View.read_apply]
  show V c main_v24 _ = V c main_v24 _
  congr 1
  funext a
  apply Fin.ext
  match a with
  | ⟨0, _⟩ => show win1_0.index t 0 * 2000 + 1 * r.val = 2000 * t.val + r.val; rw [hi.1]; omega
  | ⟨1, _⟩ => show win1_0.index t 1 * 1 + 1 * 0 = 0; rw [hi.2]

/-- The row window's block at point t is rows 2000t … 2000t + 1999 of the rows array. -/
theorem iblk1_1_apply (c : Dev nD) (t : Fin cfg1.N) (r : Fin 2000) (j : Fin 256) :
    (iblk1 V c 1 t : Vec Ideal S2000x256 .f32) (ix2 r j)
      = (V c main_v0_2 : S100000x256.Idx → EReal) (ix2 (row1 t r) j) := by
  have hi := index1_1 t
  unfold iblk1
  rw [View.read_apply]
  show V c main_v0_2 _ = V c main_v0_2 _
  congr 1
  funext a
  apply Fin.ext
  match a with
  | ⟨0, _⟩ => show win1_1.index t 0 * 2000 + 1 * r.val = 2000 * t.val + r.val; rw [hi.1]; omega
  | ⟨1, _⟩ => show win1_1.index t 1 * 256 + 1 * j.val = j.val; rw [hi.2]; omega

/-- One step at point t adds the block's sum of weight × row, the rows read where the block lies. -/
theorem step1_apply (c : Dev nD) (t : Fin cfg1.N) (a : Vec Ideal S1x256 .f32) (j : Fin 256) :
    step1 (iblk1 V c 0 t) (iblk1 V c 1 t) a (ix2 (0 : Fin 1) j)
      = a (ix2 (0 : Fin 1) j) + ∑ r : Fin 2000, term1 V c j (row1 t r) := by
  unfold step1
  rw [View.ld_unit_zero hz2, View.ld_unit_zero hz2, pay2_apply]
  congr 1
  refine Finset.sum_congr rfl fun r _ => ?_
  rw [iblk1_0_apply, iblk1_1_apply]
  rfl

/-- The accumulator after point n at column j: the sum over the points up to n of the blocks' sums. -/
theorem acc1_apply (c : Dev nD) (j : Fin 256) : ∀ n : ℕ,
    acc1 V c n (ix2 (0 : Fin 1) j) = ∑ t ∈ Finset.range (n + 1), ∑ r : Fin 2000, term1 V c j (row1 (pt1 t) r)
  | 0 => by
    show step1 (iblk1 V c 0 (pt1 0)) (iblk1 V c 1 (pt1 0)) (k1_pay1 (F := Ideal)) (ix2 (0 : Fin 1) j) = _
    rw [step1_apply, pay1_apply, zero_add, Finset.sum_range_one]
  | n + 1 => by
    show step1 (iblk1 V c 0 (pt1 (n + 1))) (iblk1 V c 1 (pt1 (n + 1))) (acc1 V c n) (ix2 (0 : Fin 1) j) = _
    rw [step1_apply, acc1_apply c j n, Finset.sum_range_succ _ (n + 1)]

/-- (block, row inside the block) ↔ row of the whole arrays: row 2000·t + r. -/
def rowEquiv : Fin 50 × Fin 2000 ≃ Fin 100000 where
  toFun p := ⟨2000 * p.1.val + p.2.val, by have := p.1.isLt; have := p.2.isLt; omega⟩
  invFun n := (⟨n.val / 2000, by have := n.isLt; omega⟩, ⟨n.val % 2000, by omega⟩)
  left_inv p := by
    have h1 := p.1.isLt
    have h2 := p.2.isLt
    refine Prod.ext (Fin.ext ?_) (Fin.ext ?_)
    · show (2000 * p.1.val + p.2.val) / 2000 = p.1.val
      omega
    · show (2000 * p.1.val + p.2.val) % 2000 = p.2.val
      omega
  right_inv n := by
    apply Fin.ext
    show 2000 * (n.val / 2000) + n.val % 2000 = n.val
    omega

/-- The sum over the fifty blocks of the sums over a block's rows is the sum over all the rows. -/
theorem sum_blocks (f : Fin 100000 → EReal) :
    ∑ t ∈ Finset.range 50, ∑ r : Fin 2000, f (row1 (pt1 t) r) = ∑ n : Fin 100000, f n := by
  rw [← Equiv.sum_comp rowEquiv f, Fintype.sum_prod_type, Finset.sum_range]
  refine Finset.sum_congr rfl fun i _ => Finset.sum_congr rfl fun r _ => congrArg f (Fin.ext ?_)
  show 2000 * (i.val % cfg1.N) + r.val = 2000 * i.val + r.val
  rw [show cfg1.N = 50 from N_1, Nat.mod_eq_of_lt i.isLt]

/-- The block index of the output window is (0, 0) at every point. -/
theorem index1_2 : ∀ t : Fin cfg1.N, win1_2.index t 0 = 0 ∧ win1_2.index t 1 = 0 :=
  (by decide +kernel : ∀ t : Fin grid1.N, win1_2.index t 0 = 0 ∧ win1_2.index t 1 = 0)

/-- The last point. -/
abbrev last1 : Fin cfg1.N := ⟨49, by rw [show cfg1.N = 50 from N_1]; decide⟩

/-- The accumulator after the last point, as contents of the output array (its one block is the array). -/
abbrev result1 (c : Dev nD) : Buf (Elt Ideal) ((c : Thread nD τ).loc main_v25) := acc1 V c 49

/-- The one write-back, at the last point, writes the accumulator: the output's block sits at offset (0, 0). -/
theorem flushed1_eq (c : Dev nD) (t : Fin cfg1.N) (hf : (cfg1.win 2).flush t = true) :
    (dat1 V c).flushed 2 t = ((cfg1.win 2).blk t).view.read (Elt Ideal) (result1 V c) := by
  have h49 : t.val = 49 := by have := (flush1_2 t).mp hf; have := pt_lt t; omega
  have hacc : acc1 V c t.val = acc1 V c 49 := by rw [h49]
  have hi := index1_2 t
  funext y
  rw [View.read_apply]
  show (dat1 V c).after 2 t _ = acc1 V c 49 _
  rw [after1_2, View.canon_unit_zero hz2, hacc]
  congr 1
  funext a
  apply Fin.ext
  match a with
  | ⟨0, _⟩ => show (y 0).val = win1_2.index t 0 * 1 + 1 * (y 0).val; rw [hi.1]; omega
  | ⟨1, _⟩ => show (y 1).val = win1_2.index t 1 * 256 + 1 * (y 1).val; rw [hi.2]; omega

/-- Every entry of the output array lies in the output window's block, at any point. -/
theorem mem_blk1_2 (t : Fin cfg1.N) (i : S1x256.Idx) : i ∈ ((cfg1.win 2).blk t).view.set := by
  have hi := index1_2 t
  have h0 := idx2_lt0 i
  have h1 := idx2_lt1 i
  show i ∈ ((View.whole main_v25).slice (win1_2.rect t)).set
  rw [View.set_slice_whole, Rect.mem_set_unit]
  intro a
  match a with
  | ⟨0, _⟩ =>
    show win1_2.index t 0 * 1 ≤ (i 0).val ∧ (i 0).val < win1_2.index t 0 * 1 + 1
    rw [hi.1]; omega
  | ⟨1, _⟩ =>
    show win1_2.index t 1 * 256 ≤ (i 1).val ∧ (i 1).val < win1_2.index t 1 * 256 + 256
    rw [hi.2]; omega

/-- So the output array ends holding the accumulator after the last point. -/
theorem final1 (c : Dev nD) : (dat1 V c).arrAt 2 cfg1.N = result1 V c :=
  (dat1 V c).arrAt_eq_of_cover 2 (result1 V c) (flushed1_eq V c) fun i =>
    ⟨last1, (flush1_2 last1).mpr rfl, mem_blk1_2 last1 i⟩

/-- The output array after the region: entry (0, j) is Σ_n a[n]·v[n,j], with a the region's first operand read as a
    column and v its second. -/
theorem arr1_2 (c : Dev nD) (j : Fin 256) :
    (dat1 V c).arrAt 2 cfg1.N (ix2 (0 : Fin 1) j)
      = Cert.Spec.wsum (fun n => V c main_v24 (ix2 (n 0) (0 : Fin 1))) (V c main_v0_2) (ix1 j) := by
  rw [final1]
  refine ((acc1_apply V c j 49).trans (sum_blocks (term1 V c j))).trans ?_
  unfold Cert.Spec.wsum
  exact Finset.sum_congr rfl fun n _ => rfl

end Cert.KernelIdeal.Hand

end
-- ==== Proof.KI.EmbVal.lean ====
/-
  The kernel's embedding from its node weights, over the extended reals: the returned vector is the weighted-sum
  region's output row, entry j of which is Σ_n a[n]·v[n,j] with a the node weights read as a column (a reshape of the
  weights vector) and v the array the projection region left, which no later stretch writes and which is the reference's
  value projection; the reference's embedding stage is the same sum.
-/
import proofs.«425445_j56573309223705_1_alg».proof.Proof.Spec
import proofs.«425445_j56573309223705_1_alg».proof.Proof.KI.Run
import proofs.«425445_j56573309223705_1_alg».proof.Proof.KI.Val1
import proofs.«425445_j56573309223705_1_alg».proof.Proof.KI.ProjVal
import proofs.«425445_j56573309223705_1_alg».proof.Proof.KI.HostVal
import proofs.«425445_j56573309223705_1_alg».proof.Proof.Ref.Stages
import proofs.«425445_j56573309223705_1_alg».proof.Proof.Ref.RefVal
import Idealize.ShloMosaic.Lib.Pipeline.Value
import Idealize.ShloMosaic.Lib.ValueIdx
import Idealize.ShloMosaic.Lib.ValueLayout

set_option maxRecDepth 16384

noncomputable section

namespace Cert.KernelIdeal.Hand

open Idealize.ShloMosaic Idealize.ShloMosaic.TcCoe Idealize.ShloMosaic.ValueIdx
open Idealize.SL.Sem
open Cert.KernelIdeal Cert.KernelIdeal.Gen
open Cert.ReferenceIdeal.Hand (vStage embStage embStage_eq)

/-- A vector reshaped to a column reads, at row n, the vector at n. -/
theorem col_of_vec_apply {α : Type} {a : ℕ} (x : (⟨1, ![a]⟩ : Shape).Idx → α) (h : (⟨1, ![a]⟩ : Shape).ShapeCasts ⟨2, ![a, 1]⟩)
    (n : Fin a) : shapeCast ⟨2, ![a, 1]⟩ x h (ix2 n (0 : Fin 1)) = x (ix1 n) :=
  shapeCast_apply x h _ _ (by
    rw [Shape.rowMajor_val_two, Shape.rowMajor_val_one]
    show n.val = n.val * 1 + 0
    omega)

/-- The weighted sum of rows depends on the weights and on column j of the rows only entry by entry. -/
theorem wsum_congr (a a' : (⟨1, ![100000]⟩ : Shape).Idx → EReal) (v v' : (⟨2, ![100000, 256]⟩ : Shape).Idx → EReal)
    (j : Fin 256) (ha : ∀ n : Fin 100000, a (ix1 n) = a' (ix1 n)) (hv : ∀ n : Fin 100000, v (ix2 n j) = v' (ix2 n j)) :
    Cert.Spec.wsum a v (ix1 j) = Cert.Spec.wsum a' v' (ix1 j) := by
  unfold Cert.Spec.wsum
  exact Finset.sum_congr rfl fun n _ => by
    show a (ix1 n) * v (ix2 n j) = a' (ix1 n) * v' (ix2 n j)
    rw [ha n, hv n]

variable (m : (ℓ : Loc nD τ sig) → Buf (Elt Ideal) ℓ) (ρ : Dev nD → PrngReg)

/-- The weights vector is not written after the scatter-add's stretch: at the return it holds what that stretch left. -/
theorem v23_kept (c : Dev nD) : W10 m ρ c (Proc.devRef .tc main_v23) = W8 m ρ c (Proc.devRef .tc main_v23) :=
  (StableHlo.after_of_writes_sub hostOps2 _ hostOps2_writes (by decide)).trans (W9_of_ne m ρ c main_v23 (by decide))

/-- The weighted-sum region's first operand is the weights vector as a column. -/
theorem v24_col (c : Dev nD) :
    W8 m ρ c (Proc.devRef .tc main_v24)
      = shapeCast S100000x1 (W8 m ρ c (Proc.devRef .tc main_v23)) shapeCasts_S100000_S100000x1 := by
  rw [show W8 m ρ c (Proc.devRef .tc main_v24) = _ from h1_6_v24 (W7 m ρ c),
    show W8 m ρ c (Proc.devRef .tc main_v23) = _ from h1_6_v23 (W7 m ρ c)]

/-- The projected value array reaches the weighted-sum region as the projection region left it. -/
theorem v0_2_kept (c : Dev nD) : W8 m ρ c (Proc.devRef .tc main_v0_2) = W1 m ρ c (Proc.devRef .tc main_v0_2) :=
  calc W8 m ρ c (Proc.devRef .tc main_v0_2)
    _ = W7 m ρ c (Proc.devRef .tc main_v0_2) := StableHlo.after_of_writes_sub hostOps1_6 _ hostOps1_6_writes (by decide)
    _ = W6 m ρ c (Proc.devRef .tc main_v0_2) := StableHlo.after_of_writes_sub hostOps1_5 _ hostOps1_5_writes (by decide)
    _ = W5 m ρ c (Proc.devRef .tc main_v0_2) := StableHlo.after_of_writes_sub hostOps1_4 _ hostOps1_4_writes (by decide)
    _ = W4 m ρ c (Proc.devRef .tc main_v0_2) := StableHlo.after_of_writes_sub hostOps1_3 _ hostOps1_3_writes (by decide)
    _ = W3 m ρ c (Proc.devRef .tc main_v0_2) := StableHlo.after_of_writes_sub hostOps1_2 _ hostOps1_2_writes (by decide)
    _ = W2 m ρ c (Proc.devRef .tc main_v0_2) := StableHlo.after_of_writes_sub hostOps1_1 _ hostOps1_1_writes (by decide)
    _ = W1 m ρ c (Proc.devRef .tc main_v0_2) := StableHlo.after_of_writes_sub hostOps1 _ hostOps1_writes (by decide)

/-- The embedding the kernel returns is the reference's embedding stage of the kernel's node weights and the
    reference's value projection of the kernel's arguments. -/
theorem emb_result (c : Dev nD) (aw : (⟨S100000, .f32⟩ : BufTy).Contents (Elt Ideal))
    (haw : W10 m ρ c (Proc.devRef .tc main_v23) = aw) :
    W10 m ρ c (Proc.devRef .tc main_v26)
      = embStage (F := Ideal) aw
          (vStage (m ((c.tc : Thread nD τ).loc main_arg0)) (m ((c.tc : Thread nD τ).loc main_arg6)) (m ((c.tc : Thread nD τ).loc main_arg7))) := by
  rw [embStage_eq]
  funext j
  obtain ⟨j0, rfl⟩ : ∃ j0 : Fin 256, j = ix1 j0 := ⟨j 0, eq_ix1 j⟩
  have e26 : W10 m ρ c (Proc.devRef .tc main_v26)
      = shapeCast S256 (W9 m ρ c (Proc.devRef .tc main_v25)) shapeCasts_S1x256_S256 := h2_v26 (W9 m ρ c)
  rw [e26]
  refine (shapeCast_1a_a_apply _ _ j0).trans ?_
  refine (congrFun (W9_arr m ρ c 2) (ix2 (0 : Fin 1) j0)).trans ?_
  refine (arr1_2 (VB m ρ) c j0).trans ?_
  have ea : ∀ n : Fin 100000, VB m ρ c main_v24 (ix2 n (0 : Fin 1)) = aw (ix1 n) := fun n => by
    show W8 m ρ c (Proc.devRef .tc main_v24) (ix2 n (0 : Fin 1)) = aw (ix1 n)
    rw [v24_col, ← v23_kept, haw]
    exact col_of_vec_apply _ _ n
  have ev : ∀ n : Fin 100000, VB m ρ c main_v0_2 (ix2 n j0) = vStage (F := Ideal) (m ((c.tc : Thread nD τ).loc main_arg0)) (m ((c.tc : Thread nD τ).loc main_arg6)) (m ((c.tc : Thread nD τ).loc main_arg7)) (ix2 n j0) := fun n => by
    show W8 m ρ c (Proc.devRef .tc main_v0_2) (ix2 n j0) = _
    rw [v0_2_kept, v_arr]
  exact wsum_congr _ _ _ _ j0 ea ev

end Cert.KernelIdeal.Hand

end
-- ==== Proof.Ref.Run.lean ====
/- The run of the reference program: @main as the list of its host operations in order, the operations of the
   functions it calls standing where the call stands, over that call's buffers; and what the result buffers hold
   once the list has run, as a composition of named stages of the arguments' launch contents. -/
import proofs.«425445_j56573309223705_1_alg».proof.Proof.Gen.ReferenceIdeal
import proofs.«425445_j56573309223705_1_alg».proof.Proof.Ref.Stages
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 67 operations, in order: its own sixty, and where leaky_relu is called that function's six
    followed by the one select of the function it calls in turn, over the call's buffers. -/
abbrev ops : List (HloOp τ sig (Elt F)) :=
  [ binary main_arg0 main_arg2 main_v0 ((fun l r => Host.dotGeneral dot_S100000x256_S256x1_S100000x1_1_0_0_1_n_n none l r) : (⟨S100000x256, .f32⟩ : BufTy).Contents (Elt F) → (⟨S256x1, .f32⟩ : BufTy).Contents (Elt F) → (⟨S100000x1, .f32⟩ : BufTy).Contents (Elt F)),
    unary main_arg3 main_v1 (broadcastInDim S1x1 ![1] bcast_S1_S1x1_1 : (⟨S1, .f32⟩ : BufTy).Contents (Elt F) → (⟨S1x1, .f32⟩ : BufTy).Contents (Elt F)),
    unary main_v1 main_v2 (broadcastInDim S100000x1 ![0, 1] bcast_S1x1_S100000x1_0_1 : (⟨S1x1, .f32⟩ : BufTy).Contents (Elt F) → (⟨S100000x1, .f32⟩ : BufTy).Contents (Elt F)),
    binary main_v0 main_v2 main_v3 (addf : (⟨S100000x1, .f32⟩ : BufTy).Contents (Elt F) → (⟨S100000x1, .f32⟩ : BufTy).Contents (Elt F) → (⟨S100000x1, .f32⟩ : BufTy).Contents (Elt F)),
    binary main_arg0 main_arg4 main_v4 ((fun l r => Host.dotGeneral dot_S100000x256_S256x1_S100000x1_1_0_0_1_n_n none l r) : (⟨S100000x256, .f32⟩ : BufTy).Contents (Elt F) → (⟨S256x1, .f32⟩ : BufTy).Contents (Elt F) → (⟨S100000x1, .f32⟩ : BufTy).Contents (Elt F)),
    unary main_arg5 main_v5 (broadcastInDim S1x1 ![1] bcast_S1_S1x1_1 : (⟨S1, .f32⟩ : BufTy).Contents (Elt F) → (⟨S1x1, .f32⟩ : BufTy).Contents (Elt F)),
    unary main_v5 main_v6 (broadcastInDim S100000x1 ![0, 1] bcast_S1x1_S100000x1_0_1 : (⟨S1x1, .f32⟩ : BufTy).Contents (Elt F) → (⟨S100000x1, .f32⟩ : BufTy).Contents (Elt F)),
    binary main_v4 main_v6 main_v7 (addf : (⟨S100000x1, .f32⟩ : BufTy).Contents (Elt F) → (⟨S100000x1, .f32⟩ : BufTy).Contents (Elt F) → (⟨S100000x1, .f32⟩ : BufTy).Contents (Elt F)),
    binary main_arg0 main_arg6 main_v8 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    unary main_arg7 main_v9 (broadcastInDim S1x256 ![1] bcast_S256_S1x256_1 : (⟨S256, .f32⟩ : BufTy).Contents (Elt F) → (⟨S1x256, .f32⟩ : BufTy).Contents (Elt F)),
    unary main_v9 main_v10 (broadcastInDim S100000x256 ![0, 1] bcast_S1x256_S100000x256_0_1 : (⟨S1x256, .f32⟩ : BufTy).Contents (Elt F) → (⟨S100000x256, .f32⟩ : BufTy).Contents (Elt F)),
    binary main_v8 main_v10 main_v11 (addf : (⟨S100000x256, .f32⟩ : BufTy).Contents (Elt F) → (⟨S100000x256, .f32⟩ : BufTy).Contents (Elt F) → (⟨S100000x256, .f32⟩ : BufTy).Contents (Elt F)),
    unary main_arg1 main_v12 ((extractStridedSlice S1x3200000 ![0, 0] · slices_S2x3200000_S1x3200000_0_0) : (⟨S2x3200000, .i32⟩ : BufTy).Contents (Elt F) → (⟨S1x3200000, .i32⟩ : BufTy).Contents (Elt F)),
    reshape main_v12 main_v13 rfl shapeCasts_S1x3200000_S3200000,
    unary main_arg1 main_v14 ((extractStridedSlice S1x3200000 ![1, 0] · slices_S2x3200000_S1x3200000_1_0) : (⟨S2x3200000, .i32⟩ : BufTy).Contents (Elt F) → (⟨S1x3200000, .i32⟩ : BufTy).Contents (Elt F)),
    reshape main_v14 main_v15 rfl shapeCasts_S1x3200000_S3200000,
    nullary main_c (constantI S_ 32 0#32),
    unary main_c main_v16 (broadcastInDim S3200000 ![] bcast_S_S3200000 : (⟨S_, .i32⟩ : BufTy).Contents (Elt F) → (⟨S3200000, .i32⟩ : BufTy).Contents (Elt F)),
    binary main_v13 main_v16 main_v17 (cmpi .slt : (⟨S3200000, .i32⟩ : BufTy).Contents (Elt F) → (⟨S3200000, .i32⟩ : BufTy).Contents (Elt F) → (⟨S3200000, .i1⟩ : BufTy).Contents (Elt F)),
    nullary main_c_0 (constantI S_ 32 100000#32),
    unary main_c_0 main_v18 (broadcastInDim S3200000 ![] bcast_S_S3200000 : (⟨S_, .i32⟩ : BufTy).Contents (Elt F) → (⟨S3200000, .i32⟩ : BufTy).Contents (Elt F)),
    binary main_v13 main_v18 main_v19 (addi : (⟨S3200000, .i32⟩ : BufTy).Contents (Elt F) → (⟨S3200000, .i32⟩ : BufTy).Contents (Elt F) → (⟨S3200000, .i32⟩ : BufTy).Contents (Elt F)),
    ternary main_v17 main_v19 main_v13 main_v20 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v20 main_v21 (broadcastInDim S3200000x1 ![0] bcast_S3200000_S3200000x1_0 : (⟨S3200000, .i32⟩ : BufTy).Contents (Elt F) → (⟨S3200000x1, .i32⟩ : BufTy).Contents (Elt F)),
    binary main_v3 main_v21 main_v22 ((fun x i => Host.gather gather_S100000x1_S3200000x1_S3200000x1_1_0_n_n_0_1_11 x i) : (⟨S100000x1, .f32⟩ : BufTy).Contents (Elt F) → (⟨S3200000x1, .i32⟩ : BufTy).Contents (Elt F) → (⟨S3200000x1, .f32⟩ : BufTy).Contents (Elt F)),
    nullary main_c_1 (constantI S_ 32 0#32),
    unary main_c_1 main_v23 (broadcastInDim S3200000 ![] bcast_S_S3200000 : (⟨S_, .i32⟩ : BufTy).Contents (Elt F) → (⟨S3200000, .i32⟩ : BufTy).Contents (Elt F)),
    binary main_v15 main_v23 main_v24 (cmpi .slt : (⟨S3200000, .i32⟩ : BufTy).Contents (Elt F) → (⟨S3200000, .i32⟩ : BufTy).Contents (Elt F) → (⟨S3200000, .i1⟩ : BufTy).Contents (Elt F)),
    nullary main_c_2 (constantI S_ 32 100000#32),
    unary main_c_2 main_v25 (broadcastInDim S3200000 ![] bcast_S_S3200000 : (⟨S_, .i32⟩ : BufTy).Contents (Elt F) → (⟨S3200000, .i32⟩ : BufTy).Contents (Elt F)),
    binary main_v15 main_v25 main_v26 (addi : (⟨S3200000, .i32⟩ : BufTy).Contents (Elt F) → (⟨S3200000, .i32⟩ : BufTy).Contents (Elt F) → (⟨S3200000, .i32⟩ : BufTy).Contents (Elt F)),
    ternary main_v24 main_v26 main_v15 main_v27 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v27 main_v28 (broadcastInDim S3200000x1 ![0] bcast_S3200000_S3200000x1_0 : (⟨S3200000, .i32⟩ : BufTy).Contents (Elt F) → (⟨S3200000x1, .i32⟩ : BufTy).Contents (Elt F)),
    binary main_v7 main_v28 main_v29 ((fun x i => Host.gather gather_S100000x1_S3200000x1_S3200000x1_1_0_n_n_0_1_11 x i) : (⟨S100000x1, .f32⟩ : BufTy).Contents (Elt F) → (⟨S3200000x1, .i32⟩ : BufTy).Contents (Elt F) → (⟨S3200000x1, .f32⟩ : BufTy).Contents (Elt F)),
    binary main_v22 main_v29 main_v30 (mulf : (⟨S3200000x1, .f32⟩ : BufTy).Contents (Elt F) → (⟨S3200000x1, .f32⟩ : BufTy).Contents (Elt F) → (⟨S3200000x1, .f32⟩ : BufTy).Contents (Elt F)),
    nullary main_cst (constant S_ .f32 0x00000000#32),
    binary main_v30 main_cst main_v31 ((fun x v => Host.reduceAdd x v reducesTo_S3200000x1_S3200000_d1 h_S_) : (⟨S3200000x1, .f32⟩ : BufTy).Contents (Elt F) → (⟨S_, .f32⟩ : BufTy).Contents (Elt F) → (⟨S3200000, .f32⟩ : BufTy).Contents (Elt F)),
    nullary main_cst_3 (constant S_ .f32 0x3E4CCCCD#32),
    TRef.nullary main_call0.cst (constant S_ .f32 0x00000000#32),
    TRef.unary main_call0.cst main_call0.v0 (broadcastInDim S3200000 ![] bcast_S_S3200000),
    TRef.binary (.of main_v31) main_call0.v0 main_call0.v1 (cmpf .oge),
    TRef.unary (.of main_cst_3) main_call0.v2 id,
    TRef.unary main_call0.v2 main_call0.v3 (broadcastInDim S3200000 ![] bcast_S_S3200000),
    TRef.binary main_call0.v3 (.of main_v31) main_call0.v4 mulf,
    TRef.ternary main_call0.v1 (.of main_v31) main_call0.v4 main_call0.call0.v0 select,
    nullary main_cst_4 (constant S_ .f32 0xFF800000#32),
    binary main_v32 main_cst_4 main_v33 ((fun x v => Host.reduce FloatOps.maximumf x v reducesTo_S3200000_S_d0 h_S_) : (⟨S3200000, .f32⟩ : BufTy).Contents (Elt F) → (⟨S_, .f32⟩ : BufTy).Contents (Elt F) → (⟨S_, .f32⟩ : BufTy).Contents (Elt F)),
    nullary main_cst_5 (constant S_ .f32 0xFF800000#32),
    binary main_cst_5 main_v33 main_v34 (maximumf : (⟨S_, .f32⟩ : BufTy).Contents (Elt F) → (⟨S_, .f32⟩ : BufTy).Contents (Elt F) → (⟨S_, .f32⟩ : BufTy).Contents (Elt F)),
    unary main_v34 main_v35 (broadcastInDim S1 ![] bcast_S_S1 : (⟨S_, .f32⟩ : BufTy).Contents (Elt F) → (⟨S1, .f32⟩ : BufTy).Contents (Elt F)),
    unary main_v35 main_v36 (broadcastInDim S3200000 ![0] bcast_S1_S3200000_0 : (⟨S1, .f32⟩ : BufTy).Contents (Elt F) → (⟨S3200000, .f32⟩ : BufTy).Contents (Elt F)),
    binary main_v32 main_v36 main_v37 (subf : (⟨S3200000, .f32⟩ : BufTy).Contents (Elt F) → (⟨S3200000, .f32⟩ : BufTy).Contents (Elt F) → (⟨S3200000, .f32⟩ : BufTy).Contents (Elt F)),
    unary main_v37 main_v38 (Host.exp : (⟨S3200000, .f32⟩ : BufTy).Contents (Elt F) → (⟨S3200000, .f32⟩ : BufTy).Contents (Elt F)),
    nullary main_cst_6 (constant S_ .f32 0x00000000#32),
    binary main_v38 main_cst_6 main_v39 ((fun x v => Host.reduceAdd x v reducesTo_S3200000_S_d0 h_S_) : (⟨S3200000, .f32⟩ : BufTy).Contents (Elt F) → (⟨S_, .f32⟩ : BufTy).Contents (Elt F) → (⟨S_, .f32⟩ : BufTy).Contents (Elt F)),
    unary main_v39 main_v40 (broadcastInDim S1 ![] bcast_S_S1 : (⟨S_, .f32⟩ : BufTy).Contents (Elt F) → (⟨S1, .f32⟩ : BufTy).Contents (Elt F)),
    unary main_v40 main_v41 (broadcastInDim S3200000 ![0] bcast_S1_S3200000_0 : (⟨S1, .f32⟩ : BufTy).Contents (Elt F) → (⟨S3200000, .f32⟩ : BufTy).Contents (Elt F)),
    binary main_v38 main_v41 main_v42 (Host.divf : (⟨S3200000, .f32⟩ : BufTy).Contents (Elt F) → (⟨S3200000, .f32⟩ : BufTy).Contents (Elt F) → (⟨S3200000, .f32⟩ : BufTy).Contents (Elt F)),
    nullary main_cst_7 (constant S_ .f32 0x00000000#32),
    unary main_cst_7 main_v43 (broadcastInDim S100000 ![] bcast_S_S100000 : (⟨S_, .f32⟩ : BufTy).Contents (Elt F) → (⟨S100000, .f32⟩ : BufTy).Contents (Elt F)),
    unary main_v13 main_v44 (broadcastInDim S3200000x1 ![0] bcast_S3200000_S3200000x1_0 : (⟨S3200000, .i32⟩ : BufTy).Contents (Elt F) → (⟨S3200000x1, .i32⟩ : BufTy).Contents (Elt F)),
    ternary main_v43 main_v44 main_v42 main_v45 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    unary main_v45 main_v46 (broadcastInDim S100000x1 ![0] bcast_S100000_S100000x1_0 : (⟨S100000, .f32⟩ : BufTy).Contents (Elt F) → (⟨S100000x1, .f32⟩ : BufTy).Contents (Elt F)),
    unary main_v46 main_v47 (broadcastInDim S100000x256 ![0, 1] bcast_S100000x1_S100000x256_0_1 : (⟨S100000x1, .f32⟩ : BufTy).Contents (Elt F) → (⟨S100000x256, .f32⟩ : BufTy).Contents (Elt F)),
    binary main_v47 main_v11 main_v48 (mulf : (⟨S100000x256, .f32⟩ : BufTy).Contents (Elt F) → (⟨S100000x256, .f32⟩ : BufTy).Contents (Elt F) → (⟨S100000x256, .f32⟩ : BufTy).Contents (Elt F)),
    nullary main_cst_8 (constant S_ .f32 0x00000000#32),
    binary main_v48 main_cst_8 main_v49 ((fun x v => Host.reduceAdd x v reducesTo_S100000x256_S256_d0 h_S_) : (⟨S100000x256, .f32⟩ : BufTy).Contents (Elt F) → (⟨S_, .f32⟩ : BufTy).Contents (Elt F) → (⟨S256, .f32⟩ : BufTy).Contents (Elt F)) ]

set_option maxRecDepth 4096 in
set_option maxHeartbeats 4000000 in
/-- @main is that straight line: its two windows, the outlined functions' definitions unfolded at their calls and
    the call's record at its fields, both sides are one chain of steps once sequencing is reassociated. -/
theorem main_eq (c : Dev nD) : main (F := F) c = seq ops := by
  simp only [main, main_part0, main_part1, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨
    binary_bufs_sub .., unary_bufs_sub .., unary_bufs_sub .., binary_bufs_sub .., binary_bufs_sub .., unary_bufs_sub ..,
    unary_bufs_sub .., binary_bufs_sub .., binary_bufs_sub .., unary_bufs_sub .., unary_bufs_sub .., binary_bufs_sub ..,
    unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., nullary_bufs_sub ..,
    binary_bufs_sub .., nullary_bufs_sub .., nullary_bufs_sub .., unary_bufs_sub .., binary_bufs_sub .., unary_bufs_sub ..,
    unary_bufs_sub .., binary_bufs_sub .., ternary_bufs_sub .., nullary_bufs_sub .., binary_bufs_sub .., nullary_bufs_sub ..,
    binary_bufs_sub .., unary_bufs_sub .., unary_bufs_sub .., binary_bufs_sub .., unary_bufs_sub .., nullary_bufs_sub ..,
    binary_bufs_sub .., unary_bufs_sub .., unary_bufs_sub .., binary_bufs_sub .., nullary_bufs_sub .., unary_bufs_sub ..,
    unary_bufs_sub .., ternary_bufs_sub .., unary_bufs_sub .., unary_bufs_sub .., binary_bufs_sub .., nullary_bufs_sub ..,
    binary_bufs_sub ..⟩

set_option maxRecDepth 8192 in
set_option maxHeartbeats 4000000 in
/-- The node weights after the list has run, from any contents: the stages composed. -/
theorem aw_eq (V : Valuation τ sig (Elt F)) :
    after ops V (main_v45 : DevRef τ sig)
      = awStage (attStage (qkStage (V (main_arg0 : DevRef τ sig)) (V (main_arg2 : DevRef τ sig)) (V (main_arg3 : DevRef τ sig))) (qkStage (V (main_arg0 : DevRef τ sig)) (V (main_arg4 : DevRef τ sig)) (V (main_arg5 : DevRef τ sig))) (rowStage (V (main_arg1 : DevRef τ sig))) (colStage (V (main_arg1 : DevRef τ sig)))) (rowStage (V (main_arg1 : DevRef τ sig))) := by
  after_results_simp
  rfl

set_option maxRecDepth 8192 in
set_option maxHeartbeats 4000000 in
/-- The embedding after the list has run, from any contents: the stages composed. -/
theorem emb_eq (V : Valuation τ sig (Elt F)) :
    after ops V (main_v49 : DevRef τ sig)
      = embStage (awStage (attStage (qkStage (V (main_arg0 : DevRef τ sig)) (V (main_arg2 : DevRef τ sig)) (V (main_arg3 : DevRef τ sig))) (qkStage (V (main_arg0 : DevRef τ sig)) (V (main_arg4 : DevRef τ sig)) (V (main_arg5 : DevRef τ sig))) (rowStage (V (main_arg1 : DevRef τ sig))) (colStage (V (main_arg1 : DevRef τ sig)))) (rowStage (V (main_arg1 : DevRef τ sig)))) (vStage (V (main_arg0 : DevRef τ sig)) (V (main_arg6 : DevRef τ sig)) (V (main_arg7 : DevRef τ sig))) := by
  after_results_simp
  rfl

/-! No operation of the list writes an argument's buffer: each holds at the end what it held at the start. -/
theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp
theorem arg4_eq (V : Valuation τ sig (Elt F)) : after ops V (main_arg4 : DevRef τ sig) = V (main_arg4 : DevRef τ sig) := by
  after_results_simp
theorem arg5_eq (V : Valuation τ sig (Elt F)) : after ops V (main_arg5 : DevRef τ sig) = V (main_arg5 : DevRef τ sig) := by
  after_results_simp
theorem arg6_eq (V : Valuation τ sig (Elt F)) : after ops V (main_arg6 : DevRef τ sig) = V (main_arg6 : DevRef τ sig) := by
  after_results_simp
theorem arg7_eq (V : Valuation τ sig (Elt F)) : after ops V (main_arg7 : DevRef τ sig) = V (main_arg7 : DevRef τ sig) := by
  after_results_simp

/-- On every device, for any float values, from any memory with zero counters: every weakly fair execution of
    @main terminates with the embedding and the node weights at the stages composed over the arguments' launch
    contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v49) = embStage (awStage (attStage (qkStage (m ((c.tc : Thread nD τ).loc main_arg0)) (m ((c.tc : Thread nD τ).loc main_arg2)) (m ((c.tc : Thread nD τ).loc main_arg3))) (qkStage (m ((c.tc : Thread nD τ).loc main_arg0)) (m ((c.tc : Thread nD τ).loc main_arg4)) (m ((c.tc : Thread nD τ).loc main_arg5))) (rowStage (m ((c.tc : Thread nD τ).loc main_arg1))) (colStage (m ((c.tc : Thread nD τ).loc main_arg1)))) (rowStage (m ((c.tc : Thread nD τ).loc main_arg1)))) (vStage (m ((c.tc : Thread nD τ).loc main_arg0)) (m ((c.tc : Thread nD τ).loc main_arg6)) (m ((c.tc : Thread nD τ).loc main_arg7)))
      ∧ r.2.mem ((c.tc : Thread nD τ).loc main_v45) = awStage (attStage (qkStage (m ((c.tc : Thread nD τ).loc main_arg0)) (m ((c.tc : Thread nD τ).loc main_arg2)) (m ((c.tc : Thread nD τ).loc main_arg3))) (qkStage (m ((c.tc : Thread nD τ).loc main_arg0)) (m ((c.tc : Thread nD τ).loc main_arg4)) (m ((c.tc : Thread nD τ).loc main_arg5))) (rowStage (m ((c.tc : Thread nD τ).loc main_arg1))) (colStage (m ((c.tc : Thread nD τ).loc main_arg1)))) (rowStage (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v49).trans (emb_eq _), (h c main_v45).trans (aw_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _), (h c main_arg7).trans (arg7_eq _)⟩)
    (run_seq scopedRefs_eq scopedSems_eq defs main (fun _ => ops) main_eq (fun _ => ops_sub) m ρ)

end Cert.ReferenceIdeal.Hand

end
-- ==== Proof.PreRange.lean ====
/-
  What the precondition says of the edge list: the predicate's last conjunct is the conjunction, over all
  2 × 3200000 entries, of 0 ≤ e and e < 100000 (signed compares of 32-bit words), so under the precondition every
  entry, read as a natural number, is below 100000: a valid node number.
-/
import proofs.«425445_j56573309223705_1_alg».proof.Pre_finite_inputs
import proofs.«425445_j56573309223705_1_alg».proof.Proof.Gen.Pre_finite_inputs
import Idealize.ShloMosaic.Lib.ReduceAll
import Idealize.ShloMosaic.Lib.Affine
import Idealize.ShloMosaic.Lib.ValueIdx

namespace Cert.Hand

open Idealize.ShloMosaic

/-- A 32-bit word that is signed-at-least 0 and signed-below 100000 is, as a natural number, below 100000. -/
theorem word_inrange (a : BitVec 32) (h0 : IntOp.cmpi .sge a 0#32 = 1#1) (h1 : IntOp.cmpi .slt a 100000#32 = 1#1) :
    a.toNat < 100000 := by
  rw [IntOp.cmpi_sge] at h0
  rw [IntOp.cmpi_slt] at h1
  have e0 : (0#32 : BitVec 32).toInt = 0 := by decide
  have e1 : (100000#32 : BitVec 32).toInt = 100000 := by decide
  rw [e0] at h0; rw [e1] at h1
  rw [BitVec.toInt_eq_toNat_cond] at h0 h1
  have := a.isLt
  split at h1 <;> omega

open Cert.Pre_finite_inputs

variable [Cert.Pre_finite_inputs.Facts]

/-- The scalar shape has one index. -/
instance : Subsingleton S_.Idx := ⟨fun a b => funext fun d => d.elim0⟩

/-- Under the precondition every entry of the edge list is a node number: below 100000 as a natural number. -/
theorem edge_inrange {F : FTy → Type} [FloatOps F] (a0 : FVec F S100000x256 .f32) (a1 : IVec S2x3200000 32)
    (a2 : FVec F S256x1 .f32) (a3 : FVec F S1 .f32) (a4 : FVec F S256x1 .f32) (a5 : FVec F S1 .f32)
    (a6 : FVec F S256x256 .f32) (a7 : FVec F S256 .f32)
    (h : fn (F := F) a0 a1 a2 a3 a4 a5 a6 a7 = fun _ => 1#1) (i : S2x3200000.Idx) : (a1 i).toNat < 100000 := by
  have h' := congrFun h ValueIdx.ix0
  dsimp only [fn, fn_part1, fn_part2] at h'
  have h2 := (IntOp.andi_eq_one.mp h').2
  have h3 := Host.reduce_andi_all _ _ _ _ _ h2 i
  have h4 := IntOp.andi_eq_one.mp h3
  exact word_inrange _ h4.1 h4.2

end Cert.Hand
-- ==== Proof.lean ====
/-
  The certificate's five claims for the graph-attention kernel against its reference, under the precondition that every
  float input is finite and every entry of the edge list is a node number (0 ≤ e < 100000).

  The kernel projects x to q, k (one column each) and v (256 columns) in a first pipelined region, gathers q at the
  edges' row indices and k at their column indices on the host, multiplies, applies the leaky rectifier and the softmax
  over all edges, scatter-adds the weights to the rows' nodes, and in a second pipelined region accumulates
  Σ_n weight[n]·v[n, ·] over fifty blocks of rows. The reference does the same with plain array operations.
  Over the extended reals the two agree: a product by the matrix unit into a zero accumulator and a dot_general are the
  same sum, changes of float format are the identity, a gather at an index that is a node number reads that entry on both
  sides (the kernel's fill value for out-of-range indices and the reference's clamp are never used), the sum over an
  axis of size one is its term, and a sum over blocks of sums over a block's rows is the sum over all rows.

  The three frames: the word-level and the idealized kernel run to the end with every unscoped buffer at a named
  contents, in particular the argument arrays unchanged; the reference is a straight line of host operations.
  No operation was rewritten by the idealization, so nothing is to be preserved.
-/
import proofs.«425445_j56573309223705_1_alg».proof.Defs
import proofs.«425445_j56573309223705_1_alg».proof.Proof.Gen.Kernel
import proofs.«425445_j56573309223705_1_alg».proof.Proof.Gen.KernelIdeal
import proofs.«425445_j56573309223705_1_alg».proof.Proof.Gen.ReferenceIdeal
import proofs.«425445_j56573309223705_1_alg».proof.Proof.Gen.Pre_finite_inputs
import proofs.«425445_j56573309223705_1_alg».proof.Proof.K.Run
import proofs.«425445_j56573309223705_1_alg».proof.Proof.KI.Run
import proofs.«425445_j56573309223705_1_alg».proof.Proof.KI.Bridge
import proofs.«425445_j56573309223705_1_alg».proof.Proof.KI.EmbVal
import proofs.«425445_j56573309223705_1_alg».proof.Proof.Ref.Run
import proofs.«425445_j56573309223705_1_alg».proof.Proof.PreRange
import Idealize.ShloMosaic.Adequacy
import Idealize.ShloMosaic.Init

noncomputable section

namespace Cert.Proof

open Idealize.ShloMosaic Idealize.ShloMosaic.TcCoe Idealize.SL.Sem

/-- The word-level kernel runs to the end and leaves its arguments unchanged. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- The reference runs to the end and leaves its arguments unchanged: its run, the two results dropped. -/
theorem frame_ri : Cert.frame_ReferenceIdeal := fun m ρ _ =>
  (θ_run Cert.ReferenceIdeal.defs _ _).mono (fun _ h c => (h c).2.2) (Cert.ReferenceIdeal.Hand.run (F := Ideal) m ρ)

/-- The idealization rewrote no operation. -/
theorem preserves : Cert.preserves_Kernel_KernelIdeal := trivial

/-- From memories agreeing on the arguments, both idealized programs end with the same embedding and the same node
    weights: the kernel's final buffers are the reference's stages of the common arguments. -/
theorem algebraic : Cert.algebraic_KernelIdeal_ReferenceIdeal := by
  intro m ρ m' ρ' hpre hagree
  have hE : ∀ (c : Dev Cert.KernelIdeal.nD) i,
      (m ((c.tc : Thread Cert.KernelIdeal.nD Cert.KernelIdeal.τ).loc Cert.KernelIdeal.main_arg1) i).toNat < 100000 :=
    fun c i => Cert.Hand.edge_inrange _ _ _ _ _ _ _ _ (hpre c) i
  refine ⟨fun c => Cert.KernelIdeal.Hand.W10 m ρ c (Proc.devRef .tc Cert.KernelIdeal.main_v26),
    fun c => Cert.KernelIdeal.Hand.W10 m ρ c (Proc.devRef .tc Cert.KernelIdeal.main_v23), ?_, ?_⟩
  · refine (θ_run Cert.KernelIdeal.defs _ _).mono (fun r h c => ?_) (Cert.KernelIdeal.Hand.run_all (F := Ideal) m ρ)
    refine ⟨h c _ (Cert.KernelIdeal.Hand.mem_uc Cert.KernelIdeal.main_v26 (by decide)),
      h c _ (Cert.KernelIdeal.Hand.mem_uc Cert.KernelIdeal.main_v23 (by decide)),
      (h c _ (Cert.KernelIdeal.Hand.mem_uc Cert.KernelIdeal.main_arg0 (by decide))).trans (Cert.KernelIdeal.Hand.W10_arg m ρ c _ (by decide)),
      (h c _ (Cert.KernelIdeal.Hand.mem_uc Cert.KernelIdeal.main_arg1 (by decide))).trans (Cert.KernelIdeal.Hand.W10_arg m ρ c _ (by decide)),
      (h c _ (Cert.KernelIdeal.Hand.mem_uc Cert.KernelIdeal.main_arg2 (by decide))).trans (Cert.KernelIdeal.Hand.W10_arg m ρ c _ (by decide)),
      (h c _ (Cert.KernelIdeal.Hand.mem_uc Cert.KernelIdeal.main_arg3 (by decide))).trans (Cert.KernelIdeal.Hand.W10_arg m ρ c _ (by decide)),
      (h c _ (Cert.KernelIdeal.Hand.mem_uc Cert.KernelIdeal.main_arg4 (by decide))).trans (Cert.KernelIdeal.Hand.W10_arg m ρ c _ (by decide)),
      (h c _ (Cert.KernelIdeal.Hand.mem_uc Cert.KernelIdeal.main_arg5 (by decide))).trans (Cert.KernelIdeal.Hand.W10_arg m ρ c _ (by decide)),
      (h c _ (Cert.KernelIdeal.Hand.mem_uc Cert.KernelIdeal.main_arg6 (by decide))).trans (Cert.KernelIdeal.Hand.W10_arg m ρ c _ (by decide)),
      (h c _ (Cert.KernelIdeal.Hand.mem_uc Cert.KernelIdeal.main_arg7 (by decide))).trans (Cert.KernelIdeal.Hand.W10_arg m ρ c _ (by decide))⟩
  · refine (θ_run Cert.ReferenceIdeal.defs _ _).mono (fun r h c => ⟨(h c).1.trans ?_, (h c).2.1.trans ?_, (h c).2.2⟩)
      (Cert.ReferenceIdeal.Hand.run (F := Ideal) m' ρ')
    · rw [(hagree c).1, (hagree c).2.1, (hagree c).2.2.1, (hagree c).2.2.2.1, (hagree c).2.2.2.2.1, (hagree c).2.2.2.2.2.1,
        (hagree c).2.2.2.2.2.2.1, (hagree c).2.2.2.2.2.2.2]
      exact (Cert.KernelIdeal.Hand.emb_result m ρ c _ (Cert.KernelIdeal.Hand.result_aw m ρ c (hE c))).symm
    · rw [(hagree c).1, (hagree c).2.1, (hagree c).2.2.1, (hagree c).2.2.2.1, (hagree c).2.2.2.2.1, (hagree c).2.2.2.2.2.1]
      exact (Cert.KernelIdeal.Hand.result_aw m ρ c (hE c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
